-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S256x512 : Shape := ⟨2, ![256, 512]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part5 {F : FTy → Type} [FloatOps F] (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  main_v88

def fn_part4 {F : FTy → Type} [FloatOps F] (main_arg14 : FVec F S256x512 .f32) (main_arg15 : FVec F S256 .f32) (main_arg16 : FVec F S256x512 .f32) (main_arg17 : FVec F S256 .f32) (main_v63 : IVec S_ 1) (main_v67 : IVec S_ 1) : IVec S_ 1 :=
  let main_v68 : IVec S_ 1 := andi main_v63 main_v67
  let main_v69 : FVec F S256x512 .f32 := Host.absf main_arg14
  let main_cst_26 : FVec F S_ .f32 := constant S_ .f32 0x7F800000#32
  let main_v70 : FVec F S256x512 .f32 := broadcastInDim S256x512 ![] bcast_S_S256x512 main_cst_26
  let main_v71 : IVec S256x512 1 := cmpf .olt main_v69 main_v70
  let main_c_27 : IVec S_ 1 := constantI S_ 1 1#1
  let main_v72 : IVec S_ 1 := (fun x v => Host.reduce IntOp.andi x v reducesTo_S256x512_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x512 .f32 := Host.absf main_arg16
  let main_cst_30 : FVec F S_ .f32 := constant S_ .f32 0x7F800000#32
  let main_v80 : FVec F S256x512 .f32 := broadcastInDim S256x512 ![] bcast_S_S256x512 main_cst_30
  let main_v81 : IVec S256x512 1 := cmpf .olt main_v79 main_v80
  let main_c_31 : IVec S_ 1 := constantI S_ 1 1#1
  let main_v82 : IVec S_ 1 := (fun x v => Host.reduce IntOp.andi x v reducesTo_S256x512_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S256x256 .f32) (main_arg13 : FVec F S256 .f32) (main_arg14 : FVec F S256x512 .f32) (main_arg15 : FVec F S256 .f32) (main_arg16 : FVec F S256x512 .f32) (main_arg17 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x512 .f32) (main_arg15 : FVec F S256 .f32) (main_arg16 : FVec F S256x512 .f32) (main_arg17 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_v48 main_v49 main_v50

def fn_part1 {F : FTy → Type} [FloatOps F] (main_arg4 : FVec F S4096x4096 .f32) (main_arg5 : FVec F S4096x4096 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x512 .f32) (main_arg15 : FVec F S256 .f32) (main_arg16 : FVec F S256x512 .f32) (main_arg17 : FVec F S256 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S4096x256 .f32) (main_arg1 : FVec F S4096x256 .f32) (main_arg2 : FVec F S4096x4096 .f32) (main_arg3 : FVec F S4096x4096 .f32) (main_arg4 : FVec F S4096x4096 .f32) (main_arg5 : FVec F S4096x4096 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x512 .f32) (main_arg15 : FVec F S256 .f32) (main_arg16 : FVec F S256x512 .f32) (main_arg17 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S256x512 : Shape := ⟨2, ![256, 512]⟩
abbrev S1x256 : Shape := ⟨2, ![1, 256]⟩
abbrev S256x4096 : Shape := ⟨2, ![256, 4096]⟩

abbrev nBuf : Space → Nat
  | .hbm => 41
  | .vmem => 40
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x512, .f32⟩
  | .hbm, ⟨15, _⟩ => ⟨S256, .f32⟩
  | .hbm, ⟨16, _⟩ => ⟨S256x512, .f32⟩
  | .hbm, ⟨17, _⟩ => ⟨S256, .f32⟩
  | .hbm, ⟨18, _⟩ => ⟨S4096x256, .bf16⟩
  | .hbm, ⟨19, _⟩ => ⟨S4096x256, .bf16⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S256x256, .f32⟩
  | .hbm, ⟨27, _⟩ => ⟨S256x256, .f32⟩
  | .hbm, ⟨28, _⟩ => ⟨S256x256, .bf16⟩
  | .hbm, ⟨29, _⟩ => ⟨S256x256, .f32⟩
  | .hbm, ⟨30, _⟩ => ⟨S256x256, .f32⟩
  | .hbm, ⟨31, _⟩ => ⟨S256x256, .bf16⟩
  | .hbm, ⟨32, _⟩ => ⟨S256x256, .f32⟩
  | .hbm, ⟨33, _⟩ => ⟨S256x256, .f32⟩
  | .hbm, ⟨34, _⟩ => ⟨S256x256, .bf16⟩
  | .hbm, ⟨35, _⟩ => ⟨S256x256, .f32⟩
  | .hbm, ⟨36, _⟩ => ⟨S256x256, .f32⟩
  | .hbm, ⟨37, _⟩ => ⟨S256x256, .bf16⟩
  | .hbm, ⟨38, _⟩ => ⟨S4096x256, .bf16⟩
  | .hbm, ⟨39, _⟩ => ⟨S4096x256, .bf16⟩
  | .hbm, ⟨40, _⟩ => ⟨S4096x256, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x256, .bf16⟩
  | .local _ .vmem, ⟨5, _⟩ => ⟨S4096x256, .bf16⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S4096x256, .bf16⟩
  | .local _ .vmem, ⟨15, _⟩ => ⟨S4096x256, .bf16⟩
  | .local _ .vmem, ⟨16, _⟩ => ⟨S256x4096, .f32⟩
  | .local _ .vmem, ⟨17, _⟩ => ⟨S256x4096, .f32⟩
  | .local _ .vmem, ⟨18, _⟩ => ⟨S256x4096, .f32⟩
  | .local _ .vmem, ⟨19, _⟩ => ⟨S256x4096, .f32⟩
  | .local _ .vmem, ⟨20, _⟩ => ⟨S4096x256, .bf16⟩
  | .local _ .vmem, ⟨21, _⟩ => ⟨S4096x256, .bf16⟩
  | .local _ .vmem, ⟨22, _⟩ => ⟨S256x256, .bf16⟩
  | .local _ .vmem, ⟨23, _⟩ => ⟨S256x256, .bf16⟩
  | .local _ .vmem, ⟨24, _⟩ => ⟨S256x256, .bf16⟩
  | .local _ .vmem, ⟨25, _⟩ => ⟨S256x256, .bf16⟩
  | .local _ .vmem, ⟨26, _⟩ => ⟨S256x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S256x256, .bf16⟩
  | .local _ .vmem, ⟨31, _⟩ => ⟨S256x256, .bf16⟩
  | .local _ .vmem, ⟨32, _⟩ => ⟨S1x256, .f32⟩
  | .local _ .vmem, ⟨33, _⟩ => ⟨S256x256, .bf16⟩
  | .local _ .vmem, ⟨34, _⟩ => ⟨S256x256, .bf16⟩
  | .local _ .vmem, ⟨35, _⟩ => ⟨S1x256, .f32⟩
  | .local _ .vmem, ⟨36, _⟩ => ⟨S256x256, .f32⟩
  | .local _ .vmem, ⟨37, _⟩ => ⟨S256x256, .f32⟩
  | .local _ .vmem, ⟨38, _⟩ => ⟨S4096x256, .bf16⟩
  | .local _ .vmem, ⟨39, _⟩ => ⟨S4096x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev main_v21 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg15_0 : Ref sig .tc := ⟨.vmem, 35, rfl⟩
abbrev cc1_stg16_0 : Ref sig .tc := ⟨.vmem, 36, rfl⟩
abbrev cc1_stg16_1 : Ref sig .tc := ⟨.vmem, 37, rfl⟩
abbrev cc1_scratch0 : Ref sig .tc := ⟨.vmem, 38, rfl⟩
abbrev cc1_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem15_0 : DmaSem sig := 33
abbrev cc1_sem16_0 : DmaSem sig := 34
abbrev cc1_sem16_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x256 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x256 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S256x256 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  bitsLt_bf16_f32 : FTy.bits .bf16 < FTy.bits .f32
  shapeCasts_S256_S1x256 : S256.ShapeCasts S1x256
  slices_S256x512_S256x256_0_0 : S256x512.Slices ![0, 0] S256x256
  transposes_S256x256_S256x256_1_0 : S256x256.Transposes [1, 0] S256x256
  slices_S256x512_S256x256_0_256 : S256x512.Slices ![0, 256] S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  packedbf16_S4096x256_S4096x256_0_0 : (Rect.unit (s := S4096x256) ![0, 0] S4096x256.size inb_S4096x256_S4096x256_0_0).PackedRows (EltTy.packing .bf16)
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  packedbf16_S256x256_S256x256_0_0 : (Rect.unit (s := S256x256) ![0, 0] S256x256.size inb_S256x256_S256x256_0_0).PackedRows (EltTy.packing .bf16)
  shapeCasts_S256x256_S256x256 : S256x256.ShapeCasts S256x256
  dot_S4096x256_S256x256_S4096x256_1_0_0_1_n_n_wf : DotDims.WF S4096x256 S256x256 S4096x256 [1] [0] [0] [1] [] []
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .bf16 = 32 ∨ (Rect.block (s := S4096x256) S4096x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x256.size a
  hwx0_3 : ∀ i : grid0.Coords, EltTy.bits .bf16 = 32 ∨ (Rect.block (s := S4096x256) S4096x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S4096x256.size a
  hwx0_8 : ∀ i : grid0.Coords, EltTy.bits .bf16 = 32 ∨ (Rect.block (s := S4096x256) S256x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S4096x256.size a
  hwx0_9 : ∀ i : grid0.Coords, EltTy.bits .bf16 = 32 ∨ (Rect.block (s := S4096x256) S256x256.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S4096x256.size a
  hwx1_2 : ∀ i : grid1.Coords, EltTy.bits .bf16 = 32 ∨ (Rect.block (s := S4096x256) S4096x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x256.size a
  hwx1_3 : ∀ i : grid1.Coords, EltTy.bits .bf16 = 32 ∨ (Rect.block (s := S4096x256) S4096x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S4096x256.size a
  hwx1_4 : ∀ i : grid1.Coords, EltTy.bits .bf16 = 32 ∨ (Rect.block (s := S4096x256) S256x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S4096x256.size a
  hwx1_5 : ∀ i : grid1.Coords, EltTy.bits .bf16 = 32 ∨ (Rect.block (s := S4096x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S256x256.size a
  hwx1_8 : ∀ i : grid1.Coords, EltTy.bits .f32 = 32 ∨ (Rect.block (s := S256x256) S256x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256x256.size a ≤ S256x256.size a
  hwx1_10 : ∀ i : grid1.Coords, EltTy.bits .bf16 = 32 ∨ (Rect.block (s := S256x256) S256x256.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x256.size a ≤ S256x256.size a
  hwx1_11 : ∀ i : grid1.Coords, EltTy.bits .bf16 = 32 ∨ (Rect.block (s := S256x256) S256x256.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S256x256.size a ≤ S256x256.size a
  hwx1_13 : ∀ i : grid1.Coords, EltTy.bits .bf16 = 32 ∨ (Rect.block (s := S256x256) S256x256.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S256x256.size a ≤ S256x256.size a
  hwx1_14 : ∀ i : grid1.Coords, EltTy.bits .bf16 = 32 ∨ (Rect.block (s := S256x256) S256x256.size (cc1_transform_14 i) (hinb1_14 i)).WholeWords (EltTy.packing .bf16)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x256.size a ≤ S1x256.size a
  hwx1_15 : ∀ i : grid1.Coords, EltTy.bits .f32 = 32 ∨ (Rect.block (s := S1x256) S1x256.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S256x256.size a ≤ S4096x256.size a
  hwx1_16 : ∀ i : grid1.Coords, EltTy.bits .f32 = 32 ∨ (Rect.block (s := S4096x256) S256x256.size (cc1_transform_16 i) (hinb1_16 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_arg3) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20_0) S256x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v20_1) S256x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg2) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20_0) S4096x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20_1) S4096x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S256x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S256x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v5) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v10) S256x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v13) S256x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v6) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v16) S256x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v19) S256x256.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v7) S1x256.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v21) S256x256.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S256x512 : Shape := ⟨2, ![256, 512]⟩
abbrev S1x256 : Shape := ⟨2, ![1, 256]⟩
abbrev S_ : Shape := ⟨0, ![]⟩
abbrev S4096x512 : Shape := ⟨2, ![4096, 512]⟩
abbrev S512x256 : Shape := ⟨2, ![512, 256]⟩

abbrev nBuf : Space → Nat
  | .hbm => 91
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x512, .f32⟩
  | .hbm, ⟨15, _⟩ => ⟨S256, .f32⟩
  | .hbm, ⟨16, _⟩ => ⟨S256x512, .f32⟩
  | .hbm, ⟨17, _⟩ => ⟨S256, .f32⟩
  | .hbm, ⟨18, _⟩ => ⟨S4096x256, .f32⟩
  | .hbm, ⟨19, _⟩ => ⟨S4096x256, .f32⟩
  | .hbm, ⟨20, _⟩ => ⟨S1x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096x256, .f32⟩
  | .hbm, ⟨25, _⟩ => ⟨S4096x256, .i1⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S1x256, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096x256, .f32⟩
  | .hbm, ⟨37, _⟩ => ⟨S4096x256, .i1⟩
  | .hbm, ⟨38, _⟩ => ⟨S_, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S1x256, .f32⟩
  | .hbm, ⟨45, _⟩ => ⟨S4096x256, .f32⟩
  | .hbm, ⟨46, _⟩ => ⟨S4096x256, .f32⟩
  | .hbm, ⟨47, _⟩ => ⟨S_, .f32⟩
  | .hbm, ⟨48, _⟩ => ⟨S4096x256, .f32⟩
  | .hbm, ⟨49, _⟩ => ⟨S4096x256, .i1⟩
  | .hbm, ⟨50, _⟩ => ⟨S_, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S4096x256, .f32⟩
  | .hbm, ⟨56, _⟩ => ⟨S1x256, .f32⟩
  | .hbm, ⟨57, _⟩ => ⟨S4096x256, .f32⟩
  | .hbm, ⟨58, _⟩ => ⟨S4096x256, .f32⟩
  | .hbm, ⟨59, _⟩ => ⟨S_, .f32⟩
  | .hbm, ⟨60, _⟩ => ⟨S4096x256, .f32⟩
  | .hbm, ⟨61, _⟩ => ⟨S4096x256, .i1⟩
  | .hbm, ⟨62, _⟩ => ⟨S_, .f32⟩
  | .hbm, ⟨63, _⟩ => ⟨S4096x256, .f32⟩
  | .hbm, ⟨64, _⟩ => ⟨S4096x256, .f32⟩
  | .hbm, ⟨65, _⟩ => ⟨S4096x256, .f32⟩
  | .hbm, ⟨66, _⟩ => ⟨S4096x512, .f32⟩
  | .hbm, ⟨67, _⟩ => ⟨S512x256, .f32⟩
  | .hbm, ⟨68, _⟩ => ⟨S4096x256, .f32⟩
  | .hbm, ⟨69, _⟩ => ⟨S1x256, .f32⟩
  | .hbm, ⟨70, _⟩ => ⟨S4096x256, .f32⟩
  | .hbm, ⟨71, _⟩ => ⟨S4096x256, .f32⟩
  | .hbm, ⟨72, _⟩ => ⟨S4096x512, .f32⟩
  | .hbm, ⟨73, _⟩ => ⟨S512x256, .f32⟩
  | .hbm, ⟨74, _⟩ => ⟨S4096x256, .f32⟩
  | .hbm, ⟨75, _⟩ => ⟨S1x256, .f32⟩
  | .hbm, ⟨76, _⟩ => ⟨S4096x256, .f32⟩
  | .hbm, ⟨77, _⟩ => ⟨S4096x256, .f32⟩
  | .hbm, ⟨78, _⟩ => ⟨S_, .f32⟩
  | .hbm, ⟨79, _⟩ => ⟨S4096x256, .f32⟩
  | .hbm, ⟨80, _⟩ => ⟨S4096x256, .f32⟩
  | .hbm, ⟨81, _⟩ => ⟨S_, .f32⟩
  | .hbm, ⟨82, _⟩ => ⟨S4096x256, .f32⟩
  | .hbm, ⟨83, _⟩ => ⟨S4096x256, .f32⟩
  | .hbm, ⟨84, _⟩ => ⟨S_, .f32⟩
  | .hbm, ⟨85, _⟩ => ⟨S4096x256, .f32⟩
  | .hbm, ⟨86, _⟩ => ⟨S4096x256, .f32⟩
  | .hbm, ⟨87, _⟩ => ⟨S_, .f32⟩
  | .hbm, ⟨88, _⟩ => ⟨S4096x256, .f32⟩
  | .hbm, ⟨89, _⟩ => ⟨S4096x256, .f32⟩
  | .hbm, ⟨90, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call4_cst : Ref sig .tc := ⟨.hbm, 78, rfl⟩
abbrev main_call4_v0 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_call5_cst : Ref sig .tc := ⟨.hbm, 84, rfl⟩
abbrev main_call5_v0 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  concatenates_S4096x256_S4096x256_S4096x512_d1 : Shape.Concatenates [S4096x256, S4096x256] S4096x512 1
  transposes_S256x512_S512x256_1_0 : S256x512.Transposes [1, 0] S512x256
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []
  dot_S4096x512_S512x256_S4096x256_1_0_0_1_n_n_wf : DotDims.WF S4096x512 S512x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

class Facts : Prop extends Facts₀ where

variable [Facts]
-- ==== Proof.Kernel.R0.lean ====
import proofs.«176739_g8323646620422_cont_9to1_m_1182_25_alg».proof.Proof.Gen.Kernel.Launch
import proofs.«176739_g8323646620422_cont_9to1_m_1182_25_alg».proof.Proof.Gen.Kernel.Skeleton
import proofs.«176739_g8323646620422_cont_9to1_m_1182_25_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: both paths' first graph-convolution layer

Its body runs at sixteen grid points, one block of 256 adjacency rows each. At the FIRST point only it fills two scratch
buffers with the supports `x · W` of the two paths (whole arrays); at every point it multiplies the point's adjacency
rows by the support, adds the bias and applies the leaky relu. The scratch buffers are carried from point to point:
after the first point they hold the supports, a function of the region's input arrays alone. -/

theorem hz2 : (![0, 0] : Fin 2 → ℕ) = fun _ => 0 := by funext a; fin_cases a <;> rfl

/-- The body's one branch: taken exactly at the grid's first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

set_option maxHeartbeats 2000000 in
theorem sound_kernel0_B (c : Dev nD) (E : Set ℕ) (i : grid0.Coords) (hc : ¬cond0_0 i)
    (arg1 : Memref sig .tc .vmem S256x4096 .f32) (harg1 : arg1.IsWhole) (arg2 : Memref sig .tc .vmem S256x4096 .f32) (harg2 : arg2.IsWhole)
    (arg3 : Memref sig .tc .vmem S4096x256 .bf16) (harg3 : arg3.IsWhole) (arg4 : Memref sig .tc .vmem S4096x256 .bf16) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S256x256 .f32) (harg7 : arg7.IsWhole) (arg8 : Memref sig .tc .vmem S1x256 .f32) (harg8 : arg8.IsWhole)
    (arg9 : Memref sig .tc .vmem S256x256 .bf16) (harg9 : arg9.IsWhole) (arg10 : Memref sig .tc .vmem S256x256 .bf16) (harg10 : arg10.IsWhole)
    (arg11 : Memref sig .tc .vmem S4096x256 .bf16) (harg11 : arg11.IsWhole) (arg12 : Memref sig .tc .vmem S4096x256 .bf16) (harg12 : arg12.IsWhole)
    (x1 : Vec F S256x4096 .f32) (x2 : Vec F S256x4096 .f32) (x3 : Vec F S4096x256 .bf16) (x4 : Vec F S4096x256 .bf16)
    (x5 : Vec F S256x256 .f32) (x6 : Vec F S1x256 .f32) (x7 : Vec F S256x256 .f32) (x8 : Vec F S1x256 .f32)
    (s1 s2 : Vec F S4096x256 .bf16) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d) ∗ (∃ d, owns (c : Thread nD τ) arg10 fullShare d)
        ∗ owns (c : Thread nD τ) arg11 fullShare s1 ∗ owns (c : Thread nD τ) arg12 fullShare s2
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
            ∗ owns (c : Thread nD τ) arg9 fullShare (k0_pay3 x1 s1 x6) ∗ owns (c : Thread nD τ) arg10 fullShare (k0_pay4 x2 s2 x8)
            ∗ owns (c : Thread nD τ) arg11 fullShare s1 ∗ owns (c : Thread nD τ) arg12 fullShare s2) -∗ K ⟨⟩))
      ⊢ wp frame (wpE (defs₀ (F := F)) Variants.none c none) E (cc0__stage1_body i arg1 harg1 arg2 harg2 arg3 harg3 arg4 harg4 arg5 harg5 arg6 harg6 arg7 harg7 arg8 harg8 arg9 harg9 arg10 harg10 arg11 harg11 arg12 harg12) K := by
  simp only [cc0__stage1_body_eq_skeleton]; unfold cc0__stage1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg11.eq_unread hf11; obtain rfl := harg12.eq_unread hf12
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (View.read_writes_eq_canon _ _ _ (fun y => ?_)).trans ?_
    · exact ⟨_, List.mem_singleton_self _, View.mem_set_unit_zero (S := S256x256) hz2 inb_S256x256_S256x256_0_0 y⟩
    rw [View.canon_unit_zero hz2]
    sl_unfold_words
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  isplitl [H10]
  · iexists _; isplitr
    swap; · iexact H10
    ipureintro
    refine (View.read_writes_eq_canon _ _ _ (fun y => ?_)).trans ?_
    · exact ⟨_, List.mem_singleton_self _, View.mem_set_unit_zero (S := S256x256) hz2 inb_S256x256_S256x256_0_0 y⟩
    rw [View.canon_unit_zero hz2]
    sl_unfold_words
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  isplitl [H11]
  · iexists _; isplitr; · ipureintro; exact harg11.read_unread _
    iexact H11
  iexists _; isplitr; · ipureintro; exact harg12.read_unread _
  iexact H12

set_option maxHeartbeats 2000000 in
theorem sound_kernel0_A (c : Dev nD) (E : Set ℕ) (i : grid0.Coords) (hc : cond0_0 i)
    (arg1 : Memref sig .tc .vmem S256x4096 .f32) (harg1 : arg1.IsWhole) (arg2 : Memref sig .tc .vmem S256x4096 .f32) (harg2 : arg2.IsWhole)
    (arg3 : Memref sig .tc .vmem S4096x256 .bf16) (harg3 : arg3.IsWhole) (arg4 : Memref sig .tc .vmem S4096x256 .bf16) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S256x256 .f32) (harg7 : arg7.IsWhole) (arg8 : Memref sig .tc .vmem S1x256 .f32) (harg8 : arg8.IsWhole)
    (arg9 : Memref sig .tc .vmem S256x256 .bf16) (harg9 : arg9.IsWhole) (arg10 : Memref sig .tc .vmem S256x256 .bf16) (harg10 : arg10.IsWhole)
    (arg11 : Memref sig .tc .vmem S4096x256 .bf16) (harg11 : arg11.IsWhole) (arg12 : Memref sig .tc .vmem S4096x256 .bf16) (harg12 : arg12.IsWhole)
    (x1 : Vec F S256x4096 .f32) (x2 : Vec F S256x4096 .f32) (x3 : Vec F S4096x256 .bf16) (x4 : Vec F S4096x256 .bf16)
    (x5 : Vec F S256x256 .f32) (x6 : Vec F S1x256 .f32) (x7 : Vec F S256x256 .f32) (x8 : Vec F S1x256 .f32)
    (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
            ∗ owns (c : Thread nD τ) arg9 fullShare (k0_pay3 x1 (k0_pay1 x3 x5) x6) ∗ owns (c : Thread nD τ) arg10 fullShare (k0_pay4 x2 (k0_pay2 x4 x7) x8)
            ∗ owns (c : Thread nD τ) arg11 fullShare (k0_pay1 x3 x5) ∗ owns (c : Thread nD τ) arg12 fullShare (k0_pay2 x4 x7)) -∗ K ⟨⟩))
      ⊢ wp frame (wpE (defs₀ (F := F)) Variants.none c none) E (cc0__stage1_body i arg1 harg1 arg2 harg2 arg3 harg3 arg4 harg4 arg5 harg5 arg6 harg6 arg7 harg7 arg8 harg8 arg9 harg9 arg10 harg10 arg11 harg11 arg12 harg12) K := by
  simp only [cc0__stage1_body_eq_skeleton]; unfold cc0__stage1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_words
    refine (View.read_writes_eq_canon _ _ _ (fun y => ?_)).trans ?_
    · exact ⟨_, List.mem_singleton_self _, View.mem_set_unit_zero (S := S256x256) hz2 inb_S256x256_S256x256_0_0 y⟩
    rw [View.canon_unit_zero hz2]
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  isplitl [H10]
  · iexists _; isplitr
    swap; · iexact H10
    ipureintro
    sl_unfold_words
    refine (View.read_writes_eq_canon _ _ _ (fun y => ?_)).trans ?_
    · exact ⟨_, List.mem_singleton_self _, View.mem_set_unit_zero (S := S256x256) hz2 inb_S256x256_S256x256_0_0 y⟩
    rw [View.canon_unit_zero hz2]
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  isplitl [H11]
  · iexists _; isplitr
    swap; · iexact H11
    ipureintro
    sl_unfold_words
    refine (View.read_writes_eq_canon _ _ _ (fun y => ?_)).trans ?_
    · exact ⟨_, List.mem_singleton_self _, View.mem_set_unit_zero (S := S4096x256) hz2 inb_S4096x256_S4096x256_0_0 y⟩
    rw [View.canon_unit_zero hz2]
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  iexists _; isplitr
  swap; · iexact H12
  ipureintro
  sl_unfold_words
  refine (View.read_writes_eq_canon _ _ _ (fun y => ?_)).trans ?_
  · exact ⟨_, List.mem_singleton_self _, View.mem_set_unit_zero (S := S4096x256) hz2 inb_S4096x256_S4096x256_0_0 y⟩
  rw [View.canon_unit_zero hz2]
  simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]

/-! ## The windows' blocks, and what the scratch buffers hold after the first point -/

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: an unfetched
    window's block index has not moved. One lemma per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- The source path's support `x_s · W1`, computed from the first point's blocks (the two windows are whole arrays). -/
def sc0_0 (c : Dev nD) : Vec F S4096x256 .bf16 := k0_pay1 (iblk0 V c 2 t0_0) (iblk0 V c 4 t0_0)
/-- The target path's support `x_t · W2`. -/
def sc0_1 (c : Dev nD) : Vec F S4096x256 .bf16 := k0_pay2 (iblk0 V c 3 t0_0) (iblk0 V c 6 t0_0)

/-- What the body leaves in the source path's output block at point `t`: leaky relu of the point's adjacency rows
    times the support, plus the bias. -/
def out0_8 (c : Dev nD) (t : Fin cfg0.N) : Vec F S256x256 .bf16 := k0_pay3 (iblk0 V c 0 t) (sc0_0 V c) (iblk0 V c 5 t)
/-- The same for the target path. -/
def out0_9 (c : Dev nD) (t : Fin cfg0.N) : Vec F S256x256 .bf16 := k0_pay4 (iblk0 V c 1 t) (sc0_1 V c) (iblk0 V c 7 t)

/-! ## The invariant: the scratch buffers at anything before the first point, at the supports afterwards -/

abbrev scM0_0 : Memref sig .tc .vmem S4096x256 .bf16 := Memref.whole cc0_scratch0
abbrev scM0_1 : Memref sig .tc .vmem S4096x256 .bf16 := Memref.whole cc0_scratch1

/-- The scoped buffers no window stages, but for the two scratch operands. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The region's plain invariant with the two scratch operands split off as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

/-- The invariant before position `n`. -/
def PhiS0 (c : Dev nD) : ℕ → sProp 𝕄
  | 0 => Pipeline.ΦA spec0 c
  | _ + 1 => iprop(iprop(iprop(owns (c : Thread nD τ) scM0_0 fullShare (sc0_0 V c) ∗ owns (c : Thread nD τ) scM0_1 fullShare (sc0_1 V c)) ∗ rest0 c) ∗ (∃ r, prngReg c r))

theorem PhiS0_zero (c : Dev nD) (n : ℕ) (hz : n = 0) : PhiS0 V c n = Pipeline.ΦA spec0 c := by subst hz; rfl
theorem PhiS0_pos (c : Dev nD) (n : ℕ) (hz : n ≠ 0) :
    PhiS0 V c n = iprop(iprop(iprop(owns (c : Thread nD τ) scM0_0 fullShare (sc0_0 V c) ∗ owns (c : Thread nD τ) scM0_1 fullShare (sc0_1 V c)) ∗ rest0 c) ∗ (∃ r, prngReg c r)) := by
  cases n with
  | zero => exact absurd rfl hz
  | succ n => rfl

/-! ## The proof data -/

/-- The proof data of the first pallas_call on core `c`: its arrays as the region finds them; after the body each
    input's buffer at its block, each output's at the layer's block; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 V c t
    | ⟨9, _⟩ => out0_9 V c t
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 V c t := by dsimp only [dat0]
theorem after0_9 (c : Dev nD) (t : Fin cfg0.N) : (dat0 V c).after 9 t = out0_9 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point. At the first point the branch is taken: the scratch buffers, at anything, are filled with the
    supports, which the layer then reads. At a later point the branch is skipped and the scratch buffers hold the supports
    the first point left. Either way they are handed on at the supports. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl,
    show (dat0 V c).Φ t.succ = PhiS0 V c (t.val + 1) from rfl,
    show (dat0 V c).Φ t.castSucc = PhiS0 V c t.val from rfl,
    PhiS0_pos V c (t.val + 1) (Nat.succ_ne_zero _),
    after0_0, after0_1, after0_2, after0_3, after0_4, after0_5, after0_6, after0_7, after0_8, after0_9]
  by_cases hz : t.val = 0
  · have ht : t = t0_0 := Fin.ext hz
    rw [PhiS0_zero V c _ hz, PhiA0_eq]
    unfold out0_8 out0_9 sc0_0 sc0_1
    rw [← ht]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_A c Set.univ (grid0.coords t) ((hcond0_0 t).mpr hz) _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (iblk0 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [PhiS0_pos V c _ hz]
    unfold out0_8 out0_9
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_B c Set.univ (grid0.coords t) (fun h => hz ((hcond0_0 t).mp h)) _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (iblk0 V c 7 t) (sc0_0 V c) (sc0_1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl, PhiS0_zero V c 0 rfl]

/-- After the last point the invariant gives the plain one back: the supports' names are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 16 := N_0; omega), PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.Kernel.Hand

end
-- ==== Proof.Kernel.R1.lean ====
import proofs.«176739_g8323646620422_cont_9to1_m_1182_25_alg».proof.Proof.Kernel.R0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: both paths' second graph-convolution layer, and the sum of the two heads

Its body runs at sixteen grid points, one block of 256 adjacency rows each. At the FIRST point only it fills two scratch
buffers with the supports `h · W` of the two paths (whole arrays: the first layer's outputs times the second layer's
weights); at every point it multiplies the point's adjacency rows by a support, adds the bias and applies the leaky relu,
on both paths, and from the two results and the point's row blocks of windows 4 and 5 it forms the two heads (two
products each, a bias row, a relu, a half) and stores their sum. The scratch buffers are carried from point to
point: after the first point they hold the supports, a function of the region's input arrays alone. -/

/-- The body's one branch: taken exactly at the grid's first point. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

set_option maxHeartbeats 2000000 in
/-- The body with the branch skipped (a later point): the scratch buffers hold given contents, which the layers read and
    which are left as they were; the output block holds the sum of the heads formed from them. -/
theorem sound_kernel1_B (c : Dev nD) (E : Set ℕ) (i : grid1.Coords) (hc : ¬cond1_0 i)
    (arg1 : Memref sig .tc .vmem S256x4096 .f32) (harg1 : arg1.IsWhole) (arg2 : Memref sig .tc .vmem S256x4096 .f32) (harg2 : arg2.IsWhole)
    (arg3 : Memref sig .tc .vmem S4096x256 .bf16) (harg3 : arg3.IsWhole) (arg4 : Memref sig .tc .vmem S4096x256 .bf16) (harg4 : arg4.IsWhole)
    (arg5 : Memref sig .tc .vmem S256x256 .bf16) (harg5 : arg5.IsWhole) (arg6 : Memref sig .tc .vmem S256x256 .bf16) (harg6 : arg6.IsWhole)
    (arg7 : Memref sig .tc .vmem S256x256 .f32) (harg7 : arg7.IsWhole) (arg8 : Memref sig .tc .vmem S1x256 .f32) (harg8 : arg8.IsWhole)
    (arg9 : Memref sig .tc .vmem S256x256 .f32) (harg9 : arg9.IsWhole) (arg10 : Memref sig .tc .vmem S1x256 .f32) (harg10 : arg10.IsWhole)
    (arg11 : Memref sig .tc .vmem S256x256 .bf16) (harg11 : arg11.IsWhole) (arg12 : Memref sig .tc .vmem S256x256 .bf16) (harg12 : arg12.IsWhole)
    (arg13 : Memref sig .tc .vmem S1x256 .f32) (harg13 : arg13.IsWhole) (arg14 : Memref sig .tc .vmem S256x256 .bf16) (harg14 : arg14.IsWhole)
    (arg15 : Memref sig .tc .vmem S256x256 .bf16) (harg15 : arg15.IsWhole) (arg16 : Memref sig .tc .vmem S1x256 .f32) (harg16 : arg16.IsWhole)
    (arg17 : Memref sig .tc .vmem S256x256 .f32) (harg17 : arg17.IsWhole) (arg18 : Memref sig .tc .vmem S4096x256 .bf16) (harg18 : arg18.IsWhole)
    (arg19 : Memref sig .tc .vmem S4096x256 .bf16) (harg19 : arg19.IsWhole)
    (x1 : Vec F S256x4096 .f32) (x2 : Vec F S256x4096 .f32) (x3 : Vec F S4096x256 .bf16) (x4 : Vec F S4096x256 .bf16)
    (x5 : Vec F S256x256 .bf16) (x6 : Vec F S256x256 .bf16) (x7 : Vec F S256x256 .f32) (x8 : Vec F S1x256 .f32)
    (x9 : Vec F S256x256 .f32) (x10 : Vec F S1x256 .f32) (x11 : Vec F S256x256 .bf16) (x12 : Vec F S256x256 .bf16)
    (x13 : Vec F S1x256 .f32) (x14 : Vec F S256x256 .bf16) (x15 : Vec F S256x256 .bf16) (x16 : Vec F S1x256 .f32)
    (s1 s2 : Vec F S4096x256 .bf16) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ owns (c : Thread nD τ) arg10 fullShare x10
        ∗ owns (c : Thread nD τ) arg11 fullShare x11 ∗ owns (c : Thread nD τ) arg12 fullShare x12
        ∗ owns (c : Thread nD τ) arg13 fullShare x13 ∗ owns (c : Thread nD τ) arg14 fullShare x14
        ∗ owns (c : Thread nD τ) arg15 fullShare x15 ∗ owns (c : Thread nD τ) arg16 fullShare x16
        ∗ (∃ d, owns (c : Thread nD τ) arg17 fullShare d)
        ∗ owns (c : Thread nD τ) arg18 fullShare s1 ∗ owns (c : Thread nD τ) arg19 fullShare s2
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ owns (c : Thread nD τ) arg10 fullShare x10
        ∗ owns (c : Thread nD τ) arg11 fullShare x11 ∗ owns (c : Thread nD τ) arg12 fullShare x12
        ∗ owns (c : Thread nD τ) arg13 fullShare x13 ∗ owns (c : Thread nD τ) arg14 fullShare x14
        ∗ owns (c : Thread nD τ) arg15 fullShare x15 ∗ owns (c : Thread nD τ) arg16 fullShare x16
            ∗ owns (c : Thread nD τ) arg17 fullShare (k1_pay1 (k1_pay4 x2 s2 x10) (k1_pay5 x1 s1 x8 x11) x5 x12 x13 x14 x6 x15 x16)
            ∗ owns (c : Thread nD τ) arg18 fullShare s1 ∗ owns (c : Thread nD τ) arg19 fullShare s2) -∗ K ⟨⟩))
      ⊢ wp frame (wpE (defs₀ (F := F)) Variants.none c none) E (cc1__stage2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__stage2_body_eq_skeleton]; unfold cc1__stage2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%f18, %hf18, H18⟩, ⟨%f19, %hf19, H19⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12
  obtain rfl := harg13.eq_unread hf13; obtain rfl := harg14.eq_unread hf14; obtain rfl := harg15.eq_unread hf15; obtain rfl := harg16.eq_unread hf16
  obtain rfl := harg18.eq_unread hf18; obtain rfl := harg19.eq_unread hf19
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr
    swap; · iexact H17
    ipureintro
    sl_unfold_words
    refine (View.read_writes_eq_canon _ _ _ (fun y => ?_)).trans ?_
    · exact ⟨_, List.mem_singleton_self _, View.mem_set_unit_zero (S := S256x256) hz2 inb_S256x256_S256x256_0_0 y⟩
    rw [View.canon_unit_zero hz2]
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  isplitl [H18]
  · iexists _; isplitr; · ipureintro; exact harg18.read_unread _
    iexact H18
  iexists _; isplitr; · ipureintro; exact harg19.read_unread _
  iexact H19

set_option maxHeartbeats 2000000 in
/-- The body with the branch taken (the first point): the two scratch buffers, at anything, are filled with the supports
    computed from the whole arrays in windows 2, 6 and 3, 8; the layers and the heads then read them. Inputs are left as
    they were; the output block holds the sum of the heads; the scratch buffers hold the supports. -/
theorem sound_kernel1_A (c : Dev nD) (E : Set ℕ) (i : grid1.Coords) (hc : cond1_0 i)
    (arg1 : Memref sig .tc .vmem S256x4096 .f32) (harg1 : arg1.IsWhole) (arg2 : Memref sig .tc .vmem S256x4096 .f32) (harg2 : arg2.IsWhole)
    (arg3 : Memref sig .tc .vmem S4096x256 .bf16) (harg3 : arg3.IsWhole) (arg4 : Memref sig .tc .vmem S4096x256 .bf16) (harg4 : arg4.IsWhole)
    (arg5 : Memref sig .tc .vmem S256x256 .bf16) (harg5 : arg5.IsWhole) (arg6 : Memref sig .tc .vmem S256x256 .bf16) (harg6 : arg6.IsWhole)
    (arg7 : Memref sig .tc .vmem S256x256 .f32) (harg7 : arg7.IsWhole) (arg8 : Memref sig .tc .vmem S1x256 .f32) (harg8 : arg8.IsWhole)
    (arg9 : Memref sig .tc .vmem S256x256 .f32) (harg9 : arg9.IsWhole) (arg10 : Memref sig .tc .vmem S1x256 .f32) (harg10 : arg10.IsWhole)
    (arg11 : Memref sig .tc .vmem S256x256 .bf16) (harg11 : arg11.IsWhole) (arg12 : Memref sig .tc .vmem S256x256 .bf16) (harg12 : arg12.IsWhole)
    (arg13 : Memref sig .tc .vmem S1x256 .f32) (harg13 : arg13.IsWhole) (arg14 : Memref sig .tc .vmem S256x256 .bf16) (harg14 : arg14.IsWhole)
    (arg15 : Memref sig .tc .vmem S256x256 .bf16) (harg15 : arg15.IsWhole) (arg16 : Memref sig .tc .vmem S1x256 .f32) (harg16 : arg16.IsWhole)
    (arg17 : Memref sig .tc .vmem S256x256 .f32) (harg17 : arg17.IsWhole) (arg18 : Memref sig .tc .vmem S4096x256 .bf16) (harg18 : arg18.IsWhole)
    (arg19 : Memref sig .tc .vmem S4096x256 .bf16) (harg19 : arg19.IsWhole)
    (x1 : Vec F S256x4096 .f32) (x2 : Vec F S256x4096 .f32) (x3 : Vec F S4096x256 .bf16) (x4 : Vec F S4096x256 .bf16)
    (x5 : Vec F S256x256 .bf16) (x6 : Vec F S256x256 .bf16) (x7 : Vec F S256x256 .f32) (x8 : Vec F S1x256 .f32)
    (x9 : Vec F S256x256 .f32) (x10 : Vec F S1x256 .f32) (x11 : Vec F S256x256 .bf16) (x12 : Vec F S256x256 .bf16)
    (x13 : Vec F S1x256 .f32) (x14 : Vec F S256x256 .bf16) (x15 : Vec F S256x256 .bf16) (x16 : Vec F S1x256 .f32)
    (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ owns (c : Thread nD τ) arg10 fullShare x10
        ∗ owns (c : Thread nD τ) arg11 fullShare x11 ∗ owns (c : Thread nD τ) arg12 fullShare x12
        ∗ owns (c : Thread nD τ) arg13 fullShare x13 ∗ owns (c : Thread nD τ) arg14 fullShare x14
        ∗ owns (c : Thread nD τ) arg15 fullShare x15 ∗ owns (c : Thread nD τ) arg16 fullShare x16
        ∗ (∃ d, owns (c : Thread nD τ) arg17 fullShare d)
        ∗ (∃ d, owns (c : Thread nD τ) arg18 fullShare d) ∗ (∃ d, owns (c : Thread nD τ) arg19 fullShare d)
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ owns (c : Thread nD τ) arg10 fullShare x10
        ∗ owns (c : Thread nD τ) arg11 fullShare x11 ∗ owns (c : Thread nD τ) arg12 fullShare x12
        ∗ owns (c : Thread nD τ) arg13 fullShare x13 ∗ owns (c : Thread nD τ) arg14 fullShare x14
        ∗ owns (c : Thread nD τ) arg15 fullShare x15 ∗ owns (c : Thread nD τ) arg16 fullShare x16
            ∗ owns (c : Thread nD τ) arg17 fullShare (k1_pay1 (k1_pay4 x2 (k1_pay3 x4 x9) x10) (k1_pay5 x1 (k1_pay2 x3 x7) x8 x11) x5 x12 x13 x14 x6 x15 x16)
            ∗ owns (c : Thread nD τ) arg18 fullShare (k1_pay2 x3 x7) ∗ owns (c : Thread nD τ) arg19 fullShare (k1_pay3 x4 x9)) -∗ K ⟨⟩))
      ⊢ wp frame (wpE (defs₀ (F := F)) Variants.none c none) E (cc1__stage2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__stage2_body_eq_skeleton]; unfold cc1__stage2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12
  obtain rfl := harg13.eq_unread hf13; obtain rfl := harg14.eq_unread hf14; obtain rfl := harg15.eq_unread hf15; obtain rfl := harg16.eq_unread hf16
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr
    swap; · iexact H17
    ipureintro
    sl_unfold_words
    refine (View.read_writes_eq_canon _ _ _ (fun y => ?_)).trans ?_
    · exact ⟨_, List.mem_singleton_self _, View.mem_set_unit_zero (S := S256x256) hz2 inb_S256x256_S256x256_0_0 y⟩
    rw [View.canon_unit_zero hz2]
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  isplitl [H18]
  · iexists _; isplitr
    swap; · iexact H18
    ipureintro
    sl_unfold_words
    refine (View.read_writes_eq_canon _ _ _ (fun y => ?_)).trans ?_
    · exact ⟨_, List.mem_singleton_self _, View.mem_set_unit_zero (S := S4096x256) hz2 inb_S4096x256_S4096x256_0_0 y⟩
    rw [View.canon_unit_zero hz2]
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  iexists _; isplitr
  swap; · iexact H19
  ipureintro
  sl_unfold_words
  refine (View.read_writes_eq_canon _ _ _ (fun y => ?_)).trans ?_
  · exact ⟨_, List.mem_singleton_self _, View.mem_set_unit_zero (S := S4096x256) hz2 inb_S4096x256_S4096x256_0_0 y⟩
  rw [View.canon_unit_zero hz2]
  simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]

/-! ## The windows' blocks, and what the scratch buffers hold after the first point -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: an unfetched
    window's block index has not moved. One lemma per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-- The source path's support `h1_s · W3`, computed from the first point's blocks (the two windows are whole arrays). -/
def sc1_0 (c : Dev nD) : Vec F S4096x256 .bf16 := k1_pay2 (iblk1 V c 2 t1_0) (iblk1 V c 6 t1_0)
/-- The target path's support `h1_t · W4`. -/
def sc1_1 (c : Dev nD) : Vec F S4096x256 .bf16 := k1_pay3 (iblk1 V c 3 t1_0) (iblk1 V c 8 t1_0)

/-- What the body leaves in the output block at point `t`: the sum of the two halved, rectified heads. Each head is the
    sum of two products plus a bias row: a path's second-layer rows (leaky relu of the point's adjacency rows times the
    support, plus the bias), rounded, times a weight block; and the point's rows of window 4 (window 5 for the other
    head) times another weight block. -/
def out1_16 (c : Dev nD) (t : Fin cfg1.N) : Vec F S256x256 .f32 :=
  k1_pay1 (k1_pay4 (iblk1 V c 1 t) (sc1_1 V c) (iblk1 V c 9 t)) (k1_pay5 (iblk1 V c 0 t) (sc1_0 V c) (iblk1 V c 7 t) (iblk1 V c 10 t))
    (iblk1 V c 4 t) (iblk1 V c 11 t) (iblk1 V c 12 t) (iblk1 V c 13 t) (iblk1 V c 5 t) (iblk1 V c 14 t) (iblk1 V c 15 t)

/-! ## The invariant: the scratch buffers at anything before the first point, at the supports afterwards

It has two phases because the body fills the scratch buffers at the first point only: before it they hold whatever
the launch left, and every later point must find in them exactly what the first point stored. -/

abbrev scM1_0 : Memref sig .tc .vmem S4096x256 .bf16 := Memref.whole cc1_scratch0
abbrev scM1_1 : Memref sig .tc .vmem S4096x256 .bf16 := Memref.whole cc1_scratch1

/-- The scoped buffers no window stages, but for the two scratch operands. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The scoped rest split at the call's own two scratch operands, each whole at some contents; the remainder unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f))
          ∗ Pipeline.scopedRestBut (Ix := Ix) (Name := Name) (U := U) (Lvl := Lvl) (Val := Val) spec1 c [cc1_scratch0, cc1_scratch1]) :=
  Pipeline.scopedRest_split_of_list spec1 c [cc1_scratch0, cc1_scratch1] (by decide) (by decide)

/-- The region's plain invariant with the two scratch operands split off as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-- The invariant before position `n`. -/
def PhiS1 (c : Dev nD) : ℕ → sProp 𝕄
  | 0 => Pipeline.ΦA spec1 c
  | _ + 1 => iprop(iprop(iprop(owns (c : Thread nD τ) scM1_0 fullShare (sc1_0 V c) ∗ owns (c : Thread nD τ) scM1_1 fullShare (sc1_1 V c)) ∗ rest1 c) ∗ (∃ r, prngReg c r))

theorem PhiS1_zero (c : Dev nD) (n : ℕ) (hz : n = 0) : PhiS1 V c n = Pipeline.ΦA spec1 c := by subst hz; rfl
theorem PhiS1_pos (c : Dev nD) (n : ℕ) (hz : n ≠ 0) :
    PhiS1 V c n = iprop(iprop(iprop(owns (c : Thread nD τ) scM1_0 fullShare (sc1_0 V c) ∗ owns (c : Thread nD τ) scM1_1 fullShare (sc1_1 V c)) ∗ rest1 c) ∗ (∃ r, prngReg c r)) := by
  cases n with
  | zero => exact absurd rfl hz
  | succ n => rfl

/-! ## The proof data -/

/-- The proof data of the second pallas_call on core `c`: its arrays as the region finds them; after the body each
    input's buffer at its block, the output's at the sum of the heads; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => out1_16 V c t
    | ⟨_ + 17, h⟩ => absurd h (Nat.not_lt.2 (Nat.le_add_left _ _))
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = out1_16 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

set_option maxHeartbeats 4000000 in
/-- The body at any point. At the first point the branch is taken: the scratch buffers, at anything, are filled with the
    supports, which the layer then reads. At a later point the branch is skipped and the scratch buffers hold the supports
    the first point left. Either way they are handed on at the supports. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15]
  rw [show (dat1 V c).owesAt () t.succ = (dat1 V c).owesAt () t.castSucc from rfl,
    show (dat1 V c).Φ t.succ = PhiS1 V c (t.val + 1) from rfl,
    show (dat1 V c).Φ t.castSucc = PhiS1 V c t.val from rfl,
    PhiS1_pos V c (t.val + 1) (Nat.succ_ne_zero _),
    after1_0, after1_1, after1_2, after1_3, after1_4, after1_5, after1_6, after1_7, after1_8, after1_9, after1_10, after1_11, after1_12, after1_13, after1_14, after1_15, after1_16]
  by_cases hz : t.val = 0
  · have ht : t = t1_0 := Fin.ext hz
    rw [PhiS1_zero V c _ hz, PhiA1_eq]
    unfold out1_16 sc1_0 sc1_1
    rw [← ht]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_kernel1_A c Set.univ (grid1.coords t) ((hcond1_0 t).mpr hz) _ _ _ _ _ _ _ _ _ _ _ _ _ _ _ _ _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [HS0]; · iexact HS0
    isplitl [HS1]; · iexact HS1
    iintro ⟨H0, H1, H2, H3, H4, H5, H6, H7, H8, H9, H10, H11, H12, H13, H14, H15, H16, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [PhiS1_pos V c _ hz]
    unfold out1_16
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_kernel1_B c Set.univ (grid1.coords t) (fun h => hz ((hcond1_0 t).mp h)) _ _ _ _ _ _ _ _ _ _ _ _ _ _ _ _ _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (sc1_0 V c) (sc1_1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [HS0]; · iexact HS0
    isplitl [HS1]; · iexact HS1
    iintro ⟨H0, H1, H2, H3, H4, H5, H6, H7, H8, H9, H10, H11, H12, H13, H14, H15, H16, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 from rfl, PhiS1_zero V c 0 rfl]

/-- After the last point the invariant gives the plain one back: the supports' names are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val from rfl,
    PhiS1_pos V c _ (by rw [Fin.val_last]; have : cfg1.N = 16 := N_1; omega), PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.Kernel.Hand

end
-- ==== Proof.Kernel.Fold.lean ====
import proofs.«176739_g8323646620422_cont_9to1_m_1182_25_alg».proof.Proof.Kernel.R1
import proofs.«176739_g8323646620422_cont_9to1_m_1182_25_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents at each boundary of @main

@main is a stretch of host operations (format changes, reshapes of the biases, the two halves of each concat-linear
weight transposed), then the first pallas_call, then the second. The contents of core `c`'s unscoped buffers at each
boundary are a fold from the launch memory: the host stretch applied; then the first call's arrays at what its
write-backs leave; then the second call's. No item writes an argument array, so the fold read at an argument walks back
to the launch memory. -/

variable (m : (ℓ : Loc nD τ sig) → Buf (Elt F) ℓ)

/-- Core `c`'s buffers at launch. -/
abbrev W0 (c : Dev nD) : Valuation τ sig (Elt F) := fun b => m (c, b)
/-- After the host stretch (the first call's entry). -/
abbrev W1 (c : Dev nD) : Valuation τ sig (Elt F) := StableHlo.after hostOps0 (W0 m c)
/-- The same read at the TensorCore's references (what the first call's proof data take). -/
abbrev E1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second call's entry contents). -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the second call's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- The program's result array ends at what the second call's write-backs leave in its output window. -/
theorem W3_result (c : Dev nD) : W3 m c (Proc.devRef .tc main_v21) = (dat1 (E2 m) c).arrAt 16 cfg1.N := W3_arr m c 16

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 0).trans (((dat1 (E2 m) c).arrAt_in 0 rfl _).trans (A_eq1 (E2 m) c 0))
    _ = W1 m c (Proc.devRef .tc main_arg2) := W2_of_ne m c main_arg2 (by decide)
    _ = W0 m c (Proc.devRef .tc main_arg2) := V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 0).trans (((dat0 (E1 m) c).arrAt_in 0 rfl _).trans (A_eq0 (E1 m) c 0))
    _ = W0 m c (Proc.devRef .tc main_arg3) := V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 1).trans (((dat1 (E2 m) c).arrAt_in 1 rfl _).trans (A_eq1 (E2 m) c 1))
    _ = W1 m c (Proc.devRef .tc main_arg4) := W2_of_ne m c main_arg4 (by decide)
    _ = W0 m c (Proc.devRef .tc main_arg4) := V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := (W2_arr m c 1).trans (((dat0 (E1 m) c).arrAt_in 1 rfl _).trans (A_eq0 (E1 m) c 1))
    _ = W0 m c (Proc.devRef .tc main_arg5) := V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := (W2_arr m c 4).trans (((dat0 (E1 m) c).arrAt_in 4 rfl _).trans (A_eq0 (E1 m) c 4))
    _ = W0 m c (Proc.devRef .tc main_arg6) := V1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := V1_of m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := (W2_arr m c 6).trans (((dat0 (E1 m) c).arrAt_in 6 rfl _).trans (A_eq0 (E1 m) c 6))
    _ = W0 m c (Proc.devRef .tc main_arg8) := V1_of m c main_arg8 (by decide)
    _ = m ((c : Thread nD τ).loc main_arg8) := rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := V1_of m c main_arg9 (by decide)
    _ = m ((c : Thread nD τ).loc main_arg9) := rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := (W3_arr m c 6).trans (((dat1 (E2 m) c).arrAt_in 6 rfl _).trans (A_eq1 (E2 m) c 6))
    _ = W1 m c (Proc.devRef .tc main_arg10) := W2_of_ne m c main_arg10 (by decide)
    _ = W0 m c (Proc.devRef .tc main_arg10) := V1_of m c main_arg10 (by decide)
    _ = m ((c : Thread nD τ).loc main_arg10) := rfl
theorem W3_main_arg11 (c : Dev nD) : W3 m c (Proc.devRef .tc main_arg11) = m ((c : Thread nD τ).loc main_arg11) :=
  calc W3 m c (Proc.devRef .tc main_arg11)
    _ = W2 m c (Proc.devRef .tc main_arg11) := W3_of_ne m c main_arg11 (by decide)
    _ = W1 m c (Proc.devRef .tc main_arg11) := W2_of_ne m c main_arg11 (by decide)
    _ = W0 m c (Proc.devRef .tc main_arg11) := V1_of m c main_arg11 (by decide)
    _ = m ((c : Thread nD τ).loc main_arg11) := rfl
theorem W3_main_arg12 (c : Dev nD) : W3 m c (Proc.devRef .tc main_arg12) = m ((c : Thread nD τ).loc main_arg12) :=
  calc W3 m c (Proc.devRef .tc main_arg12)
    _ = W2 m c (Proc.devRef .tc main_arg12) := (W3_arr m c 8).trans (((dat1 (E2 m) c).arrAt_in 8 rfl _).trans (A_eq1 (E2 m) c 8))
    _ = W1 m c (Proc.devRef .tc main_arg12) := W2_of_ne m c main_arg12 (by decide)
    _ = W0 m c (Proc.devRef .tc main_arg12) := V1_of m c main_arg12 (by decide)
    _ = m ((c : Thread nD τ).loc main_arg12) := rfl
theorem W3_main_arg13 (c : Dev nD) : W3 m c (Proc.devRef .tc main_arg13) = m ((c : Thread nD τ).loc main_arg13) :=
  calc W3 m c (Proc.devRef .tc main_arg13)
    _ = W2 m c (Proc.devRef .tc main_arg13) := W3_of_ne m c main_arg13 (by decide)
    _ = W1 m c (Proc.devRef .tc main_arg13) := W2_of_ne m c main_arg13 (by decide)
    _ = W0 m c (Proc.devRef .tc main_arg13) := V1_of m c main_arg13 (by decide)
    _ = m ((c : Thread nD τ).loc main_arg13) := rfl
theorem W3_main_arg14 (c : Dev nD) : W3 m c (Proc.devRef .tc main_arg14) = m ((c : Thread nD τ).loc main_arg14) :=
  calc W3 m c (Proc.devRef .tc main_arg14)
    _ = W2 m c (Proc.devRef .tc main_arg14) := W3_of_ne m c main_arg14 (by decide)
    _ = W1 m c (Proc.devRef .tc main_arg14) := W2_of_ne m c main_arg14 (by decide)
    _ = W0 m c (Proc.devRef .tc main_arg14) := V1_of m c main_arg14 (by decide)
    _ = m ((c : Thread nD τ).loc main_arg14) := rfl
theorem W3_main_arg15 (c : Dev nD) : W3 m c (Proc.devRef .tc main_arg15) = m ((c : Thread nD τ).loc main_arg15) :=
  calc W3 m c (Proc.devRef .tc main_arg15)
    _ = W2 m c (Proc.devRef .tc main_arg15) := W3_of_ne m c main_arg15 (by decide)
    _ = W1 m c (Proc.devRef .tc main_arg15) := W2_of_ne m c main_arg15 (by decide)
    _ = W0 m c (Proc.devRef .tc main_arg15) := V1_of m c main_arg15 (by decide)
    _ = m ((c : Thread nD τ).loc main_arg15) := rfl
theorem W3_main_arg16 (c : Dev nD) : W3 m c (Proc.devRef .tc main_arg16) = m ((c : Thread nD τ).loc main_arg16) :=
  calc W3 m c (Proc.devRef .tc main_arg16)
    _ = W2 m c (Proc.devRef .tc main_arg16) := W3_of_ne m c main_arg16 (by decide)
    _ = W1 m c (Proc.devRef .tc main_arg16) := W2_of_ne m c main_arg16 (by decide)
    _ = W0 m c (Proc.devRef .tc main_arg16) := V1_of m c main_arg16 (by decide)
    _ = m ((c : Thread nD τ).loc main_arg16) := rfl
theorem W3_main_arg17 (c : Dev nD) : W3 m c (Proc.devRef .tc main_arg17) = m ((c : Thread nD τ).loc main_arg17) :=
  calc W3 m c (Proc.devRef .tc main_arg17)
    _ = W2 m c (Proc.devRef .tc main_arg17) := W3_of_ne m c main_arg17 (by decide)
    _ = W1 m c (Proc.devRef .tc main_arg17) := W2_of_ne m c main_arg17 (by decide)
    _ = W0 m c (Proc.devRef .tc main_arg17) := V1_of m c main_arg17 (by decide)
    _ = m ((c : Thread nD τ).loc main_arg17) := rfl

end Cert.Kernel.Hand

end
-- ==== Proof.Kernel.Run.lean ====
import proofs.«176739_g8323646620422_cont_9to1_m_1182_25_alg».proof.Proof.Kernel.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: a host stretch and two kernel regions

Each pallas_call is entered from the thread state "every unscoped buffer at the boundary's contents, the generator
register at some state, nothing owed" and left at the next boundary's. The launch deals the first such state; the last
is read against the final memory: every unscoped buffer holds the fold's last contents. -/

variable (m : (ℓ : Loc nD τ sig) → Buf (Elt F) ℓ)

/-- The prefetched tables' admissible contents: neither call has a table. -/
abbrev admH : (p : Fin 2) → (pcfgs (F := F) p).Adm := fun p => (cfgs p).toPCfg_adm
/-- Both calls' proof data, each at its region's entry contents: a literal match on the call. -/
def pdats : (p : Fin 2) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E2 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- The host stretch as a segment over the unscoped references. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W3 m c) ∗ ∃ r, prngReg c r)

/-- The region's plain invariant from what the launch hands it, whatever rides in the middle. -/
theorem phiA_in0 (c : Dev nD) (P : sProp 𝕄) :
    iprop((∃ r, prngReg c r) ∗ P ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
/-- And back. -/
theorem phiA_out0 (c : Dev nD) :
    (Pipeline.ΦA spec0 c : sProp 𝕄)
      ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-- The region's plain invariant from what the launch hands it, whatever rides in the middle. -/
theorem phiA_in1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- And back. -/
theorem phiA_out1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

-- a library lemma stated over the pinned configuration unifies with the printed one only when unification may unfold
-- plain definitions in a metavariable's type
set_option backward.isDefEq.respectTransparency.types false in
/-- The first pallas_call as a segment: entered from every unscoped buffer at the boundary's contents, left at the next
    boundary's. Its arrays are split out of the unscoped buffers and put back at their exit contents; the generator
    register goes into the region's invariant and comes back; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in0 c _).trans (hin0 (E1 m) c)
  hout c := by
    rw [Pipeline.ownSems0_none]
    exact (hout0 (E1 m) c).trans (phiA_out0 c)
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second pallas_call as a segment: entered from every unscoped buffer at the boundary's contents, left at the next
    boundary's. Its arrays are split out of the unscoped buffers and put back at their exit contents; the generator
    register goes into the region's invariant and comes back; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in1 c _).trans (hin1 (E2 m) c)
  hout c := by
    rw [Pipeline.ownSems0_none]
    exact (hout1 (E2 m) c).trans (phiA_out1 c)
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segsH : List (Pipeline.Seg (pcfgs (F := F)) admH (pdats m) () defs₀ 𝒱H LH lvH) :=
  [ .host (hsegH hostOps0 hostOps0_sub hostOps0_fresh (W0 m)),
    .region (reg0 m),
    .region (reg1 m) ]
theorem main_run (c : Dev nD) : main (F := F) c = Pipeline.Seg.run (segsH m) := (main_chain c).trans (by chain_rfl)

set_option backward.isDefEq.respectTransparency.types false in
/-- From any memory with zero counters every weakly fair execution of @main on the TensorCores terminates, nothing
    faulting, and in every final state each unscoped buffer holds the fold's last contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W3 m c b) :=
  Pipeline.θ_run_regions_kit (pcfgs (F := F)) admH (pdats m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame claim's post, at any `F`: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c),
    (h c _ (mem_uc main_arg11 (by decide))).trans (W3_main_arg11 m c),
    (h c _ (mem_uc main_arg12 (by decide))).trans (W3_main_arg12 m c),
    (h c _ (mem_uc main_arg13 (by decide))).trans (W3_main_arg13 m c),
    (h c _ (mem_uc main_arg14 (by decide))).trans (W3_main_arg14 m c),
    (h c _ (mem_uc main_arg15 (by decide))).trans (W3_main_arg15 m c),
    (h c _ (mem_uc main_arg16 (by decide))).trans (W3_main_arg16 m c),
    (h c _ (mem_uc main_arg17 (by decide))).trans (W3_main_arg17 m c)⟩) (run_all m ρ)

/-- The run with the result array named: it ends at the fold's last contents, the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v21) = W3 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨h c _ (mem_uc main_v21 (by decide)),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c),
    (h c _ (mem_uc main_arg11 (by decide))).trans (W3_main_arg11 m c),
    (h c _ (mem_uc main_arg12 (by decide))).trans (W3_main_arg12 m c),
    (h c _ (mem_uc main_arg13 (by decide))).trans (W3_main_arg13 m c),
    (h c _ (mem_uc main_arg14 (by decide))).trans (W3_main_arg14 m c),
    (h c _ (mem_uc main_arg15 (by decide))).trans (W3_main_arg15 m c),
    (h c _ (mem_uc main_arg16 (by decide))).trans (W3_main_arg16 m c),
    (h c _ (mem_uc main_arg17 (by decide))).trans (W3_main_arg17 m c)⟩) (run_all m ρ)

end Cert.Kernel.Hand

end
-- ==== Proof.KernelIdeal.R0.lean ====
import proofs.«176739_g8323646620422_cont_9to1_m_1182_25_alg».proof.Proof.Gen.KernelIdeal.Launch
import proofs.«176739_g8323646620422_cont_9to1_m_1182_25_alg».proof.Proof.Gen.KernelIdeal.Skeleton
import proofs.«176739_g8323646620422_cont_9to1_m_1182_25_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first pallas_call: both paths' first graph-convolution layer

Its body runs at sixteen grid points, one block of 256 adjacency rows each. At the FIRST point only it fills two scratch
buffers with the supports `x · W` of the two paths (whole arrays); at every point it multiplies the point's adjacency
rows by the support, adds the bias and applies the leaky relu. The scratch buffers are carried from point to point:
after the first point they hold the supports, a function of the region's input arrays alone. -/

theorem hz2 : (![0, 0] : Fin 2 → ℕ) = fun _ => 0 := by funext a; fin_cases a <;> rfl

/-- The body's one branch: taken exactly at the grid's first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

set_option maxHeartbeats 2000000 in
theorem sound_kernel0_B (c : Dev nD) (E : Set ℕ) (i : grid0.Coords) (hc : ¬cond0_0 i)
    (arg1 : Memref sig .tc .vmem S256x4096 .f32) (harg1 : arg1.IsWhole) (arg2 : Memref sig .tc .vmem S256x4096 .f32) (harg2 : arg2.IsWhole)
    (arg3 : Memref sig .tc .vmem S4096x256 .bf16) (harg3 : arg3.IsWhole) (arg4 : Memref sig .tc .vmem S4096x256 .bf16) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S256x256 .f32) (harg7 : arg7.IsWhole) (arg8 : Memref sig .tc .vmem S1x256 .f32) (harg8 : arg8.IsWhole)
    (arg9 : Memref sig .tc .vmem S256x256 .bf16) (harg9 : arg9.IsWhole) (arg10 : Memref sig .tc .vmem S256x256 .bf16) (harg10 : arg10.IsWhole)
    (arg11 : Memref sig .tc .vmem S4096x256 .bf16) (harg11 : arg11.IsWhole) (arg12 : Memref sig .tc .vmem S4096x256 .bf16) (harg12 : arg12.IsWhole)
    (x1 : Vec F S256x4096 .f32) (x2 : Vec F S256x4096 .f32) (x3 : Vec F S4096x256 .bf16) (x4 : Vec F S4096x256 .bf16)
    (x5 : Vec F S256x256 .f32) (x6 : Vec F S1x256 .f32) (x7 : Vec F S256x256 .f32) (x8 : Vec F S1x256 .f32)
    (s1 s2 : Vec F S4096x256 .bf16) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d) ∗ (∃ d, owns (c : Thread nD τ) arg10 fullShare d)
        ∗ owns (c : Thread nD τ) arg11 fullShare s1 ∗ owns (c : Thread nD τ) arg12 fullShare s2
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
            ∗ owns (c : Thread nD τ) arg9 fullShare (k0_pay3 x1 s1 x6) ∗ owns (c : Thread nD τ) arg10 fullShare (k0_pay4 x2 s2 x8)
            ∗ owns (c : Thread nD τ) arg11 fullShare s1 ∗ owns (c : Thread nD τ) arg12 fullShare s2) -∗ K ⟨⟩))
      ⊢ wp frame (wpE (defs₀ (F := F)) Variants.none c none) E (cc0__stage1_body i arg1 harg1 arg2 harg2 arg3 harg3 arg4 harg4 arg5 harg5 arg6 harg6 arg7 harg7 arg8 harg8 arg9 harg9 arg10 harg10 arg11 harg11 arg12 harg12) K := by
  simp only [cc0__stage1_body_eq_skeleton]; unfold cc0__stage1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg11.eq_unread hf11; obtain rfl := harg12.eq_unread hf12
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (View.read_writes_eq_canon _ _ _ (fun y => ?_)).trans ?_
    · exact ⟨_, List.mem_singleton_self _, View.mem_set_unit_zero (S := S256x256) hz2 inb_S256x256_S256x256_0_0 y⟩
    rw [View.canon_unit_zero hz2]
    sl_unfold_words
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  isplitl [H10]
  · iexists _; isplitr
    swap; · iexact H10
    ipureintro
    refine (View.read_writes_eq_canon _ _ _ (fun y => ?_)).trans ?_
    · exact ⟨_, List.mem_singleton_self _, View.mem_set_unit_zero (S := S256x256) hz2 inb_S256x256_S256x256_0_0 y⟩
    rw [View.canon_unit_zero hz2]
    sl_unfold_words
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  isplitl [H11]
  · iexists _; isplitr; · ipureintro; exact harg11.read_unread _
    iexact H11
  iexists _; isplitr; · ipureintro; exact harg12.read_unread _
  iexact H12

set_option maxHeartbeats 2000000 in
theorem sound_kernel0_A (c : Dev nD) (E : Set ℕ) (i : grid0.Coords) (hc : cond0_0 i)
    (arg1 : Memref sig .tc .vmem S256x4096 .f32) (harg1 : arg1.IsWhole) (arg2 : Memref sig .tc .vmem S256x4096 .f32) (harg2 : arg2.IsWhole)
    (arg3 : Memref sig .tc .vmem S4096x256 .bf16) (harg3 : arg3.IsWhole) (arg4 : Memref sig .tc .vmem S4096x256 .bf16) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S256x256 .f32) (harg7 : arg7.IsWhole) (arg8 : Memref sig .tc .vmem S1x256 .f32) (harg8 : arg8.IsWhole)
    (arg9 : Memref sig .tc .vmem S256x256 .bf16) (harg9 : arg9.IsWhole) (arg10 : Memref sig .tc .vmem S256x256 .bf16) (harg10 : arg10.IsWhole)
    (arg11 : Memref sig .tc .vmem S4096x256 .bf16) (harg11 : arg11.IsWhole) (arg12 : Memref sig .tc .vmem S4096x256 .bf16) (harg12 : arg12.IsWhole)
    (x1 : Vec F S256x4096 .f32) (x2 : Vec F S256x4096 .f32) (x3 : Vec F S4096x256 .bf16) (x4 : Vec F S4096x256 .bf16)
    (x5 : Vec F S256x256 .f32) (x6 : Vec F S1x256 .f32) (x7 : Vec F S256x256 .f32) (x8 : Vec F S1x256 .f32)
    (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
            ∗ owns (c : Thread nD τ) arg9 fullShare (k0_pay3 x1 (k0_pay1 x3 x5) x6) ∗ owns (c : Thread nD τ) arg10 fullShare (k0_pay4 x2 (k0_pay2 x4 x7) x8)
            ∗ owns (c : Thread nD τ) arg11 fullShare (k0_pay1 x3 x5) ∗ owns (c : Thread nD τ) arg12 fullShare (k0_pay2 x4 x7)) -∗ K ⟨⟩))
      ⊢ wp frame (wpE (defs₀ (F := F)) Variants.none c none) E (cc0__stage1_body i arg1 harg1 arg2 harg2 arg3 harg3 arg4 harg4 arg5 harg5 arg6 harg6 arg7 harg7 arg8 harg8 arg9 harg9 arg10 harg10 arg11 harg11 arg12 harg12) K := by
  simp only [cc0__stage1_body_eq_skeleton]; unfold cc0__stage1_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_words
    refine (View.read_writes_eq_canon _ _ _ (fun y => ?_)).trans ?_
    · exact ⟨_, List.mem_singleton_self _, View.mem_set_unit_zero (S := S256x256) hz2 inb_S256x256_S256x256_0_0 y⟩
    rw [View.canon_unit_zero hz2]
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  isplitl [H10]
  · iexists _; isplitr
    swap; · iexact H10
    ipureintro
    sl_unfold_words
    refine (View.read_writes_eq_canon _ _ _ (fun y => ?_)).trans ?_
    · exact ⟨_, List.mem_singleton_self _, View.mem_set_unit_zero (S := S256x256) hz2 inb_S256x256_S256x256_0_0 y⟩
    rw [View.canon_unit_zero hz2]
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  isplitl [H11]
  · iexists _; isplitr
    swap; · iexact H11
    ipureintro
    sl_unfold_words
    refine (View.read_writes_eq_canon _ _ _ (fun y => ?_)).trans ?_
    · exact ⟨_, List.mem_singleton_self _, View.mem_set_unit_zero (S := S4096x256) hz2 inb_S4096x256_S4096x256_0_0 y⟩
    rw [View.canon_unit_zero hz2]
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  iexists _; isplitr
  swap; · iexact H12
  ipureintro
  sl_unfold_words
  refine (View.read_writes_eq_canon _ _ _ (fun y => ?_)).trans ?_
  · exact ⟨_, List.mem_singleton_self _, View.mem_set_unit_zero (S := S4096x256) hz2 inb_S4096x256_S4096x256_0_0 y⟩
  rw [View.canon_unit_zero hz2]
  simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]

/-! ## The windows' blocks, and what the scratch buffers hold after the first point -/

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: an unfetched
    window's block index has not moved. One lemma per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- The source path's support `x_s · W1`, computed from the first point's blocks (the two windows are whole arrays). -/
def sc0_0 (c : Dev nD) : Vec F S4096x256 .bf16 := k0_pay1 (iblk0 V c 2 t0_0) (iblk0 V c 4 t0_0)
/-- The target path's support `x_t · W2`. -/
def sc0_1 (c : Dev nD) : Vec F S4096x256 .bf16 := k0_pay2 (iblk0 V c 3 t0_0) (iblk0 V c 6 t0_0)

/-- What the body leaves in the source path's output block at point `t`: leaky relu of the point's adjacency rows
    times the support, plus the bias. -/
def out0_8 (c : Dev nD) (t : Fin cfg0.N) : Vec F S256x256 .bf16 := k0_pay3 (iblk0 V c 0 t) (sc0_0 V c) (iblk0 V c 5 t)
/-- The same for the target path. -/
def out0_9 (c : Dev nD) (t : Fin cfg0.N) : Vec F S256x256 .bf16 := k0_pay4 (iblk0 V c 1 t) (sc0_1 V c) (iblk0 V c 7 t)

/-! ## The invariant: the scratch buffers at anything before the first point, at the supports afterwards -/

abbrev scM0_0 : Memref sig .tc .vmem S4096x256 .bf16 := Memref.whole cc0_scratch0
abbrev scM0_1 : Memref sig .tc .vmem S4096x256 .bf16 := Memref.whole cc0_scratch1

/-- The scoped buffers no window stages, but for the two scratch operands. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The region's plain invariant with the two scratch operands split off as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

/-- The invariant before position `n`. -/
def PhiS0 (c : Dev nD) : ℕ → sProp 𝕄
  | 0 => Pipeline.ΦA spec0 c
  | _ + 1 => iprop(iprop(iprop(owns (c : Thread nD τ) scM0_0 fullShare (sc0_0 V c) ∗ owns (c : Thread nD τ) scM0_1 fullShare (sc0_1 V c)) ∗ rest0 c) ∗ (∃ r, prngReg c r))

theorem PhiS0_zero (c : Dev nD) (n : ℕ) (hz : n = 0) : PhiS0 V c n = Pipeline.ΦA spec0 c := by subst hz; rfl
theorem PhiS0_pos (c : Dev nD) (n : ℕ) (hz : n ≠ 0) :
    PhiS0 V c n = iprop(iprop(iprop(owns (c : Thread nD τ) scM0_0 fullShare (sc0_0 V c) ∗ owns (c : Thread nD τ) scM0_1 fullShare (sc0_1 V c)) ∗ rest0 c) ∗ (∃ r, prngReg c r)) := by
  cases n with
  | zero => exact absurd rfl hz
  | succ n => rfl

/-! ## The proof data -/

/-- The proof data of the first pallas_call on core `c`: its arrays as the region finds them; after the body each
    input's buffer at its block, each output's at the layer's block; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 V c t
    | ⟨9, _⟩ => out0_9 V c t
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 V c t := by dsimp only [dat0]
theorem after0_9 (c : Dev nD) (t : Fin cfg0.N) : (dat0 V c).after 9 t = out0_9 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point. At the first point the branch is taken: the scratch buffers, at anything, are filled with the
    supports, which the layer then reads. At a later point the branch is skipped and the scratch buffers hold the supports
    the first point left. Either way they are handed on at the supports. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl,
    show (dat0 V c).Φ t.succ = PhiS0 V c (t.val + 1) from rfl,
    show (dat0 V c).Φ t.castSucc = PhiS0 V c t.val from rfl,
    PhiS0_pos V c (t.val + 1) (Nat.succ_ne_zero _),
    after0_0, after0_1, after0_2, after0_3, after0_4, after0_5, after0_6, after0_7, after0_8, after0_9]
  by_cases hz : t.val = 0
  · have ht : t = t0_0 := Fin.ext hz
    rw [PhiS0_zero V c _ hz, PhiA0_eq]
    unfold out0_8 out0_9 sc0_0 sc0_1
    rw [← ht]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_A c Set.univ (grid0.coords t) ((hcond0_0 t).mpr hz) _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (iblk0 V c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [PhiS0_pos V c _ hz]
    unfold out0_8 out0_9
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel0_B c Set.univ (grid0.coords t) (fun h => hz ((hcond0_0 t).mp h)) _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (iblk0 V c 7 t) (sc0_0 V c) (sc0_1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl, PhiS0_zero V c 0 rfl]

/-- After the last point the invariant gives the plain one back: the supports' names are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 16 := N_0; omega), PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.KernelIdeal.Hand

end
-- ==== Proof.KernelIdeal.R1.lean ====
import proofs.«176739_g8323646620422_cont_9to1_m_1182_25_alg».proof.Proof.KernelIdeal.R0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: both paths' second graph-convolution layer, and the sum of the two heads

Its body runs at sixteen grid points, one block of 256 adjacency rows each. At the FIRST point only it fills two scratch
buffers with the supports `h · W` of the two paths (whole arrays: the first layer's outputs times the second layer's
weights); at every point it multiplies the point's adjacency rows by a support, adds the bias and applies the leaky relu,
on both paths, and from the two results and the point's row blocks of windows 4 and 5 it forms the two heads (two
products each, a bias row, a relu, a half) and stores their sum. The scratch buffers are carried from point to
point: after the first point they hold the supports, a function of the region's input arrays alone. -/

/-- The body's one branch: taken exactly at the grid's first point. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

set_option maxHeartbeats 2000000 in
/-- The body with the branch skipped (a later point): the scratch buffers hold given contents, which the layers read and
    which are left as they were; the output block holds the sum of the heads formed from them. -/
theorem sound_kernel1_B (c : Dev nD) (E : Set ℕ) (i : grid1.Coords) (hc : ¬cond1_0 i)
    (arg1 : Memref sig .tc .vmem S256x4096 .f32) (harg1 : arg1.IsWhole) (arg2 : Memref sig .tc .vmem S256x4096 .f32) (harg2 : arg2.IsWhole)
    (arg3 : Memref sig .tc .vmem S4096x256 .bf16) (harg3 : arg3.IsWhole) (arg4 : Memref sig .tc .vmem S4096x256 .bf16) (harg4 : arg4.IsWhole)
    (arg5 : Memref sig .tc .vmem S256x256 .bf16) (harg5 : arg5.IsWhole) (arg6 : Memref sig .tc .vmem S256x256 .bf16) (harg6 : arg6.IsWhole)
    (arg7 : Memref sig .tc .vmem S256x256 .f32) (harg7 : arg7.IsWhole) (arg8 : Memref sig .tc .vmem S1x256 .f32) (harg8 : arg8.IsWhole)
    (arg9 : Memref sig .tc .vmem S256x256 .f32) (harg9 : arg9.IsWhole) (arg10 : Memref sig .tc .vmem S1x256 .f32) (harg10 : arg10.IsWhole)
    (arg11 : Memref sig .tc .vmem S256x256 .bf16) (harg11 : arg11.IsWhole) (arg12 : Memref sig .tc .vmem S256x256 .bf16) (harg12 : arg12.IsWhole)
    (arg13 : Memref sig .tc .vmem S1x256 .f32) (harg13 : arg13.IsWhole) (arg14 : Memref sig .tc .vmem S256x256 .bf16) (harg14 : arg14.IsWhole)
    (arg15 : Memref sig .tc .vmem S256x256 .bf16) (harg15 : arg15.IsWhole) (arg16 : Memref sig .tc .vmem S1x256 .f32) (harg16 : arg16.IsWhole)
    (arg17 : Memref sig .tc .vmem S256x256 .f32) (harg17 : arg17.IsWhole) (arg18 : Memref sig .tc .vmem S4096x256 .bf16) (harg18 : arg18.IsWhole)
    (arg19 : Memref sig .tc .vmem S4096x256 .bf16) (harg19 : arg19.IsWhole)
    (x1 : Vec F S256x4096 .f32) (x2 : Vec F S256x4096 .f32) (x3 : Vec F S4096x256 .bf16) (x4 : Vec F S4096x256 .bf16)
    (x5 : Vec F S256x256 .bf16) (x6 : Vec F S256x256 .bf16) (x7 : Vec F S256x256 .f32) (x8 : Vec F S1x256 .f32)
    (x9 : Vec F S256x256 .f32) (x10 : Vec F S1x256 .f32) (x11 : Vec F S256x256 .bf16) (x12 : Vec F S256x256 .bf16)
    (x13 : Vec F S1x256 .f32) (x14 : Vec F S256x256 .bf16) (x15 : Vec F S256x256 .bf16) (x16 : Vec F S1x256 .f32)
    (s1 s2 : Vec F S4096x256 .bf16) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ owns (c : Thread nD τ) arg10 fullShare x10
        ∗ owns (c : Thread nD τ) arg11 fullShare x11 ∗ owns (c : Thread nD τ) arg12 fullShare x12
        ∗ owns (c : Thread nD τ) arg13 fullShare x13 ∗ owns (c : Thread nD τ) arg14 fullShare x14
        ∗ owns (c : Thread nD τ) arg15 fullShare x15 ∗ owns (c : Thread nD τ) arg16 fullShare x16
        ∗ (∃ d, owns (c : Thread nD τ) arg17 fullShare d)
        ∗ owns (c : Thread nD τ) arg18 fullShare s1 ∗ owns (c : Thread nD τ) arg19 fullShare s2
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ owns (c : Thread nD τ) arg10 fullShare x10
        ∗ owns (c : Thread nD τ) arg11 fullShare x11 ∗ owns (c : Thread nD τ) arg12 fullShare x12
        ∗ owns (c : Thread nD τ) arg13 fullShare x13 ∗ owns (c : Thread nD τ) arg14 fullShare x14
        ∗ owns (c : Thread nD τ) arg15 fullShare x15 ∗ owns (c : Thread nD τ) arg16 fullShare x16
            ∗ owns (c : Thread nD τ) arg17 fullShare (k1_pay1 (k1_pay4 x2 s2 x10) (k1_pay5 x1 s1 x8 x11) x5 x12 x13 x14 x6 x15 x16)
            ∗ owns (c : Thread nD τ) arg18 fullShare s1 ∗ owns (c : Thread nD τ) arg19 fullShare s2) -∗ K ⟨⟩))
      ⊢ wp frame (wpE (defs₀ (F := F)) Variants.none c none) E (cc1__stage2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__stage2_body_eq_skeleton]; unfold cc1__stage2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%f18, %hf18, H18⟩, ⟨%f19, %hf19, H19⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12
  obtain rfl := harg13.eq_unread hf13; obtain rfl := harg14.eq_unread hf14; obtain rfl := harg15.eq_unread hf15; obtain rfl := harg16.eq_unread hf16
  obtain rfl := harg18.eq_unread hf18; obtain rfl := harg19.eq_unread hf19
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr
    swap; · iexact H17
    ipureintro
    sl_unfold_words
    refine (View.read_writes_eq_canon _ _ _ (fun y => ?_)).trans ?_
    · exact ⟨_, List.mem_singleton_self _, View.mem_set_unit_zero (S := S256x256) hz2 inb_S256x256_S256x256_0_0 y⟩
    rw [View.canon_unit_zero hz2]
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  isplitl [H18]
  · iexists _; isplitr; · ipureintro; exact harg18.read_unread _
    iexact H18
  iexists _; isplitr; · ipureintro; exact harg19.read_unread _
  iexact H19

set_option maxHeartbeats 2000000 in
/-- The body with the branch taken (the first point): the two scratch buffers, at anything, are filled with the supports
    computed from the whole arrays in windows 2, 6 and 3, 8; the layers and the heads then read them. Inputs are left as
    they were; the output block holds the sum of the heads; the scratch buffers hold the supports. -/
theorem sound_kernel1_A (c : Dev nD) (E : Set ℕ) (i : grid1.Coords) (hc : cond1_0 i)
    (arg1 : Memref sig .tc .vmem S256x4096 .f32) (harg1 : arg1.IsWhole) (arg2 : Memref sig .tc .vmem S256x4096 .f32) (harg2 : arg2.IsWhole)
    (arg3 : Memref sig .tc .vmem S4096x256 .bf16) (harg3 : arg3.IsWhole) (arg4 : Memref sig .tc .vmem S4096x256 .bf16) (harg4 : arg4.IsWhole)
    (arg5 : Memref sig .tc .vmem S256x256 .bf16) (harg5 : arg5.IsWhole) (arg6 : Memref sig .tc .vmem S256x256 .bf16) (harg6 : arg6.IsWhole)
    (arg7 : Memref sig .tc .vmem S256x256 .f32) (harg7 : arg7.IsWhole) (arg8 : Memref sig .tc .vmem S1x256 .f32) (harg8 : arg8.IsWhole)
    (arg9 : Memref sig .tc .vmem S256x256 .f32) (harg9 : arg9.IsWhole) (arg10 : Memref sig .tc .vmem S1x256 .f32) (harg10 : arg10.IsWhole)
    (arg11 : Memref sig .tc .vmem S256x256 .bf16) (harg11 : arg11.IsWhole) (arg12 : Memref sig .tc .vmem S256x256 .bf16) (harg12 : arg12.IsWhole)
    (arg13 : Memref sig .tc .vmem S1x256 .f32) (harg13 : arg13.IsWhole) (arg14 : Memref sig .tc .vmem S256x256 .bf16) (harg14 : arg14.IsWhole)
    (arg15 : Memref sig .tc .vmem S256x256 .bf16) (harg15 : arg15.IsWhole) (arg16 : Memref sig .tc .vmem S1x256 .f32) (harg16 : arg16.IsWhole)
    (arg17 : Memref sig .tc .vmem S256x256 .f32) (harg17 : arg17.IsWhole) (arg18 : Memref sig .tc .vmem S4096x256 .bf16) (harg18 : arg18.IsWhole)
    (arg19 : Memref sig .tc .vmem S4096x256 .bf16) (harg19 : arg19.IsWhole)
    (x1 : Vec F S256x4096 .f32) (x2 : Vec F S256x4096 .f32) (x3 : Vec F S4096x256 .bf16) (x4 : Vec F S4096x256 .bf16)
    (x5 : Vec F S256x256 .bf16) (x6 : Vec F S256x256 .bf16) (x7 : Vec F S256x256 .f32) (x8 : Vec F S1x256 .f32)
    (x9 : Vec F S256x256 .f32) (x10 : Vec F S1x256 .f32) (x11 : Vec F S256x256 .bf16) (x12 : Vec F S256x256 .bf16)
    (x13 : Vec F S1x256 .f32) (x14 : Vec F S256x256 .bf16) (x15 : Vec F S256x256 .bf16) (x16 : Vec F S1x256 .f32)
    (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ owns (c : Thread nD τ) arg10 fullShare x10
        ∗ owns (c : Thread nD τ) arg11 fullShare x11 ∗ owns (c : Thread nD τ) arg12 fullShare x12
        ∗ owns (c : Thread nD τ) arg13 fullShare x13 ∗ owns (c : Thread nD τ) arg14 fullShare x14
        ∗ owns (c : Thread nD τ) arg15 fullShare x15 ∗ owns (c : Thread nD τ) arg16 fullShare x16
        ∗ (∃ d, owns (c : Thread nD τ) arg17 fullShare d)
        ∗ (∃ d, owns (c : Thread nD τ) arg18 fullShare d) ∗ (∃ d, owns (c : Thread nD τ) arg19 fullShare d)
        ∗ (iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ owns (c : Thread nD τ) arg10 fullShare x10
        ∗ owns (c : Thread nD τ) arg11 fullShare x11 ∗ owns (c : Thread nD τ) arg12 fullShare x12
        ∗ owns (c : Thread nD τ) arg13 fullShare x13 ∗ owns (c : Thread nD τ) arg14 fullShare x14
        ∗ owns (c : Thread nD τ) arg15 fullShare x15 ∗ owns (c : Thread nD τ) arg16 fullShare x16
            ∗ owns (c : Thread nD τ) arg17 fullShare (k1_pay1 (k1_pay4 x2 (k1_pay3 x4 x9) x10) (k1_pay5 x1 (k1_pay2 x3 x7) x8 x11) x5 x12 x13 x14 x6 x15 x16)
            ∗ owns (c : Thread nD τ) arg18 fullShare (k1_pay2 x3 x7) ∗ owns (c : Thread nD τ) arg19 fullShare (k1_pay3 x4 x9)) -∗ K ⟨⟩))
      ⊢ wp frame (wpE (defs₀ (F := F)) Variants.none c none) E (cc1__stage2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc1__stage2_body_eq_skeleton]; unfold cc1__stage2_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10; obtain rfl := harg11.eq_unread hf11; obtain rfl := harg12.eq_unread hf12
  obtain rfl := harg13.eq_unread hf13; obtain rfl := harg14.eq_unread hf14; obtain rfl := harg15.eq_unread hf15; obtain rfl := harg16.eq_unread hf16
  sl_exec (disch := exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr
    swap; · iexact H17
    ipureintro
    sl_unfold_words
    refine (View.read_writes_eq_canon _ _ _ (fun y => ?_)).trans ?_
    · exact ⟨_, List.mem_singleton_self _, View.mem_set_unit_zero (S := S256x256) hz2 inb_S256x256_S256x256_0_0 y⟩
    rw [View.canon_unit_zero hz2]
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  isplitl [H18]
  · iexists _; isplitr
    swap; · iexact H18
    ipureintro
    sl_unfold_words
    refine (View.read_writes_eq_canon _ _ _ (fun y => ?_)).trans ?_
    · exact ⟨_, List.mem_singleton_self _, View.mem_set_unit_zero (S := S4096x256) hz2 inb_S4096x256_S4096x256_0_0 y⟩
    rw [View.canon_unit_zero hz2]
    simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]
  iexists _; isplitr
  swap; · iexact H19
  ipureintro
  sl_unfold_words
  refine (View.read_writes_eq_canon _ _ _ (fun y => ?_)).trans ?_
  · exact ⟨_, List.mem_singleton_self _, View.mem_set_unit_zero (S := S4096x256) hz2 inb_S4096x256_S4096x256_0_0 y⟩
  rw [View.canon_unit_zero hz2]
  simp only [View.readAt_eq_ld, Memref.IsWhole.read_unread, View.ld_unit_zero (S := S256x4096) hz2, View.ld_unit_zero (S := S4096x256) hz2, View.ld_unit_zero (S := S1x256) hz2, View.ld_unit_zero (S := S256x256) hz2, View.readCov_unit_zero (S := S4096x256) _ hz2, View.readCov_unit_zero (S := S256x256) _ hz2]

/-! ## The windows' blocks, and what the scratch buffers hold after the first point -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: an unfetched
    window's block index has not moved. One lemma per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-- The source path's support `h1_s · W3`, computed from the first point's blocks (the two windows are whole arrays). -/
def sc1_0 (c : Dev nD) : Vec F S4096x256 .bf16 := k1_pay2 (iblk1 V c 2 t1_0) (iblk1 V c 6 t1_0)
/-- The target path's support `h1_t · W4`. -/
def sc1_1 (c : Dev nD) : Vec F S4096x256 .bf16 := k1_pay3 (iblk1 V c 3 t1_0) (iblk1 V c 8 t1_0)

/-- What the body leaves in the output block at point `t`: the sum of the two halved, rectified heads. Each head is the
    sum of two products plus a bias row: a path's second-layer rows (leaky relu of the point's adjacency rows times the
    support, plus the bias), rounded, times a weight block; and the point's rows of window 4 (window 5 for the other
    head) times another weight block. -/
def out1_16 (c : Dev nD) (t : Fin cfg1.N) : Vec F S256x256 .f32 :=
  k1_pay1 (k1_pay4 (iblk1 V c 1 t) (sc1_1 V c) (iblk1 V c 9 t)) (k1_pay5 (iblk1 V c 0 t) (sc1_0 V c) (iblk1 V c 7 t) (iblk1 V c 10 t))
    (iblk1 V c 4 t) (iblk1 V c 11 t) (iblk1 V c 12 t) (iblk1 V c 13 t) (iblk1 V c 5 t) (iblk1 V c 14 t) (iblk1 V c 15 t)

/-! ## The invariant: the scratch buffers at anything before the first point, at the supports afterwards

It has two phases because the body fills the scratch buffers at the first point only: before it they hold whatever
the launch left, and every later point must find in them exactly what the first point stored. -/

abbrev scM1_0 : Memref sig .tc .vmem S4096x256 .bf16 := Memref.whole cc1_scratch0
abbrev scM1_1 : Memref sig .tc .vmem S4096x256 .bf16 := Memref.whole cc1_scratch1

/-- The scoped buffers no window stages, but for the two scratch operands. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The scoped rest split at the call's own two scratch operands, each whole at some contents; the remainder unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f))
          ∗ Pipeline.scopedRestBut (Ix := Ix) (Name := Name) (U := U) (Lvl := Lvl) (Val := Val) spec1 c [cc1_scratch0, cc1_scratch1]) :=
  Pipeline.scopedRest_split_of_list spec1 c [cc1_scratch0, cc1_scratch1] (by decide) (by decide)

/-- The region's plain invariant with the two scratch operands split off as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-- The invariant before position `n`. -/
def PhiS1 (c : Dev nD) : ℕ → sProp 𝕄
  | 0 => Pipeline.ΦA spec1 c
  | _ + 1 => iprop(iprop(iprop(owns (c : Thread nD τ) scM1_0 fullShare (sc1_0 V c) ∗ owns (c : Thread nD τ) scM1_1 fullShare (sc1_1 V c)) ∗ rest1 c) ∗ (∃ r, prngReg c r))

theorem PhiS1_zero (c : Dev nD) (n : ℕ) (hz : n = 0) : PhiS1 V c n = Pipeline.ΦA spec1 c := by subst hz; rfl
theorem PhiS1_pos (c : Dev nD) (n : ℕ) (hz : n ≠ 0) :
    PhiS1 V c n = iprop(iprop(iprop(owns (c : Thread nD τ) scM1_0 fullShare (sc1_0 V c) ∗ owns (c : Thread nD τ) scM1_1 fullShare (sc1_1 V c)) ∗ rest1 c) ∗ (∃ r, prngReg c r)) := by
  cases n with
  | zero => exact absurd rfl hz
  | succ n => rfl

/-! ## The proof data -/

/-- The proof data of the second pallas_call on core `c`: its arrays as the region finds them; after the body each
    input's buffer at its block, the output's at the sum of the heads; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => out1_16 V c t
    | ⟨_ + 17, h⟩ => absurd h (Nat.not_lt.2 (Nat.le_add_left _ _))
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = out1_16 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t))

set_option maxHeartbeats 4000000 in
/-- The body at any point. At the first point the branch is taken: the scratch buffers, at anything, are filled with the
    supports, which the layer then reads. At a later point the branch is skipped and the scratch buffers hold the supports
    the first point left. Either way they are handed on at the supports. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15]
  rw [show (dat1 V c).owesAt () t.succ = (dat1 V c).owesAt () t.castSucc from rfl,
    show (dat1 V c).Φ t.succ = PhiS1 V c (t.val + 1) from rfl,
    show (dat1 V c).Φ t.castSucc = PhiS1 V c t.val from rfl,
    PhiS1_pos V c (t.val + 1) (Nat.succ_ne_zero _),
    after1_0, after1_1, after1_2, after1_3, after1_4, after1_5, after1_6, after1_7, after1_8, after1_9, after1_10, after1_11, after1_12, after1_13, after1_14, after1_15, after1_16]
  by_cases hz : t.val = 0
  · have ht : t = t1_0 := Fin.ext hz
    rw [PhiS1_zero V c _ hz, PhiA1_eq]
    unfold out1_16 sc1_0 sc1_1
    rw [← ht]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_kernel1_A c Set.univ (grid1.coords t) ((hcond1_0 t).mpr hz) _ _ _ _ _ _ _ _ _ _ _ _ _ _ _ _ _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [HS0]; · iexact HS0
    isplitl [HS1]; · iexact HS1
    iintro ⟨H0, H1, H2, H3, H4, H5, H6, H7, H8, H9, H10, H11, H12, H13, H14, H15, H16, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [PhiS1_pos V c _ hz]
    unfold out1_16
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_kernel1_B c Set.univ (grid1.coords t) (fun h => hz ((hcond1_0 t).mp h)) _ _ _ _ _ _ _ _ _ _ _ _ _ _ _ _ _ _ _ _ _ _ _ _ _ _ _ _ _ _ _ _ _ _ _ _ _ _
      (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (sc1_0 V c) (sc1_1 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [HS0]; · iexact HS0
    isplitl [HS1]; · iexact HS1
    iintro ⟨H0, H1, H2, H3, H4, H5, H6, H7, H8, H9, H10, H11, H12, H13, H14, H15, H16, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 from rfl, PhiS1_zero V c 0 rfl]

/-- After the last point the invariant gives the plain one back: the supports' names are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val from rfl,
    PhiS1_pos V c _ (by rw [Fin.val_last]; have : cfg1.N = 16 := N_1; omega), PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Cert.KernelIdeal.Hand

end
-- ==== Proof.KernelIdeal.Fold.lean ====
import proofs.«176739_g8323646620422_cont_9to1_m_1182_25_alg».proof.Proof.KernelIdeal.R1
import proofs.«176739_g8323646620422_cont_9to1_m_1182_25_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents at each boundary of @main

@main is a stretch of host operations (format changes, reshapes of the biases, the two halves of each concat-linear
weight transposed), then the first pallas_call, then the second. The contents of core `c`'s unscoped buffers at each
boundary are a fold from the launch memory: the host stretch applied; then the first call's arrays at what its
write-backs leave; then the second call's. No item writes an argument array, so the fold read at an argument walks back
to the launch memory. -/

variable (m : (ℓ : Loc nD τ sig) → Buf (Elt F) ℓ)

/-- Core `c`'s buffers at launch. -/
abbrev W0 (c : Dev nD) : Valuation τ sig (Elt F) := fun b => m (c, b)
/-- After the host stretch (the first call's entry). -/
abbrev W1 (c : Dev nD) : Valuation τ sig (Elt F) := StableHlo.after hostOps0 (W0 m c)
/-- The same read at the TensorCore's references (what the first call's proof data take). -/
abbrev E1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second call's entry contents). -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the second call's exit. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem hF1 (c : Dev nD) (w : Fin cfg1.W) : (dat1 (E2 m) c).arrAt w cfg1.N = E3 m c (Pipeline.arrRef spec1 w) :=
  (W3_arr m c w).symm
theorem hrest1 (c : Dev nD) : ∀ b, b ∉ Finset.univ.image (Pipeline.arrRef spec1) → E3 m c b = E2 m c b :=
  fun b hb => W3_of_ne m c b fun w e => hb (Finset.mem_image.mpr ⟨w, Finset.mem_univ _, e⟩)

/-- The program's result array ends at what the second call's write-backs leave in its output window. -/
theorem W3_result (c : Dev nD) : W3 m c (Proc.devRef .tc main_v21) = (dat1 (E2 m) c).arrAt 16 cfg1.N := W3_arr m c 16

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := V1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := V1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := (W3_arr m c 0).trans (((dat1 (E2 m) c).arrAt_in 0 rfl _).trans (A_eq1 (E2 m) c 0))
    _ = W1 m c (Proc.devRef .tc main_arg2) := W2_of_ne m c main_arg2 (by decide)
    _ = W0 m c (Proc.devRef .tc main_arg2) := V1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 0).trans (((dat0 (E1 m) c).arrAt_in 0 rfl _).trans (A_eq0 (E1 m) c 0))
    _ = W0 m c (Proc.devRef .tc main_arg3) := V1_of m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 1).trans (((dat1 (E2 m) c).arrAt_in 1 rfl _).trans (A_eq1 (E2 m) c 1))
    _ = W1 m c (Proc.devRef .tc main_arg4) := W2_of_ne m c main_arg4 (by decide)
    _ = W0 m c (Proc.devRef .tc main_arg4) := V1_of m c main_arg4 (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := (W2_arr m c 1).trans (((dat0 (E1 m) c).arrAt_in 1 rfl _).trans (A_eq0 (E1 m) c 1))
    _ = W0 m c (Proc.devRef .tc main_arg5) := V1_of m c main_arg5 (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := (W2_arr m c 4).trans (((dat0 (E1 m) c).arrAt_in 4 rfl _).trans (A_eq0 (E1 m) c 4))
    _ = W0 m c (Proc.devRef .tc main_arg6) := V1_of m c main_arg6 (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := W3_of_ne m c main_arg7 (by decide)
    _ = W1 m c (Proc.devRef .tc main_arg7) := W2_of_ne m c main_arg7 (by decide)
    _ = W0 m c (Proc.devRef .tc main_arg7) := V1_of m c main_arg7 (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := (W2_arr m c 6).trans (((dat0 (E1 m) c).arrAt_in 6 rfl _).trans (A_eq0 (E1 m) c 6))
    _ = W0 m c (Proc.devRef .tc main_arg8) := V1_of m c main_arg8 (by decide)
    _ = m ((c : Thread nD τ).loc main_arg8) := rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = W0 m c (Proc.devRef .tc main_arg9) := V1_of m c main_arg9 (by decide)
    _ = m ((c : Thread nD τ).loc main_arg9) := rfl
theorem W3_main_arg10 (c : Dev nD) : W3 m c (Proc.devRef .tc main_arg10) = m ((c : Thread nD τ).loc main_arg10) :=
  calc W3 m c (Proc.devRef .tc main_arg10)
    _ = W2 m c (Proc.devRef .tc main_arg10) := (W3_arr m c 6).trans (((dat1 (E2 m) c).arrAt_in 6 rfl _).trans (A_eq1 (E2 m) c 6))
    _ = W1 m c (Proc.devRef .tc main_arg10) := W2_of_ne m c main_arg10 (by decide)
    _ = W0 m c (Proc.devRef .tc main_arg10) := V1_of m c main_arg10 (by decide)
    _ = m ((c : Thread nD τ).loc main_arg10) := rfl
theorem W3_main_arg11 (c : Dev nD) : W3 m c (Proc.devRef .tc main_arg11) = m ((c : Thread nD τ).loc main_arg11) :=
  calc W3 m c (Proc.devRef .tc main_arg11)
    _ = W2 m c (Proc.devRef .tc main_arg11) := W3_of_ne m c main_arg11 (by decide)
    _ = W1 m c (Proc.devRef .tc main_arg11) := W2_of_ne m c main_arg11 (by decide)
    _ = W0 m c (Proc.devRef .tc main_arg11) := V1_of m c main_arg11 (by decide)
    _ = m ((c : Thread nD τ).loc main_arg11) := rfl
theorem W3_main_arg12 (c : Dev nD) : W3 m c (Proc.devRef .tc main_arg12) = m ((c : Thread nD τ).loc main_arg12) :=
  calc W3 m c (Proc.devRef .tc main_arg12)
    _ = W2 m c (Proc.devRef .tc main_arg12) := (W3_arr m c 8).trans (((dat1 (E2 m) c).arrAt_in 8 rfl _).trans (A_eq1 (E2 m) c 8))
    _ = W1 m c (Proc.devRef .tc main_arg12) := W2_of_ne m c main_arg12 (by decide)
    _ = W0 m c (Proc.devRef .tc main_arg12) := V1_of m c main_arg12 (by decide)
    _ = m ((c : Thread nD τ).loc main_arg12) := rfl
theorem W3_main_arg13 (c : Dev nD) : W3 m c (Proc.devRef .tc main_arg13) = m ((c : Thread nD τ).loc main_arg13) :=
  calc W3 m c (Proc.devRef .tc main_arg13)
    _ = W2 m c (Proc.devRef .tc main_arg13) := W3_of_ne m c main_arg13 (by decide)
    _ = W1 m c (Proc.devRef .tc main_arg13) := W2_of_ne m c main_arg13 (by decide)
    _ = W0 m c (Proc.devRef .tc main_arg13) := V1_of m c main_arg13 (by decide)
    _ = m ((c : Thread nD τ).loc main_arg13) := rfl
theorem W3_main_arg14 (c : Dev nD) : W3 m c (Proc.devRef .tc main_arg14) = m ((c : Thread nD τ).loc main_arg14) :=
  calc W3 m c (Proc.devRef .tc main_arg14)
    _ = W2 m c (Proc.devRef .tc main_arg14) := W3_of_ne m c main_arg14 (by decide)
    _ = W1 m c (Proc.devRef .tc main_arg14) := W2_of_ne m c main_arg14 (by decide)
    _ = W0 m c (Proc.devRef .tc main_arg14) := V1_of m c main_arg14 (by decide)
    _ = m ((c : Thread nD τ).loc main_arg14) := rfl
theorem W3_main_arg15 (c : Dev nD) : W3 m c (Proc.devRef .tc main_arg15) = m ((c : Thread nD τ).loc main_arg15) :=
  calc W3 m c (Proc.devRef .tc main_arg15)
    _ = W2 m c (Proc.devRef .tc main_arg15) := W3_of_ne m c main_arg15 (by decide)
    _ = W1 m c (Proc.devRef .tc main_arg15) := W2_of_ne m c main_arg15 (by decide)
    _ = W0 m c (Proc.devRef .tc main_arg15) := V1_of m c main_arg15 (by decide)
    _ = m ((c : Thread nD τ).loc main_arg15) := rfl
theorem W3_main_arg16 (c : Dev nD) : W3 m c (Proc.devRef .tc main_arg16) = m ((c : Thread nD τ).loc main_arg16) :=
  calc W3 m c (Proc.devRef .tc main_arg16)
    _ = W2 m c (Proc.devRef .tc main_arg16) := W3_of_ne m c main_arg16 (by decide)
    _ = W1 m c (Proc.devRef .tc main_arg16) := W2_of_ne m c main_arg16 (by decide)
    _ = W0 m c (Proc.devRef .tc main_arg16) := V1_of m c main_arg16 (by decide)
    _ = m ((c : Thread nD τ).loc main_arg16) := rfl
theorem W3_main_arg17 (c : Dev nD) : W3 m c (Proc.devRef .tc main_arg17) = m ((c : Thread nD τ).loc main_arg17) :=
  calc W3 m c (Proc.devRef .tc main_arg17)
    _ = W2 m c (Proc.devRef .tc main_arg17) := W3_of_ne m c main_arg17 (by decide)
    _ = W1 m c (Proc.devRef .tc main_arg17) := W2_of_ne m c main_arg17 (by decide)
    _ = W0 m c (Proc.devRef .tc main_arg17) := V1_of m c main_arg17 (by decide)
    _ = m ((c : Thread nD τ).loc main_arg17) := rfl

end Cert.KernelIdeal.Hand

end
-- ==== Proof.KernelIdeal.Run.lean ====
import proofs.«176739_g8323646620422_cont_9to1_m_1182_25_alg».proof.Proof.KernelIdeal.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: a host stretch and two kernel regions

Each pallas_call is entered from the thread state "every unscoped buffer at the boundary's contents, the generator
register at some state, nothing owed" and left at the next boundary's. The launch deals the first such state; the last
is read against the final memory: every unscoped buffer holds the fold's last contents. -/

variable (m : (ℓ : Loc nD τ sig) → Buf (Elt F) ℓ)

/-- The prefetched tables' admissible contents: neither call has a table. -/
abbrev admH : (p : Fin 2) → (pcfgs (F := F) p).Adm := fun p => (cfgs p).toPCfg_adm
/-- Both calls' proof data, each at its region's entry contents: a literal match on the call. -/
def pdats : (p : Fin 2) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E2 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- The host stretch as a segment over the unscoped references. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W3 m c) ∗ ∃ r, prngReg c r)

/-- The region's plain invariant from what the launch hands it, whatever rides in the middle. -/
theorem phiA_in0 (c : Dev nD) (P : sProp 𝕄) :
    iprop((∃ r, prngReg c r) ∗ P ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
/-- And back. -/
theorem phiA_out0 (c : Dev nD) :
    (Pipeline.ΦA spec0 c : sProp 𝕄)
      ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

/-- The region's plain invariant from what the launch hands it, whatever rides in the middle. -/
theorem phiA_in1 (c : Dev nD) (P : sProp 𝕄) :
    iprop((∃ r, prngReg c r) ∗ P ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
/-- And back. -/
theorem phiA_out1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

-- a library lemma stated over the pinned configuration unifies with the printed one only when unification may unfold
-- plain definitions in a metavariable's type
set_option backward.isDefEq.respectTransparency.types false in
/-- The first pallas_call as a segment: entered from every unscoped buffer at the boundary's contents, left at the next
    boundary's. Its arrays are split out of the unscoped buffers and put back at their exit contents; the generator
    register goes into the region's invariant and comes back; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in0 c _).trans (hin0 (E1 m) c)
  hout c := by
    rw [Pipeline.ownSems0_none]
    exact (hout0 (E1 m) c).trans (phiA_out0 c)
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second pallas_call as a segment: entered from every unscoped buffer at the boundary's contents, left at the next
    boundary's. Its arrays are split out of the unscoped buffers and put back at their exit contents; the generator
    register goes into the region's invariant and comes back; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in1 c _).trans (hin1 (E2 m) c)
  hout c := by
    rw [Pipeline.ownSems0_none]
    exact (hout1 (E2 m) c).trans (phiA_out1 c)
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments in order. -/
abbrev segsH : List (Pipeline.Seg (pcfgs (F := F)) admH (pdats m) () defs₀ 𝒱H LH lvH) :=
  [ .host (hsegH hostOps0 hostOps0_sub hostOps0_fresh (W0 m)),
    .region (reg0 m),
    .region (reg1 m) ]
theorem main_run (c : Dev nD) : main (F := F) c = Pipeline.Seg.run (segsH m) := (main_chain c).trans (by chain_rfl)

set_option backward.isDefEq.respectTransparency.types false in
/-- From any memory with zero counters every weakly fair execution of @main on the TensorCores terminates, nothing
    faulting, and in every final state each unscoped buffer holds the fold's last contents. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W3 m c b) :=
  Pipeline.θ_run_regions_kit (pcfgs (F := F)) admH (pdats m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame claim's post, at any `F`: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c),
    (h c _ (mem_uc main_arg11 (by decide))).trans (W3_main_arg11 m c),
    (h c _ (mem_uc main_arg12 (by decide))).trans (W3_main_arg12 m c),
    (h c _ (mem_uc main_arg13 (by decide))).trans (W3_main_arg13 m c),
    (h c _ (mem_uc main_arg14 (by decide))).trans (W3_main_arg14 m c),
    (h c _ (mem_uc main_arg15 (by decide))).trans (W3_main_arg15 m c),
    (h c _ (mem_uc main_arg16 (by decide))).trans (W3_main_arg16 m c),
    (h c _ (mem_uc main_arg17 (by decide))).trans (W3_main_arg17 m c)⟩) (run_all m ρ)

/-- The run with the result array named: it ends at the fold's last contents, the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v21) = W3 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨h c _ (mem_uc main_v21 (by decide)),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c),
    (h c _ (mem_uc main_arg9 (by decide))).trans (W3_main_arg9 m c),
    (h c _ (mem_uc main_arg10 (by decide))).trans (W3_main_arg10 m c),
    (h c _ (mem_uc main_arg11 (by decide))).trans (W3_main_arg11 m c),
    (h c _ (mem_uc main_arg12 (by decide))).trans (W3_main_arg12 m c),
    (h c _ (mem_uc main_arg13 (by decide))).trans (W3_main_arg13 m c),
    (h c _ (mem_uc main_arg14 (by decide))).trans (W3_main_arg14 m c),
    (h c _ (mem_uc main_arg15 (by decide))).trans (W3_main_arg15 m c),
    (h c _ (mem_uc main_arg16 (by decide))).trans (W3_main_arg16 m c),
    (h c _ (mem_uc main_arg17 (by decide))).trans (W3_main_arg17 m c)⟩) (run_all m ρ)

end Cert.KernelIdeal.Hand

end
-- ==== Proof.Spec.lean ====
/-
  The function both programs compute, written index by index on the extended reals, with no reference to either
  program. Per path (source, target): two graph-convolution layers
      gcn x adj W b = leakyrelu (adj · (x · W) + b)        (the inner product x · W first)
  stacked, then the linear layer on the concatenation [h, x] of the second layer's output with the features,
  written as the sum of its two 256-column halves,
      lin h x Wl bl = (h · Wl[:, 0:256]ᵀ + x · Wl[:, 256:512]ᵀ) + bl,
  and the result is  1/2 · max (lin_source) 0 + 1/2 · max (lin_target) 0.
  The float literals (the zero of the comparisons and of the max, the slope 0.1 of the leaky relu as its binary32
  word, and 1/2) are kept as words: both programs carry the same words, so none is ever evaluated.
  The one algebraic fact used to join the two programs is that a sum over 512 columns is the sum over the first 256
  plus the sum over the last 256 (`sum_split512`), true in any additive commutative monoid.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Spec

open Idealize.ShloMosaic Idealize.ShloMosaic.ValueIdx

abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S256x512 : Shape := ⟨2, ![256, 512]⟩

/-! ## The scalar pieces -/

/-- The zero both programs compare against and take the maximum with, as its word. -/
abbrev zeroW : EReal := Ideal.ofBits .f32 0x00000000#32
/-- The leaky relu's slope, the binary32 word nearest 0.1. -/
abbrev slopeW : EReal := Ideal.ofBits .f32 0x3DCCCCCD#32
/-- The weight 1/2 of each path, as its word. -/
abbrev halfW : EReal := Ideal.ofBits .f32 0x3F000000#32

/-- Leaky relu: `z` where `z > 0`, else `slope · z`. -/
def lrelu (z : EReal) : EReal := Scalar.select (Ideal.cmp .ogt z zeroW) z (slopeW * z)

/-- Relu: the maximum with zero. -/
def relu0 (z : EReal) : EReal := max z zeroW

/-! ## Columns of the 512-wide weight -/

/-- Column `k` of the first half. -/
abbrev lo512 (k : Fin 256) : Fin 512 := ⟨k.val, by omega⟩
/-- Column `256 + k`, of the second half. -/
abbrev hi512 (k : Fin 256) : Fin 512 := ⟨256 + k.val, by omega⟩

/-- A sum over 512 columns is the sum over the first 256 plus the sum over the last 256. -/
theorem sum_split512 (f : Fin 512 → EReal) :
    ∑ k : Fin 512, f k = (∑ k : Fin 256, f (lo512 k)) + ∑ k : Fin 256, f (hi512 k) :=
  Fin.sum_univ_add (M := EReal) (a := 256) (b := 256) f

/-! ## The layers, at coordinates -/

/-- The inner product `(x · W)(k, j) = ∑ l, x(k, l) · W(l, j)`. -/
def xw (x : Vec Ideal S4096x256 .f32) (W : Vec Ideal S256x256 .f32) (k : Fin 4096) (j : Fin 256) : EReal :=
  ∑ l : Fin 256, x (ix2 k l) * W (ix2 l j)

/-- One graph-convolution layer at row `r`, column `j`: `leakyrelu (∑ k, adj(r, k) · (x · W)(k, j) + b(j))`. -/
def gcnAt (x : Vec Ideal S4096x256 .f32) (adj : Vec Ideal S4096x4096 .f32) (W : Vec Ideal S256x256 .f32)
    (b : Vec Ideal S256 .f32) (r : Fin 4096) (j : Fin 256) : EReal :=
  lrelu ((∑ k : Fin 4096, adj (ix2 r k) * xw x W k j) + b (ix1 j))

/-- The linear layer on `[h, x]` at row `r`, column `j`, as the sum of its two halves, then the bias. -/
def linAt (h x : Vec Ideal S4096x256 .f32) (Wl : Vec Ideal S256x512 .f32) (bl : Vec Ideal S256 .f32)
    (r : Fin 4096) (j : Fin 256) : EReal :=
  ((∑ k : Fin 256, h (ix2 r k) * Wl (ix2 j (lo512 k))) + (∑ k : Fin 256, x (ix2 r k) * Wl (ix2 j (hi512 k)))) + bl (ix1 j)

/-! ## The layers, as arrays -/

def gcn (x : Vec Ideal S4096x256 .f32) (adj : Vec Ideal S4096x4096 .f32) (W : Vec Ideal S256x256 .f32)
    (b : Vec Ideal S256 .f32) : Vec Ideal S4096x256 .f32 := fun i => gcnAt x adj W b (i 0) (i 1)

def lin (h x : Vec Ideal S4096x256 .f32) (Wl : Vec Ideal S256x512 .f32) (bl : Vec Ideal S256 .f32) :
    Vec Ideal S4096x256 .f32 := fun i => linAt h x Wl bl (i 0) (i 1)

theorem gcn_ix2 (x : Vec Ideal S4096x256 .f32) (adj : Vec Ideal S4096x4096 .f32) (W : Vec Ideal S256x256 .f32)
    (b : Vec Ideal S256 .f32) (r : Fin 4096) (j : Fin 256) : gcn x adj W b (ix2 r j) = gcnAt x adj W b r j := rfl

theorem lin_ix2 (h x : Vec Ideal S4096x256 .f32) (Wl : Vec Ideal S256x512 .f32) (bl : Vec Ideal S256 .f32)
    (r : Fin 4096) (j : Fin 256) : lin h x Wl bl (ix2 r j) = linAt h x Wl bl r j := rfl

/-- The result: arguments in the order of the programs' parameters (features of the two paths, the four adjacency
    matrices UV_s, VU_s, UV_t, VU_t, then W1 b1 W2 b2 W3 b3 W4 b4, then the two linear layers' weight and bias). -/
def out (a0 a1 : Vec Ideal S4096x256 .f32) (a2 a3 a4 a5 : Vec Ideal S4096x4096 .f32)
    (a6 : Vec Ideal S256x256 .f32) (a7 : Vec Ideal S256 .f32) (a8 : Vec Ideal S256x256 .f32) (a9 : Vec Ideal S256 .f32)
    (a10 : Vec Ideal S256x256 .f32) (a11 : Vec Ideal S256 .f32) (a12 : Vec Ideal S256x256 .f32) (a13 : Vec Ideal S256 .f32)
    (a14 : Vec Ideal S256x512 .f32) (a15 : Vec Ideal S256 .f32) (a16 : Vec Ideal S256x512 .f32) (a17 : Vec Ideal S256 .f32) :
    Vec Ideal S4096x256 .f32 := fun i =>
  halfW * relu0 (lin (gcn (gcn a0 a3 a6 a7) a2 a10 a11) a0 a14 a15 i)
    + halfW * relu0 (lin (gcn (gcn a1 a5 a8 a9) a4 a12 a13) a1 a16 a17 i)

end Cert.Spec

end
-- ==== Proof.KernelIdeal.Value0a.lean ====
/-
  The first region's body, read at an index on the extended reals. A change of float format is the identity there and
  a product into a zero accumulator is the exact sum over the contracted axis, so the support block is the inner
  product `x · W` and the layer block is the leaky relu of the adjacency rows times the support plus the bias row.
-/
import proofs.«176739_g8323646620422_cont_9to1_m_1182_25_alg».proof.Proof.Gen.KernelIdeal.Skeleton
import proofs.«176739_g8323646620422_cont_9to1_m_1182_25_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.HandValue

open Cert.KernelIdeal Cert.KernelIdeal.Gen Idealize.ShloMosaic Idealize.ShloMosaic.ValueIdx

/-! ## The two products' operand indices, axis by axis -/

theorem lhsA_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhsA_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhsA_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhsA_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

theorem lhsB_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhsB_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhsB_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhsB_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-! ## The products at an index -/

/-- The support's product at row `r`, column `j`: the sum over the 256 features. -/
theorem matmulA_apply (x : FVec Ideal S4096x256 .bf16) (y : FVec Ideal S256x256 .bf16) (r : Fin 4096) (j : Fin 256) :
    matmul dot_S4096x256_S256x256_S4096x256_1_0_0_1_n_n none x y (constant (F := Ideal) S4096x256 .f32 0x00000000#32) (ix2 r j)
      = ∑ k : Fin 256, x (ix2 r k) * y (ix2 k j) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r j) ((contrEquiv1 dot_S4096x256_S256x256_S4096x256_1_0_0_1_n_n 256 rfl rfl).symm k) = ix2 r k := funext fun a => Fin.ext (by
    match a with
    | ⟨0, _⟩ => exact lhsA_0 _ _
    | ⟨1, _⟩ => exact (lhsA_1 _ _).trans hk)
  have er : dot_S4096x256_S256x256_S4096x256_1_0_0_1_n_n.rhsIdx (ix2 r j) ((contrEquiv1 dot_S4096x256_S256x256_S4096x256_1_0_0_1_n_n 256 rfl rfl).symm k) = ix2 k j := funext fun a => Fin.ext (by
    match a with
    | ⟨0, _⟩ => exact (rhsA_0 _ _).trans hk
    | ⟨1, _⟩ => exact rhsA_1 _ _)
  rw [el, er]

/-- The layer's product at row `r` of the block, column `j`: the sum over the 4096 nodes. -/
theorem matmulB_apply (x : FVec Ideal S256x4096 .bf16) (y : FVec Ideal S4096x256 .bf16) (r : Fin 256) (j : Fin 256) :
    matmul dot_S256x4096_S4096x256_S256x256_1_0_0_1_n_n none x y (constant (F := Ideal) S256x256 .f32 0x00000000#32) (ix2 r j)
      = ∑ k : Fin 4096, x (ix2 r k) * y (ix2 k j) := by
  simp only [matmul]
  rw [Ideal.matmul_constant_zero_apply, ← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 r j) ((contrEquiv1 dot_S256x4096_S4096x256_S256x256_1_0_0_1_n_n 4096 rfl rfl).symm k) = ix2 r k := funext fun a => Fin.ext (by
    match a with
    | ⟨0, _⟩ => exact lhsB_0 _ _
    | ⟨1, _⟩ => exact (lhsB_1 _ _).trans hk)
  have er : dot_S256x4096_S4096x256_S256x256_1_0_0_1_n_n.rhsIdx (ix2 r j) ((contrEquiv1 dot_S256x4096_S4096x256_S256x256_1_0_0_1_n_n 4096 rfl rfl).symm k) = ix2 k j := funext fun a => Fin.ext (by
    match a with
    | ⟨0, _⟩ => exact (rhsB_0 _ _).trans hk
    | ⟨1, _⟩ => exact rhsB_1 _ _)
  rw [el, er]

/-! ## The payloads at an index -/

/-- The support block: `(x · W)(k, j)`. -/
theorem pay1_apply (x : Vec Ideal S4096x256 .bf16) (W : Vec Ideal S256x256 .f32) (k : Fin 4096) (j : Fin 256) :
    k0_pay1 (F := Ideal) x W (ix2 k j) = Spec.xw x W k j := by
  unfold k0_pay1
  simp only [shapeCast_self]
  exact matmulA_apply x W k j

/-- The bias row broadcast down the block's rows. -/
theorem bias_apply (b : Vec Ideal S1x256 .f32) (p j : Fin 256) :
    broadcastTo S256x256 b broadcasts_S1x256_S256x256 (ix2 p j) = b (ix2 0 j) :=
  broadcastTo_apply b broadcasts_S1x256_S256x256 (ix2 p j) (ix2 0 j) (fun a => by
    match a with
    | ⟨0, _⟩ => rfl
    | ⟨1, _⟩ => rfl)

/-- The layer block at row `p` of the block, column `j`: the leaky relu of the block's adjacency rows times the
    support, plus the bias. -/
theorem pay3_apply (a : Vec Ideal S256x4096 .f32) (s : Vec Ideal S4096x256 .bf16) (b : Vec Ideal S1x256 .f32) (p j : Fin 256) :
    k0_pay3 (F := Ideal) a s b (ix2 p j)
      = Spec.lrelu ((∑ k : Fin 4096, a (ix2 p k) * s (ix2 k j)) + b (ix2 0 j)) := by
  unfold k0_pay3
  simp only [shapeCast_self]
  have hm := matmulB_apply (truncf .bf16 a bitsLt_bf16_f32) s p j
  have hb := bias_apply b p j
  simp only [truncf_apply, select_apply, cmpf_apply, mulf_apply, addf_apply, broadcast_apply] at hm ⊢
  rw [hm, hb]
  simp only [Ideal.ofBits_def, Ideal.cmpf_def]
  rfl

theorem pay2_eq : @k0_pay2 = @k0_pay1 := rfl
theorem pay4_eq : @k0_pay4 = @k0_pay3 := rfl

end Cert.KernelIdeal.HandValue

end
-- ==== Proof.KernelIdeal.Value0.lean ====
/-
  The first region's two result arrays on the extended reals. The region runs its body at sixteen points; point `t`
  reads rows `256 t … 256 t + 255` of the two adjacency matrices and every other operand whole, and writes rows
  `256 t … 256 t + 255` of the two results. The support `x · W` is computed at the first point from the whole arrays and
  kept, so every point's block is the layer `leakyrelu (adj · (x · W) + b)` at its rows; row `r` is written by point
  `r / 256`, so the blocks tile the result and the array ends holding the layer.
-/
import proofs.«176739_g8323646620422_cont_9to1_m_1182_25_alg».proof.Proof.KernelIdeal.R0
import proofs.«176739_g8323646620422_cont_9to1_m_1182_25_alg».proof.Proof.KernelIdeal.Value0a
import proofs.«176739_g8323646620422_cont_9to1_m_1182_25_alg».proof.Proof.Spec

set_option maxRecDepth 16384

noncomputable section

open scoped BigOperators

namespace Cert.KernelIdeal.HandValue

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

/-! ## The index maps, decided once over the sixteen points -/

/-- The adjacency and result windows move one block of 256 rows per point; every other window stays at block (0, 0). -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-! ## Each input block, read where its rectangle says -/

/-- Window 0's block at point `t` is rows `256 t … 256 t + 255` of its array. -/
theorem iblk0_0_apply (c : Dev nD) (t : Fin cfg0.N) (p : Fin 256) (k : Fin 4096) (r : Fin 4096)
    (hr : r.val = 256 * t.val + p.val) :
    (iblk0 V c 0 t : Vec Ideal S256x4096 .f32) (ix2 p k) = (V c main_arg3 : Vec Ideal S4096x4096 .f32) (ix2 r k) := by
  have hi := (idx_facts0 t).1
  unfold iblk0
  rw [View.read_apply]
  show V c main_arg3 _ = V c main_arg3 _
  congr 1
  funext a
  apply Fin.ext
  match a with
  | ⟨0, _⟩ => show win0_0.index t (0 : Fin 2) * 256 + 1 * p.val = r.val; rw [hi.1, hr]; omega
  | ⟨1, _⟩ => show win0_0.index t (1 : Fin 2) * 4096 + 1 * k.val = k.val; rw [hi.2]; omega

/-- Window 1's block at point `t` is rows `256 t … 256 t + 255` of its array. -/
theorem iblk0_1_apply (c : Dev nD) (t : Fin cfg0.N) (p : Fin 256) (k : Fin 4096) (r : Fin 4096)
    (hr : r.val = 256 * t.val + p.val) :
    (iblk0 V c 1 t : Vec Ideal S256x4096 .f32) (ix2 p k) = (V c main_arg5 : Vec Ideal S4096x4096 .f32) (ix2 r k) := by
  have hi := (idx_facts0 t).2.1
  unfold iblk0
  rw [View.read_apply]
  show V c main_arg5 _ = V c main_arg5 _
  congr 1
  funext a
  apply Fin.ext
  match a with
  | ⟨0, _⟩ => show win0_1.index t (0 : Fin 2) * 256 + 1 * p.val = r.val; rw [hi.1, hr]; omega
  | ⟨1, _⟩ => show win0_1.index t (1 : Fin 2) * 4096 + 1 * k.val = k.val; rw [hi.2]; omega

/-- Window 2's block is its whole array, at every point. -/
theorem iblk0_2_apply (c : Dev nD) (t : Fin cfg0.N) (p : Fin 4096) (k : Fin 256) :
    (iblk0 V c 2 t : Vec Ideal S4096x256 .bf16) (ix2 p k) = (V c main_v0 : Vec Ideal S4096x256 .bf16) (ix2 p k) := by
  have hi := (idx_facts0 t).2.2.1
  unfold iblk0
  rw [View.read_apply]
  show V c main_v0 _ = V c main_v0 _
  congr 1
  funext a
  apply Fin.ext
  match a with
  | ⟨0, _⟩ => show win0_2.index t (0 : Fin 2) * 4096 + 1 * p.val = p.val; rw [hi.1]; omega
  | ⟨1, _⟩ => show win0_2.index t (1 : Fin 2) * 256 + 1 * k.val = k.val; rw [hi.2]; omega

/-- Window 3's block is its whole array, at every point. -/
theorem iblk0_3_apply (c : Dev nD) (t : Fin cfg0.N) (p : Fin 4096) (k : Fin 256) :
    (iblk0 V c 3 t : Vec Ideal S4096x256 .bf16) (ix2 p k) = (V c main_v1 : Vec Ideal S4096x256 .bf16) (ix2 p k) := by
  have hi := (idx_facts0 t).2.2.2.1
  unfold iblk0
  rw [View.read_apply]
  show V c main_v1 _ = V c main_v1 _
  congr 1
  funext a
  apply Fin.ext
  match a with
  | ⟨0, _⟩ => show win0_3.index t (0 : Fin 2) * 4096 + 1 * p.val = p.val; rw [hi.1]; omega
  | ⟨1, _⟩ => show win0_3.index t (1 : Fin 2) * 256 + 1 * k.val = k.val; rw [hi.2]; omega

/-- Window 4's block is its whole array, at every point. -/
theorem iblk0_4_apply (c : Dev nD) (t : Fin cfg0.N) (p : Fin 256) (k : Fin 256) :
    (iblk0 V c 4 t : Vec Ideal S256x256 .f32) (ix2 p k) = (V c main_arg6 : Vec Ideal S256x256 .f32) (ix2 p k) := by
  have hi := (idx_facts0 t).2.2.2.2.1
  unfold iblk0
  rw [View.read_apply]
  show V c main_arg6 _ = V c main_arg6 _
  congr 1
  funext a
  apply Fin.ext
  match a with
  | ⟨0, _⟩ => show win0_4.index t (0 : Fin 2) * 256 + 1 * p.val = p.val; rw [hi.1]; omega
  | ⟨1, _⟩ => show win0_4.index t (1 : Fin 2) * 256 + 1 * k.val = k.val; rw [hi.2]; omega

/-- Window 5's block is its whole array, at every point. -/
theorem iblk0_5_apply (c : Dev nD) (t : Fin cfg0.N) (p : Fin 1) (k : Fin 256) :
    (iblk0 V c 5 t : Vec Ideal S1x256 .f32) (ix2 p k) = (V c main_v2 : Vec Ideal S1x256 .f32) (ix2 p k) := by
  have hi := (idx_facts0 t).2.2.2.2.2.1
  unfold iblk0
  rw [View.read_apply]
  show V c main_v2 _ = V c main_v2 _
  congr 1
  funext a
  apply Fin.ext
  match a with
  | ⟨0, _⟩ => show win0_5.index t (0 : Fin 2) * 1 + 1 * p.val = p.val; rw [hi.1]; omega
  | ⟨1, _⟩ => show win0_5.index t (1 : Fin 2) * 256 + 1 * k.val = k.val; rw [hi.2]; omega

/-- Window 6's block is its whole array, at every point. -/
theorem iblk0_6_apply (c : Dev nD) (t : Fin cfg0.N) (p : Fin 256) (k : Fin 256) :
    (iblk0 V c 6 t : Vec Ideal S256x256 .f32) (ix2 p k) = (V c main_arg8 : Vec Ideal S256x256 .f32) (ix2 p k) := by
  have hi := (idx_facts0 t).2.2.2.2.2.2.1
  unfold iblk0
  rw [View.read_apply]
  show V c main_arg8 _ = V c main_arg8 _
  congr 1
  funext a
  apply Fin.ext
  match a with
  | ⟨0, _⟩ => show win0_6.index t (0 : Fin 2) * 256 + 1 * p.val = p.val; rw [hi.1]; omega
  | ⟨1, _⟩ => show win0_6.index t (1 : Fin 2) * 256 + 1 * k.val = k.val; rw [hi.2]; omega

/-- Window 7's block is its whole array, at every point. -/
theorem iblk0_7_apply (c : Dev nD) (t : Fin cfg0.N) (p : Fin 1) (k : Fin 256) :
    (iblk0 V c 7 t : Vec Ideal S1x256 .f32) (ix2 p k) = (V c main_v3 : Vec Ideal S1x256 .f32) (ix2 p k) := by
  have hi := (idx_facts0 t).2.2.2.2.2.2.2.1
  unfold iblk0
  rw [View.read_apply]
  show V c main_v3 _ = V c main_v3 _
  congr 1
  funext a
  apply Fin.ext
  match a with
  | ⟨0, _⟩ => show win0_7.index t (0 : Fin 2) * 1 + 1 * p.val = p.val; rw [hi.1]; omega
  | ⟨1, _⟩ => show win0_7.index t (1 : Fin 2) * 256 + 1 * k.val = k.val; rw [hi.2]; omega

/-! ## Result window 8: the source path's first layer -/

/-- The source path's support, held in the scratch buffer from the first point on, is `x · W` of the whole arrays. -/
theorem sc0_0_apply (c : Dev nD) (k : Fin 4096) (j : Fin 256) :
    sc0_0 V c (ix2 k j) = Spec.xw (V c main_v0) (V c main_arg6) k j := by
  unfold sc0_0
  refine (pay1_apply (iblk0 V c 2 t0_0) (iblk0 V c 4 t0_0) k j).trans ?_
  unfold Spec.xw
  refine Finset.sum_congr rfl fun l _ => ?_
  rw [iblk0_2_apply V c t0_0 k l, iblk0_4_apply V c t0_0 l j]

/-- The layer the result array ends holding. -/
abbrev G8 (c : Dev nD) : Vec Ideal S4096x256 .bf16 :=
  Spec.gcn (V c main_v0) (V c main_arg3) (V c main_arg6) (fun i => V c main_v2 (ix2 0 (i 0)))

/-- The body's block at point `t`, at row `p` and column `j` of the block, is the layer at row `256 t + p`. -/
theorem out8_apply (c : Dev nD) (t : Fin cfg0.N) (p j : Fin 256) (r : Fin 4096) (hr : r.val = 256 * t.val + p.val) :
    out0_8 V c t (ix2 p j) = G8 V c (ix2 r j) := by
  unfold out0_8
  refine (pay3_apply (iblk0 V c 0 t) (sc0_0 V c) (iblk0 V c 5 t) p j).trans ?_
  simp only [iblk0_0_apply V c t p _ r hr, sc0_0_apply, iblk0_5_apply V c t 0 j]
  rfl

/-- What point `t` writes back is block `t` of the layer. -/
theorem flushed8_eq (c : Dev nD) (t : Fin cfg0.N) :
    (dat0 (F := Ideal) V c).flushed 8 t = ((cfg0.win 8).blk t).view.read (Elt Ideal) (G8 V c) := by
  show (cfg0.win 8).cut (grid0.coords t) ((dat0 V c).after 8 t) = _
  rw [after0_8]
  funext y
  rw [View.read_apply]
  have hi := (idx_facts0 t).2.2.2.2.2.2.2.2.1
  have h0 : (y 0).val < 256 := (y 0).isLt
  have h1 : (y 1).val < 256 := (y 1).isLt
  have hN : cfg0.N = 16 := N_0
  have ht : t.val < 16 := by have := t.isLt; omega
  have e : (cfg0.win 8).xinj (grid0.coords t) y = ix2 (⟨(y 0).val, h0⟩ : Fin 256) (⟨(y 1).val, h1⟩ : Fin 256) :=
    funext fun a => Fin.ext (by match a with | ⟨0, _⟩ => rfl | ⟨1, _⟩ => rfl)
  have e2 : ((cfg0.win 8).blk t).view.emb y
      = ix2 (⟨256 * t.val + (y 0).val, by omega⟩ : Fin 4096) (⟨(y 1).val, h1⟩ : Fin 256) :=
    funext fun a => Fin.ext (by
      match a with
      | ⟨0, _⟩ => show win0_8.index t (0 : Fin 2) * 256 + 1 * (y 0).val = 256 * t.val + (y 0).val; rw [hi.1]; omega
      | ⟨1, _⟩ => show win0_8.index t (1 : Fin 2) * 256 + 1 * (y 1).val = (y 1).val; rw [hi.2]; omega)
  show out0_8 V c t ((cfg0.win 8).xinj (grid0.coords t) y) = G8 V c (((cfg0.win 8).blk t).view.emb y)
  rw [e, e2]
  exact out8_apply V c t _ _ _ rfl

/-- Row `r` of the result is written by point `r / 256`. -/
theorem cover8 (i : S4096x256.Idx) :
    ∃ t : Fin cfg0.N, (cfg0.win 8).flush t = true ∧ i ∈ ((cfg0.win 8).blk t).view.set := by
  have hi0 : (i 0).val < 4096 := (i 0).isLt
  have hi1 : (i 1).val < 256 := (i 1).isLt
  have hN : cfg0.N = 16 := N_0
  obtain ⟨t, htv⟩ : ∃ t : Fin cfg0.N, t.val = (i 0).val / 256 := ⟨⟨(i 0).val / 256, by omega⟩, rfl⟩
  refine ⟨t, flush0_8 t, ?_⟩
  show i ∈ ((View.whole main_v20_0).slice (win0_8.rect t)).set
  rw [View.set_slice_whole, Rect.mem_set_unit]
  have hi := (idx_facts0 t).2.2.2.2.2.2.2.2.1
  intro a
  match a with
  | ⟨0, _⟩ =>
    show win0_8.index t (0 : Fin 2) * 256 ≤ (i 0).val ∧ (i 0).val < win0_8.index t (0 : Fin 2) * 256 + 256
    rw [hi.1, htv]; omega
  | ⟨1, _⟩ =>
    show win0_8.index t (1 : Fin 2) * 256 ≤ (i 1).val ∧ (i 1).val < win0_8.index t (1 : Fin 2) * 256 + 256
    rw [hi.2]; omega

/-- The result array after the region: the source path's first layer of the region's input arrays. -/
theorem arr0_8 (c : Dev nD) :
    (dat0 (F := Ideal) V c).arrAt 8 cfg0.N
      = Spec.gcn (V c main_v0) (V c main_arg3) (V c main_arg6) (fun i => V c main_v2 (ix2 0 (i 0))) :=
  (dat0 (F := Ideal) V c).arrAt_eq_of_cover 8 (G8 V c) (fun t _ => flushed8_eq V c t) (fun i => cover8 i)

/-! ## Result window 9: the target path's first layer -/

/-- The target path's support, held in the scratch buffer from the first point on, is `x · W` of the whole arrays. -/
theorem sc0_1_apply (c : Dev nD) (k : Fin 4096) (j : Fin 256) :
    sc0_1 V c (ix2 k j) = Spec.xw (V c main_v1) (V c main_arg8) k j := by
  unfold sc0_1
  rw [pay2_eq]
  refine (pay1_apply (iblk0 V c 3 t0_0) (iblk0 V c 6 t0_0) k j).trans ?_
  unfold Spec.xw
  refine Finset.sum_congr rfl fun l _ => ?_
  rw [iblk0_3_apply V c t0_0 k l, iblk0_6_apply V c t0_0 l j]

/-- The layer the result array ends holding. -/
abbrev G9 (c : Dev nD) : Vec Ideal S4096x256 .bf16 :=
  Spec.gcn (V c main_v1) (V c main_arg5) (V c main_arg8) (fun i => V c main_v3 (ix2 0 (i 0)))

/-- The body's block at point `t`, at row `p` and column `j` of the block, is the layer at row `256 t + p`. -/
theorem out9_apply (c : Dev nD) (t : Fin cfg0.N) (p j : Fin 256) (r : Fin 4096) (hr : r.val = 256 * t.val + p.val) :
    out0_9 V c t (ix2 p j) = G9 V c (ix2 r j) := by
  unfold out0_9
  rw [pay4_eq]
  refine (pay3_apply (iblk0 V c 1 t) (sc0_1 V c) (iblk0 V c 7 t) p j).trans ?_
  simp only [iblk0_1_apply V c t p _ r hr, sc0_1_apply, iblk0_7_apply V c t 0 j]
  rfl

/-- What point `t` writes back is block `t` of the layer. -/
theorem flushed9_eq (c : Dev nD) (t : Fin cfg0.N) :
    (dat0 (F := Ideal) V c).flushed 9 t = ((cfg0.win 9).blk t).view.read (Elt Ideal) (G9 V c) := by
  show (cfg0.win 9).cut (grid0.coords t) ((dat0 V c).after 9 t) = _
  rw [after0_9]
  funext y
  rw [View.read_apply]
  have hi := (idx_facts0 t).2.2.2.2.2.2.2.2.2
  have h0 : (y 0).val < 256 := (y 0).isLt
  have h1 : (y 1).val < 256 := (y 1).isLt
  have hN : cfg0.N = 16 := N_0
  have ht : t.val < 16 := by have := t.isLt; omega
  have e : (cfg0.win 9).xinj (grid0.coords t) y = ix2 (⟨(y 0).val, h0⟩ : Fin 256) (⟨(y 1).val, h1⟩ : Fin 256) :=
    funext fun a => Fin.ext (by match a with | ⟨0, _⟩ => rfl | ⟨1, _⟩ => rfl)
  have e2 : ((cfg0.win 9).blk t).view.emb y
      = ix2 (⟨256 * t.val + (y 0).val, by omega⟩ : Fin 4096) (⟨(y 1).val, h1⟩ : Fin 256) :=
    funext fun a => Fin.ext (by
      match a with
      | ⟨0, _⟩ => show win0_9.index t (0 : Fin 2) * 256 + 1 * (y 0).val = 256 * t.val + (y 0).val; rw [hi.1]; omega
      | ⟨1, _⟩ => show win0_9.index t (1 : Fin 2) * 256 + 1 * (y 1).val = (y 1).val; rw [hi.2]; omega)
  show out0_9 V c t ((cfg0.win 9).xinj (grid0.coords t) y) = G9 V c (((cfg0.win 9).blk t).view.emb y)
  rw [e, e2]
  exact out9_apply V c t _ _ _ rfl

/-- Row `r` of the result is written by point `r / 256`. -/
theorem cover9 (i : S4096x256.Idx) :
    ∃ t : Fin cfg0.N, (cfg0.win 9).flush t = true ∧ i ∈ ((cfg0.win 9).blk t).view.set := by
  have hi0 : (i 0).val < 4096 := (i 0).isLt
  have hi1 : (i 1).val < 256 := (i 1).isLt
  have hN : cfg0.N = 16 := N_0
  obtain ⟨t, htv⟩ : ∃ t : Fin cfg0.N, t.val = (i 0).val / 256 := ⟨⟨(i 0).val / 256, by omega⟩, rfl⟩
  refine ⟨t, flush0_9 t, ?_⟩
  show i ∈ ((View.whole main_v20_1).slice (win0_9.rect t)).set
  rw [View.set_slice_whole, Rect.mem_set_unit]
  have hi := (idx_facts0 t).2.2.2.2.2.2.2.2.2
  intro a
  match a with
  | ⟨0, _⟩ =>
    show win0_9.index t (0 : Fin 2) * 256 ≤ (i 0).val ∧ (i 0).val < win0_9.index t (0 : Fin 2) * 256 + 256
    rw [hi.1, htv]; omega
  | ⟨1, _⟩ =>
    show win0_9.index t (1 : Fin 2) * 256 ≤ (i 1).val ∧ (i 1).val < win0_9.index t (1 : Fin 2) * 256 + 256
    rw [hi.2]; omega

/-- The result array after the region: the target path's first layer of the region's input arrays. -/
theorem arr0_9 (c : Dev nD) :
    (dat0 (F := Ideal) V c).arrAt 9 cfg0.N
      = Spec.gcn (V c main_v1) (V c main_arg5) (V c main_arg8) (fun i => V c main_v3 (ix2 0 (i 0))) :=
  (dat0 (F := Ideal) V c).arrAt_eq_of_cover 9 (G9 V c) (fun t _ => flushed9_eq V c t) (fun i => cover9 i)

end Cert.KernelIdeal.HandValue

end
-- ==== Proof.KernelIdeal.Value1a.lean ====
/-
  The second region's body, read at an index on the extended reals. A change of float format is the identity there and
  a product into a zero accumulator is the exact sum over the contracted axis. So the block of second-layer rows is the
  leaky relu of the adjacency rows times the support plus the bias row, each head is that block times its first weight
  block plus the feature rows times its second weight block plus its bias row, and the stored block is half the positive
  part of the one head plus half the positive part of the other.
-/
import proofs.«176739_g8323646620422_cont_9to1_m_1182_25_alg».proof.Proof.Gen.KernelIdeal.Skeleton
import proofs.«176739_g8323646620422_cont_9to1_m_1182_25_alg».proof.Proof.Spec
import proofs.«176739_g8323646620422_cont_9to1_m_1182_25_alg».proof.Proof.KernelIdeal.Value0a
import Idealize.ShloMosaic.Lib.Pipeline.Value
import Idealize.ShloMosaic.Lib.ValueIdx
import Idealize.ShloMosaic.PureOps.Ideal.Laws

noncomputable section

open scoped BigOperators

namespace Cert.KernelIdeal.HandValue

open Cert.KernelIdeal Cert.KernelIdeal.Gen Idealize.ShloMosaic Idealize.ShloMosaic.ValueIdx

/-! ## The square product's operand indices, axis by axis -/

theorem lhsC_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhsC_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhsC_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhsC_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-! ## The square product at an index -/

/-- A 256 × 256 block times a 256 × 256 block at row `r`, column `j`: the sum over the 256 inner columns. -/
theorem matmulC_apply (x : FVec Ideal S256x256 .bf16) (y : FVec Ideal S256x256 .bf16) (r : Fin 256) (j : Fin 256) :
    matmul dot_S256x256_S256x256_S256x256_1_0_0_1_n_n none x y (constant (F := Ideal) S256x256 .f32 0x00000000#32) (ix2 r j)
      = ∑ k : Fin 256, x (ix2 r k) * y (ix2 k j) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 r j) ((contrEquiv1 dot_S256x256_S256x256_S256x256_1_0_0_1_n_n 256 rfl rfl).symm k) = ix2 r k := funext fun a => Fin.ext (by
    match a with
    | ⟨0, _⟩ => exact lhsC_0 _ _
    | ⟨1, _⟩ => exact (lhsC_1 _ _).trans hk)
  have er : dot_S256x256_S256x256_S256x256_1_0_0_1_n_n.rhsIdx (ix2 r j) ((contrEquiv1 dot_S256x256_S256x256_S256x256_1_0_0_1_n_n 256 rfl rfl).symm k) = ix2 k j := funext fun a => Fin.ext (by
    match a with
    | ⟨0, _⟩ => exact (rhsC_0 _ _).trans hk
    | ⟨1, _⟩ => exact rhsC_1 _ _)
  rw [el, er]

/-! ## The payloads at an index -/

/-- The two supports are computed by the same term as the first region's. -/
theorem k1_pay2_eq : @k1_pay2 = @k0_pay1 := rfl
theorem k1_pay3_eq : @k1_pay3 = @k0_pay1 := rfl

/-- A support block: `(h · W)(q, k)`. -/
theorem k1_pay2_apply (h : Vec Ideal S4096x256 .bf16) (W : Vec Ideal S256x256 .f32) (q : Fin 4096) (k : Fin 256) :
    k1_pay2 (F := Ideal) h W (ix2 q k) = Spec.xw h W q k := by
  rw [k1_pay2_eq]; exact pay1_apply h W q k
theorem k1_pay3_apply (h : Vec Ideal S4096x256 .bf16) (W : Vec Ideal S256x256 .f32) (q : Fin 4096) (k : Fin 256) :
    k1_pay3 (F := Ideal) h W (ix2 q k) = Spec.xw h W q k := by
  rw [k1_pay3_eq]; exact pay1_apply h W q k

/-- The target path's block of second-layer rows at row `p` of the block, column `k`: the leaky relu of the block's
    adjacency rows times the support, plus the bias. It is the first region's layer block before its change of format. -/
theorem k1_pay4_apply (a : Vec Ideal S256x4096 .f32) (s : Vec Ideal S4096x256 .bf16) (b : Vec Ideal S1x256 .f32) (p k : Fin 256) :
    k1_pay4 (F := Ideal) a s b (ix2 p k)
      = Spec.lrelu ((∑ q : Fin 4096, a (ix2 p q) * s (ix2 q k)) + b (ix2 0 k)) :=
  (truncf_apply (k1_pay4 (F := Ideal) a s b) bitsLt_bf16_f32 (ix2 p k)).symm.trans (pay3_apply a s b p k)

/-- The source path's block of second-layer rows, already multiplied into the head's first weight block. -/
theorem k1_pay5_apply (a : Vec Ideal S256x4096 .f32) (s : Vec Ideal S4096x256 .bf16) (b : Vec Ideal S1x256 .f32)
    (A : Vec Ideal S256x256 .bf16) (p j : Fin 256) :
    k1_pay5 (F := Ideal) a s b A (ix2 p j)
      = ∑ k : Fin 256, Spec.lrelu ((∑ q : Fin 4096, a (ix2 p q) * s (ix2 q k)) + b (ix2 0 k)) * A (ix2 k j) := by
  unfold k1_pay5
  refine (matmulC_apply _ _ p j).trans ?_
  refine Finset.sum_congr rfl fun k _ => ?_
  rw [truncf_apply, shapeCast_self A]
  exact congrArg (· * A (ix2 k j)) (k1_pay4_apply a s b p k)

/-- The stored block at row `p` of the block, column `j`, from the two second-layer terms `o` (the target path's rows)
    and `m` (the source path's rows times the first weight block) and the loaded blocks. -/
theorem k1_pay1_apply (o m : FVec Ideal S256x256 .f32) (xs Bs : Vec Ideal S256x256 .bf16) (bsu : Vec Ideal S1x256 .f32)
    (At xt Bt : Vec Ideal S256x256 .bf16) (btu : Vec Ideal S1x256 .f32) (p j : Fin 256) :
    k1_pay1 (F := Ideal) o m xs Bs bsu At xt Bt btu (ix2 p j)
      = Spec.halfW * Spec.relu0 ((m (ix2 p j) + (∑ k : Fin 256, xs (ix2 p k) * Bs (ix2 k j))) + bsu (ix2 0 j))
        + Spec.halfW * Spec.relu0 (((∑ k : Fin 256, o (ix2 p k) * At (ix2 k j)) + (∑ k : Fin 256, xt (ix2 p k) * Bt (ix2 k j))) + btu (ix2 0 j)) := by
  unfold k1_pay1
  simp only [shapeCast_self]
  have hm1 := matmulC_apply xs Bs p j
  have hm2 := matmulC_apply (truncf .bf16 o bitsLt_bf16_f32) At p j
  have hm3 := matmulC_apply xt Bt p j
  have hb1 := bias_apply bsu p j
  have hb2 := bias_apply btu p j
  simp only [truncf_apply, mulf_apply, addf_apply, maximumf_apply, broadcast_apply] at hm2 ⊢
  rw [hm1, hm2, hm3, hb1, hb2]
  simp only [Ideal.ofBits_def]
  rfl

/-- The stored block as one function of the blocks the body loads and of the two supports. -/
theorem body1_apply (us ut : Vec Ideal S256x4096 .f32) (ss st : Vec Ideal S4096x256 .bf16) (b3 b4 : Vec Ideal S1x256 .f32)
    (As xs Bs : Vec Ideal S256x256 .bf16) (bsu : Vec Ideal S1x256 .f32) (At xt Bt : Vec Ideal S256x256 .bf16)
    (btu : Vec Ideal S1x256 .f32) (p j : Fin 256) :
    k1_pay1 (F := Ideal) (k1_pay4 ut st b4) (k1_pay5 us ss b3 As) xs Bs bsu At xt Bt btu (ix2 p j)
      = Spec.halfW * Spec.relu0 (((∑ k : Fin 256, Spec.lrelu ((∑ q : Fin 4096, us (ix2 p q) * ss (ix2 q k)) + b3 (ix2 0 k)) * As (ix2 k j))
            + (∑ k : Fin 256, xs (ix2 p k) * Bs (ix2 k j))) + bsu (ix2 0 j))
        + Spec.halfW * Spec.relu0 (((∑ k : Fin 256, Spec.lrelu ((∑ q : Fin 4096, ut (ix2 p q) * st (ix2 q k)) + b4 (ix2 0 k)) * At (ix2 k j))
            + (∑ k : Fin 256, xt (ix2 p k) * Bt (ix2 k j))) + btu (ix2 0 j)) := by
  refine (k1_pay1_apply (k1_pay4 ut st b4) (k1_pay5 us ss b3 As) xs Bs bsu At xt Bt btu p j).trans ?_
  rw [k1_pay5_apply us ss b3 As p j]
  simp only [k1_pay4_apply]

end Cert.KernelIdeal.HandValue

end
-- ==== Proof.KernelIdeal.Value1.lean ====
/-
  The second region's result array on the extended reals. The region runs its body at sixteen points; point `t` reads
  rows `256 t … 256 t + 255` of the two adjacency matrices and of the two feature arrays, every other operand whole, and
  writes rows `256 t … 256 t + 255` of the result. The supports `h · W` of the two paths are computed at the first point
  from the whole arrays and kept, so every point's block is, on each path, the second layer
  `leakyrelu (adj · (h · W) + b)` at its rows, multiplied into the head's first weight block, plus the features' rows
  times the second weight block, plus the head's bias; the result is half the positive part of each head, added. Row `r`
  is written by point `r / 256`, so the blocks tile the result.
-/
import proofs.«176739_g8323646620422_cont_9to1_m_1182_25_alg».proof.Proof.KernelIdeal.R1
import proofs.«176739_g8323646620422_cont_9to1_m_1182_25_alg».proof.Proof.KernelIdeal.Value0a
import proofs.«176739_g8323646620422_cont_9to1_m_1182_25_alg».proof.Proof.KernelIdeal.Value1a
import proofs.«176739_g8323646620422_cont_9to1_m_1182_25_alg».proof.Proof.Spec

set_option maxRecDepth 16384

noncomputable section

open scoped BigOperators

namespace Cert.KernelIdeal.HandValue

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

/-! ## The function the result array ends holding -/

/-- One head at row `r`, column `j`: the second layer's row `r` (of the first layer's output `h1`, the adjacency `uv`,
    the weight `W` and the bias row `b`) times the first weight block, plus the features' row `r` times the second
    weight block, plus the head's bias. -/
def head2 (uv : Vec Ideal S4096x4096 .f32) (h1 x : Vec Ideal S4096x256 .bf16) (W : Vec Ideal S256x256 .f32)
    (b : Vec Ideal S1x256 .f32) (A B : Vec Ideal S256x256 .bf16) (bl : Vec Ideal S1x256 .f32) (r : Fin 4096) (j : Fin 256) : EReal :=
  ((∑ k : Fin 256, Spec.gcnAt h1 uv W (fun a => b (ix2 0 (a 0))) r k * A (ix2 k j))
      + (∑ k : Fin 256, x (ix2 r k) * B (ix2 k j))) + bl (ix2 0 j)

/-- The result: half the positive part of the source path's head plus half the positive part of the target path's. -/
def layer2 (uvs uvt : Vec Ideal S4096x4096 .f32) (h1s h1t xs xt : Vec Ideal S4096x256 .bf16)
    (W3 : Vec Ideal S256x256 .f32) (b3 : Vec Ideal S1x256 .f32) (W4 : Vec Ideal S256x256 .f32) (b4 : Vec Ideal S1x256 .f32)
    (As Bs : Vec Ideal S256x256 .bf16) (bsu : Vec Ideal S1x256 .f32) (At Bt : Vec Ideal S256x256 .bf16) (btu : Vec Ideal S1x256 .f32) :
    Vec Ideal S4096x256 .f32 := fun i =>
  Spec.halfW * Spec.relu0 (head2 uvs h1s xs W3 b3 As Bs bsu (i 0) (i 1))
    + Spec.halfW * Spec.relu0 (head2 uvt h1t xt W4 b4 At Bt btu (i 0) (i 1))

theorem layer2_ix2 (uvs uvt : Vec Ideal S4096x4096 .f32) (h1s h1t xs xt : Vec Ideal S4096x256 .bf16)
    (W3 : Vec Ideal S256x256 .f32) (b3 : Vec Ideal S1x256 .f32) (W4 : Vec Ideal S256x256 .f32) (b4 : Vec Ideal S1x256 .f32)
    (As Bs : Vec Ideal S256x256 .bf16) (bsu : Vec Ideal S1x256 .f32) (At Bt : Vec Ideal S256x256 .bf16) (btu : Vec Ideal S1x256 .f32)
    (r : Fin 4096) (j : Fin 256) :
    layer2 uvs uvt h1s h1t xs xt W3 b3 W4 b4 As Bs bsu At Bt btu (ix2 r j)
      = Spec.halfW * Spec.relu0 (head2 uvs h1s xs W3 b3 As Bs bsu r j)
        + Spec.halfW * Spec.relu0 (head2 uvt h1t xt W4 b4 At Bt btu r j) := rfl

/-! ## The index maps, decided once over the sixteen points -/

/-- The adjacency, feature and result windows move one block of 256 rows per point; every other window stays at block
    (0, 0). One fact per window. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)
theorem idx1_10 : ∀ t : Fin cfg1.N, win1_10.index t (0 : Fin 2) = 0 ∧ win1_10.index t (1 : Fin 2) = 0 :=
  (by decide +kernel : ∀ t : Fin grid1.N, _)
theorem idx1_11 : ∀ t : Fin cfg1.N, win1_11.index t (0 : Fin 2) = 0 ∧ win1_11.index t (1 : Fin 2) = 0 :=
  (by decide +kernel : ∀ t : Fin grid1.N, _)
theorem idx1_12 : ∀ t : Fin cfg1.N, win1_12.index t (0 : Fin 2) = 0 ∧ win1_12.index t (1 : Fin 2) = 0 :=
  (by decide +kernel : ∀ t : Fin grid1.N, _)
theorem idx1_13 : ∀ t : Fin cfg1.N, win1_13.index t (0 : Fin 2) = 0 ∧ win1_13.index t (1 : Fin 2) = 0 :=
  (by decide +kernel : ∀ t : Fin grid1.N, _)
theorem idx1_14 : ∀ t : Fin cfg1.N, win1_14.index t (0 : Fin 2) = 0 ∧ win1_14.index t (1 : Fin 2) = 0 :=
  (by decide +kernel : ∀ t : Fin grid1.N, _)
theorem idx1_15 : ∀ t : Fin cfg1.N, win1_15.index t (0 : Fin 2) = 0 ∧ win1_15.index t (1 : Fin 2) = 0 :=
  (by decide +kernel : ∀ t : Fin grid1.N, _)
theorem idx1_16 : ∀ t : Fin cfg1.N, win1_16.index t (0 : Fin 2) = t.val ∧ win1_16.index t (1 : Fin 2) = 0 :=
  (by decide +kernel : ∀ t : Fin grid1.N, _)

/-! ## Each input block, read where its rectangle says -/

/-- Window 0's block at point `t` is rows `256 t … 256 t + 255` of its array. -/
theorem iblk1_0_apply (c : Dev nD) (t : Fin cfg1.N) (p : Fin 256) (k : Fin 4096) (r : Fin 4096)
    (hr : r.val = 256 * t.val + p.val) :
    (iblk1 V c 0 t : Vec Ideal S256x4096 .f32) (ix2 p k) = (V c main_arg2 : Vec Ideal S4096x4096 .f32) (ix2 r k) := by
  have hi := idx1_0 t
  unfold iblk1
  rw [View.read_apply]
  show V c main_arg2 _ = V c main_arg2 _
  congr 1
  funext a
  apply Fin.ext
  match a with
  | ⟨0, _⟩ => show win1_0.index t (0 : Fin 2) * 256 + 1 * p.val = r.val; rw [hi.1, hr]; omega
  | ⟨1, _⟩ => show win1_0.index t (1 : Fin 2) * 4096 + 1 * k.val = k.val; rw [hi.2]; omega

/-- Window 1's block at point `t` is rows `256 t … 256 t + 255` of its array. -/
theorem iblk1_1_apply (c : Dev nD) (t : Fin cfg1.N) (p : Fin 256) (k : Fin 4096) (r : Fin 4096)
    (hr : r.val = 256 * t.val + p.val) :
    (iblk1 V c 1 t : Vec Ideal S256x4096 .f32) (ix2 p k) = (V c main_arg4 : Vec Ideal S4096x4096 .f32) (ix2 r k) := by
  have hi := idx1_1 t
  unfold iblk1
  rw [View.read_apply]
  show V c main_arg4 _ = V c main_arg4 _
  congr 1
  funext a
  apply Fin.ext
  match a with
  | ⟨0, _⟩ => show win1_1.index t (0 : Fin 2) * 256 + 1 * p.val = r.val; rw [hi.1, hr]; omega
  | ⟨1, _⟩ => show win1_1.index t (1 : Fin 2) * 4096 + 1 * k.val = k.val; rw [hi.2]; omega

/-- Window 2's block is its whole array, at every point. -/
theorem iblk1_2_apply (c : Dev nD) (t : Fin cfg1.N) (p : Fin 4096) (k : Fin 256) :
    (iblk1 V c 2 t : Vec Ideal S4096x256 .bf16) (ix2 p k) = (V c main_v20_0 : Vec Ideal S4096x256 .bf16) (ix2 p k) := by
  have hi := idx1_2 t
  unfold iblk1
  rw [View.read_apply]
  show V c main_v20_0 _ = V c main_v20_0 _
  congr 1
  funext a
  apply Fin.ext
  match a with
  | ⟨0, _⟩ => show win1_2.index t (0 : Fin 2) * 4096 + 1 * p.val = p.val; rw [hi.1]; omega
  | ⟨1, _⟩ => show win1_2.index t (1 : Fin 2) * 256 + 1 * k.val = k.val; rw [hi.2]; omega

/-- Window 3's block is its whole array, at every point. -/
theorem iblk1_3_apply (c : Dev nD) (t : Fin cfg1.N) (p : Fin 4096) (k : Fin 256) :
    (iblk1 V c 3 t : Vec Ideal S4096x256 .bf16) (ix2 p k) = (V c main_v20_1 : Vec Ideal S4096x256 .bf16) (ix2 p k) := by
  have hi := idx1_3 t
  unfold iblk1
  rw [View.read_apply]
  show V c main_v20_1 _ = V c main_v20_1 _
  congr 1
  funext a
  apply Fin.ext
  match a with
  | ⟨0, _⟩ => show win1_3.index t (0 : Fin 2) * 4096 + 1 * p.val = p.val; rw [hi.1]; omega
  | ⟨1, _⟩ => show win1_3.index t (1 : Fin 2) * 256 + 1 * k.val = k.val; rw [hi.2]; omega

/-- Window 4's block at point `t` is rows `256 t … 256 t + 255` of its array. -/
theorem iblk1_4_apply (c : Dev nD) (t : Fin cfg1.N) (p : Fin 256) (k : Fin 256) (r : Fin 4096)
    (hr : r.val = 256 * t.val + p.val) :
    (iblk1 V c 4 t : Vec Ideal S256x256 .bf16) (ix2 p k) = (V c main_v0 : Vec Ideal S4096x256 .bf16) (ix2 r k) := by
  have hi := idx1_4 t
  unfold iblk1
  rw [View.read_apply]
  show V c main_v0 _ = V c main_v0 _
  congr 1
  funext a
  apply Fin.ext
  match a with
  | ⟨0, _⟩ => show win1_4.index t (0 : Fin 2) * 256 + 1 * p.val = r.val; rw [hi.1, hr]; omega
  | ⟨1, _⟩ => show win1_4.index t (1 : Fin 2) * 256 + 1 * k.val = k.val; rw [hi.2]; omega

/-- Window 5's block at point `t` is rows `256 t … 256 t + 255` of its array. -/
theorem iblk1_5_apply (c : Dev nD) (t : Fin cfg1.N) (p : Fin 256) (k : Fin 256) (r : Fin 4096)
    (hr : r.val = 256 * t.val + p.val) :
    (iblk1 V c 5 t : Vec Ideal S256x256 .bf16) (ix2 p k) = (V c main_v1 : Vec Ideal S4096x256 .bf16) (ix2 r k) := by
  have hi := idx1_5 t
  unfold iblk1
  rw [View.read_apply]
  show V c main_v1 _ = V c main_v1 _
  congr 1
  funext a
  apply Fin.ext
  match a with
  | ⟨0, _⟩ => show win1_5.index t (0 : Fin 2) * 256 + 1 * p.val = r.val; rw [hi.1, hr]; omega
  | ⟨1, _⟩ => show win1_5.index t (1 : Fin 2) * 256 + 1 * k.val = k.val; rw [hi.2]; omega

/-- Window 6's block is its whole array, at every point. -/
theorem iblk1_6_apply (c : Dev nD) (t : Fin cfg1.N) (p : Fin 256) (k : Fin 256) :
    (iblk1 V c 6 t : Vec Ideal S256x256 .f32) (ix2 p k) = (V c main_arg10 : Vec Ideal S256x256 .f32) (ix2 p k) := by
  have hi := idx1_6 t
  unfold iblk1
  rw [View.read_apply]
  show V c main_arg10 _ = V c main_arg10 _
  congr 1
  funext a
  apply Fin.ext
  match a with
  | ⟨0, _⟩ => show win1_6.index t (0 : Fin 2) * 256 + 1 * p.val = p.val; rw [hi.1]; omega
  | ⟨1, _⟩ => show win1_6.index t (1 : Fin 2) * 256 + 1 * k.val = k.val; rw [hi.2]; omega

/-- Window 7's block is its whole array, at every point. -/
theorem iblk1_7_apply (c : Dev nD) (t : Fin cfg1.N) (p : Fin 1) (k : Fin 256) :
    (iblk1 V c 7 t : Vec Ideal S1x256 .f32) (ix2 p k) = (V c main_v4 : Vec Ideal S1x256 .f32) (ix2 p k) := by
  have hi := idx1_7 t
  unfold iblk1
  rw [View.read_apply]
  show V c main_v4 _ = V c main_v4 _
  congr 1
  funext a
  apply Fin.ext
  match a with
  | ⟨0, _⟩ => show win1_7.index t (0 : Fin 2) * 1 + 1 * p.val = p.val; rw [hi.1]; omega
  | ⟨1, _⟩ => show win1_7.index t (1 : Fin 2) * 256 + 1 * k.val = k.val; rw [hi.2]; omega

/-- Window 8's block is its whole array, at every point. -/
theorem iblk1_8_apply (c : Dev nD) (t : Fin cfg1.N) (p : Fin 256) (k : Fin 256) :
    (iblk1 V c 8 t : Vec Ideal S256x256 .f32) (ix2 p k) = (V c main_arg12 : Vec Ideal S256x256 .f32) (ix2 p k) := by
  have hi := idx1_8 t
  unfold iblk1
  rw [View.read_apply]
  show V c main_arg12 _ = V c main_arg12 _
  congr 1
  funext a
  apply Fin.ext
  match a with
  | ⟨0, _⟩ => show win1_8.index t (0 : Fin 2) * 256 + 1 * p.val = p.val; rw [hi.1]; omega
  | ⟨1, _⟩ => show win1_8.index t (1 : Fin 2) * 256 + 1 * k.val = k.val; rw [hi.2]; omega

/-- Window 9's block is its whole array, at every point. -/
theorem iblk1_9_apply (c : Dev nD) (t : Fin cfg1.N) (p : Fin 1) (k : Fin 256) :
    (iblk1 V c 9 t : Vec Ideal S1x256 .f32) (ix2 p k) = (V c main_v5 : Vec Ideal S1x256 .f32) (ix2 p k) := by
  have hi := idx1_9 t
  unfold iblk1
  rw [View.read_apply]
  show V c main_v5 _ = V c main_v5 _
  congr 1
  funext a
  apply Fin.ext
  match a with
  | ⟨0, _⟩ => show win1_9.index t (0 : Fin 2) * 1 + 1 * p.val = p.val; rw [hi.1]; omega
  | ⟨1, _⟩ => show win1_9.index t (1 : Fin 2) * 256 + 1 * k.val = k.val; rw [hi.2]; omega

/-- Window 10's block is its whole array, at every point. -/
theorem iblk1_10_apply (c : Dev nD) (t : Fin cfg1.N) (p : Fin 256) (k : Fin 256) :
    (iblk1 V c 10 t : Vec Ideal S256x256 .bf16) (ix2 p k) = (V c main_v10 : Vec Ideal S256x256 .bf16) (ix2 p k) := by
  have hi := idx1_10 t
  unfold iblk1
  rw [View.read_apply]
  show V c main_v10 _ = V c main_v10 _
  congr 1
  funext a
  apply Fin.ext
  match a with
  | ⟨0, _⟩ => show win1_10.index t (0 : Fin 2) * 256 + 1 * p.val = p.val; rw [hi.1]; omega
  | ⟨1, _⟩ => show win1_10.index t (1 : Fin 2) * 256 + 1 * k.val = k.val; rw [hi.2]; omega

/-- Window 11's block is its whole array, at every point. -/
theorem iblk1_11_apply (c : Dev nD) (t : Fin cfg1.N) (p : Fin 256) (k : Fin 256) :
    (iblk1 V c 11 t : Vec Ideal S256x256 .bf16) (ix2 p k) = (V c main_v13 : Vec Ideal S256x256 .bf16) (ix2 p k) := by
  have hi := idx1_11 t
  unfold iblk1
  rw [View.read_apply]
  show V c main_v13 _ = V c main_v13 _
  congr 1
  funext a
  apply Fin.ext
  match a with
  | ⟨0, _⟩ => show win1_11.index t (0 : Fin 2) * 256 + 1 * p.val = p.val; rw [hi.1]; omega
  | ⟨1, _⟩ => show win1_11.index t (1 : Fin 2) * 256 + 1 * k.val = k.val; rw [hi.2]; omega

/-- Window 12's block is its whole array, at every point. -/
theorem iblk1_12_apply (c : Dev nD) (t : Fin cfg1.N) (p : Fin 1) (k : Fin 256) :
    (iblk1 V c 12 t : Vec Ideal S1x256 .f32) (ix2 p k) = (V c main_v6 : Vec Ideal S1x256 .f32) (ix2 p k) := by
  have hi := idx1_12 t
  unfold iblk1
  rw [View.read_apply]
  show V c main_v6 _ = V c main_v6 _
  congr 1
  funext a
  apply Fin.ext
  match a with
  | ⟨0, _⟩ => show win1_12.index t (0 : Fin 2) * 1 + 1 * p.val = p.val; rw [hi.1]; omega
  | ⟨1, _⟩ => show win1_12.index t (1 : Fin 2) * 256 + 1 * k.val = k.val; rw [hi.2]; omega

/-- Window 13's block is its whole array, at every point. -/
theorem iblk1_13_apply (c : Dev nD) (t : Fin cfg1.N) (p : Fin 256) (k : Fin 256) :
    (iblk1 V c 13 t : Vec Ideal S256x256 .bf16) (ix2 p k) = (V c main_v16 : Vec Ideal S256x256 .bf16) (ix2 p k) := by
  have hi := idx1_13 t
  unfold iblk1
  rw [View.read_apply]
  show V c main_v16 _ = V c main_v16 _
  congr 1
  funext a
  apply Fin.ext
  match a with
  | ⟨0, _⟩ => show win1_13.index t (0 : Fin 2) * 256 + 1 * p.val = p.val; rw [hi.1]; omega
  | ⟨1, _⟩ => show win1_13.index t (1 : Fin 2) * 256 + 1 * k.val = k.val; rw [hi.2]; omega

/-- Window 14's block is its whole array, at every point. -/
theorem iblk1_14_apply (c : Dev nD) (t : Fin cfg1.N) (p : Fin 256) (k : Fin 256) :
    (iblk1 V c 14 t : Vec Ideal S256x256 .bf16) (ix2 p k) = (V c main_v19 : Vec Ideal S256x256 .bf16) (ix2 p k) := by
  have hi := idx1_14 t
  unfold iblk1
  rw [View.read_apply]
  show V c main_v19 _ = V c main_v19 _
  congr 1
  funext a
  apply Fin.ext
  match a with
  | ⟨0, _⟩ => show win1_14.index t (0 : Fin 2) * 256 + 1 * p.val = p.val; rw [hi.1]; omega
  | ⟨1, _⟩ => show win1_14.index t (1 : Fin 2) * 256 + 1 * k.val = k.val; rw [hi.2]; omega

/-- Window 15's block is its whole array, at every point. -/
theorem iblk1_15_apply (c : Dev nD) (t : Fin cfg1.N) (p : Fin 1) (k : Fin 256) :
    (iblk1 V c 15 t : Vec Ideal S1x256 .f32) (ix2 p k) = (V c main_v7 : Vec Ideal S1x256 .f32) (ix2 p k) := by
  have hi := idx1_15 t
  unfold iblk1
  rw [View.read_apply]
  show V c main_v7 _ = V c main_v7 _
  congr 1
  funext a
  apply Fin.ext
  match a with
  | ⟨0, _⟩ => show win1_15.index t (0 : Fin 2) * 1 + 1 * p.val = p.val; rw [hi.1]; omega
  | ⟨1, _⟩ => show win1_15.index t (1 : Fin 2) * 256 + 1 * k.val = k.val; rw [hi.2]; omega

/-! ## The two supports -/

/-- The source path's support, held in the scratch buffer from the first point on, is `h · W` of the whole arrays. -/
theorem sc1_0_apply (c : Dev nD) (q : Fin 4096) (k : Fin 256) :
    sc1_0 V c (ix2 q k) = Spec.xw (V c main_v20_0) (V c main_arg10) q k := by
  unfold sc1_0
  refine (k1_pay2_apply (iblk1 V c 2 t1_0) (iblk1 V c 6 t1_0) q k).trans ?_
  unfold Spec.xw
  refine Finset.sum_congr rfl fun l _ => ?_
  rw [iblk1_2_apply V c t1_0 q l, iblk1_6_apply V c t1_0 l k]

/-- The target path's support. -/
theorem sc1_1_apply (c : Dev nD) (q : Fin 4096) (k : Fin 256) :
    sc1_1 V c (ix2 q k) = Spec.xw (V c main_v20_1) (V c main_arg12) q k := by
  unfold sc1_1
  refine (k1_pay3_apply (iblk1 V c 3 t1_0) (iblk1 V c 8 t1_0) q k).trans ?_
  unfold Spec.xw
  refine Finset.sum_congr rfl fun l _ => ?_
  rw [iblk1_3_apply V c t1_0 q l, iblk1_8_apply V c t1_0 l k]

/-! ## The result window -/

/-- The function the result array ends holding, of the arrays as the region finds them. -/
abbrev G16 (c : Dev nD) : Vec Ideal S4096x256 .f32 :=
  layer2 (V c main_arg2) (V c main_arg4) (V c main_v20_0) (V c main_v20_1) (V c main_v0) (V c main_v1)
      (V c main_arg10) (V c main_v4) (V c main_arg12) (V c main_v5) (V c main_v10) (V c main_v13) (V c main_v6)
      (V c main_v16) (V c main_v19) (V c main_v7)

/-- The body's block at point `t`, at row `p` and column `j` of the block, is the result at row `256 t + p`. -/
theorem out16_apply (c : Dev nD) (t : Fin cfg1.N) (p j : Fin 256) (r : Fin 4096) (hr : r.val = 256 * t.val + p.val) :
    out1_16 V c t (ix2 p j) = G16 V c (ix2 r j) := by
  unfold out1_16
  refine (body1_apply (iblk1 V c 0 t) (iblk1 V c 1 t) (sc1_0 V c) (sc1_1 V c) (iblk1 V c 7 t) (iblk1 V c 9 t)
    (iblk1 V c 10 t) (iblk1 V c 4 t) (iblk1 V c 11 t) (iblk1 V c 12 t) (iblk1 V c 13 t) (iblk1 V c 5 t) (iblk1 V c 14 t)
    (iblk1 V c 15 t) p j).trans ?_
  simp only [iblk1_0_apply V c t p _ r hr, iblk1_1_apply V c t p _ r hr, sc1_0_apply, sc1_1_apply,
    iblk1_7_apply V c t 0 _, iblk1_9_apply V c t 0 _, iblk1_10_apply V c t _ j, iblk1_4_apply V c t p _ r hr,
    iblk1_11_apply V c t _ j, iblk1_12_apply V c t 0 j, iblk1_13_apply V c t _ j, iblk1_5_apply V c t p _ r hr,
    iblk1_14_apply V c t _ j, iblk1_15_apply V c t 0 j]
  rfl

/-- What point `t` writes back is block `t` of the result. -/
theorem flushed16_eq (c : Dev nD) (t : Fin cfg1.N) :
    (dat1 (F := Ideal) V c).flushed 16 t = ((cfg1.win 16).blk t).view.read (Elt Ideal) (G16 V c) := by
  show (cfg1.win 16).cut (grid1.coords t) ((dat1 V c).after 16 t) = _
  rw [after1_16]
  funext y
  rw [View.read_apply]
  have hi := idx1_16 t
  have h0 : (y 0).val < 256 := (y 0).isLt
  have h1 : (y 1).val < 256 := (y 1).isLt
  have hN : cfg1.N = 16 := N_1
  have ht : t.val < 16 := by have := t.isLt; omega
  have e : (cfg1.win 16).xinj (grid1.coords t) y = ix2 (⟨(y 0).val, h0⟩ : Fin 256) (⟨(y 1).val, h1⟩ : Fin 256) :=
    funext fun a => Fin.ext (by match a with | ⟨0, _⟩ => rfl | ⟨1, _⟩ => rfl)
  have e2 : ((cfg1.win 16).blk t).view.emb y
      = ix2 (⟨256 * t.val + (y 0).val, by omega⟩ : Fin 4096) (⟨(y 1).val, h1⟩ : Fin 256) :=
    funext fun a => Fin.ext (by
      match a with
      | ⟨0, _⟩ => show win1_16.index t (0 : Fin 2) * 256 + 1 * (y 0).val = 256 * t.val + (y 0).val; rw [hi.1]; omega
      | ⟨1, _⟩ => show win1_16.index t (1 : Fin 2) * 256 + 1 * (y 1).val = (y 1).val; rw [hi.2]; omega)
  show out1_16 V c t ((cfg1.win 16).xinj (grid1.coords t) y) = G16 V c (((cfg1.win 16).blk t).view.emb y)
  rw [e, e2]
  exact out16_apply V c t _ _ _ rfl

/-- Row `r` of the result is written by point `r / 256`. -/
theorem cover16 (i : S4096x256.Idx) :
    ∃ t : Fin cfg1.N, (cfg1.win 16).flush t = true ∧ i ∈ ((cfg1.win 16).blk t).view.set := by
  have hi0 : (i 0).val < 4096 := (i 0).isLt
  have hi1 : (i 1).val < 256 := (i 1).isLt
  have hN : cfg1.N = 16 := N_1
  obtain ⟨t, htv⟩ : ∃ t : Fin cfg1.N, t.val = (i 0).val / 256 := ⟨⟨(i 0).val / 256, by omega⟩, rfl⟩
  refine ⟨t, flush1_16 t, ?_⟩
  show i ∈ ((View.whole main_v21).slice (win1_16.rect t)).set
  rw [View.set_slice_whole, Rect.mem_set_unit]
  have hi := idx1_16 t
  intro a
  match a with
  | ⟨0, _⟩ =>
    show win1_16.index t (0 : Fin 2) * 256 ≤ (i 0).val ∧ (i 0).val < win1_16.index t (0 : Fin 2) * 256 + 256
    rw [hi.1, htv]; omega
  | ⟨1, _⟩ =>
    show win1_16.index t (1 : Fin 2) * 256 ≤ (i 1).val ∧ (i 1).val < win1_16.index t (1 : Fin 2) * 256 + 256
    rw [hi.2]; omega

/-- The result array after the region: the two heads of the region's input arrays, halved, rectified and added. -/
theorem arr1_16 (c : Dev nD) :
    (dat1 (F := Ideal) V c).arrAt 16 cfg1.N
      = layer2 (V c main_arg2) (V c main_arg4) (V c main_v20_0) (V c main_v20_1) (V c main_v0) (V c main_v1)
      (V c main_arg10) (V c main_v4) (V c main_arg12) (V c main_v5) (V c main_v10) (V c main_v13) (V c main_v6)
      (V c main_v16) (V c main_v19) (V c main_v7) :=
  (dat1 (F := Ideal) V c).arrAt_eq_of_cover 16 (G16 V c) (fun t _ => flushed16_eq V c t) (fun i => cover16 i)

end Cert.KernelIdeal.HandValue

end
-- ==== Proof.KernelIdeal.HostReads.lean ====
/-
  What the host operations before the two regions leave, on the extended reals: the features unchanged (a change of
  float format is the identity), each bias as one row, and each half of the two 256x512 weights transposed — entry
  (k, j) of the first half is the weight's (j, k), of the second half its (j, 256 + k).
-/
import proofs.«176739_g8323646620422_cont_9to1_m_1182_25_alg».proof.Proof.Gen.KernelIdeal.Launch
import proofs.«176739_g8323646620422_cont_9to1_m_1182_25_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx Idealize.ShloMosaic.TcCoe Idealize.SL.Sem Idealize.ShloMosaic.StableHlo

variable (m : (ℓ : Loc nD τ sig) → Buf (Elt Ideal) ℓ)

/-! ## The host stretch's layout operations at an index -/

/-- A bias reshaped to one row: the row's column `j` is the bias's entry `j`. -/
theorem row_of (b : Vec Ideal S256 .f32) (j : Fin 256) :
    shapeCast S1x256 b shapeCasts_S256_S1x256 (ix2 (0 : Fin 1) j) = b (ix1 j) :=
  shapeCast_apply b shapeCasts_S256_S1x256 (ix2 (0 : Fin 1) j) (ix1 j) (by
    rw [Shape.rowMajor_val_one, Shape.rowMajor_val_two]
    show j.val = 0 * 256 + j.val
    omega)

/-- The first 256 columns of a 256x512 weight, transposed: entry `(k, j)` is the weight's `(j, k)`. -/
theorem half_lo (A : Vec Ideal S256x512 .f32) (k j : Fin 256) :
    (truncf .bf16 (transpose S256x256 [1, 0] (extractStridedSlice S256x256 ![0, 0] A slices_S256x512_S256x256_0_0)
      transposes_S256x256_S256x256_1_0) bitsLt_bf16_f32 : FVec Ideal S256x256 .bf16) (ix2 k j) = A (ix2 j (Spec.lo512 k)) := by
  rw [truncf_apply, transpose_apply [1, 0] _ transposes_S256x256_S256x256_1_0 (ix2 k j) (ix2 j k) (fun b => match b with
    | ⟨0, _⟩ => rfl
    | ⟨1, _⟩ => rfl)]
  exact extractStridedSlice_apply ![0, 0] A slices_S256x512_S256x256_0_0 (ix2 j k) (ix2 j (Spec.lo512 k)) (fun a => match a with
    | ⟨0, _⟩ => by show j.val = 0 + j.val; omega
    | ⟨1, _⟩ => by show k.val = 0 + k.val; omega)

/-- The last 256 columns of a 256x512 weight, transposed: entry `(k, j)` is the weight's `(j, 256 + k)`. -/
theorem half_hi (A : Vec Ideal S256x512 .f32) (k j : Fin 256) :
    (truncf .bf16 (transpose S256x256 [1, 0] (extractStridedSlice S256x256 ![0, 256] A slices_S256x512_S256x256_0_256)
      transposes_S256x256_S256x256_1_0) bitsLt_bf16_f32 : FVec Ideal S256x256 .bf16) (ix2 k j) = A (ix2 j (Spec.hi512 k)) := by
  rw [truncf_apply, transpose_apply [1, 0] _ transposes_S256x256_S256x256_1_0 (ix2 k j) (ix2 j k) (fun b => match b with
    | ⟨0, _⟩ => rfl
    | ⟨1, _⟩ => rfl)]
  exact extractStridedSlice_apply ![0, 256] A slices_S256x512_S256x256_0_256 (ix2 j k) (ix2 j (Spec.hi512 k)) (fun a => match a with
    | ⟨0, _⟩ => by show j.val = 0 + j.val; omega
    | ⟨1, _⟩ => by show 256 + k.val = 256 + k.val; rfl)

/-! ## What the host stretch leaves in each buffer the two regions read -/

/-- The features in the narrower format: the same array on the extended reals. -/
theorem host_v0 (c : Dev nD) :
    StableHlo.after (hostOps0 (F := Ideal)) (fun b => m (c, b)) (Proc.devRef .tc main_v0)
      = (m ((c.tc : Thread nD τ).loc main_arg0) : Vec Ideal S4096x256 .f32) := by
  after_results
  rfl

/-- The features in the narrower format: the same array on the extended reals. -/
theorem host_v1 (c : Dev nD) :
    StableHlo.after (hostOps0 (F := Ideal)) (fun b => m (c, b)) (Proc.devRef .tc main_v1)
      = (m ((c.tc : Thread nD τ).loc main_arg1) : Vec Ideal S4096x256 .f32) := by
  after_results
  rfl

theorem host_v2 (c : Dev nD) (j : Fin 256) :
    (StableHlo.after (hostOps0 (F := Ideal)) (fun b => m (c, b)) (Proc.devRef .tc main_v2) : Vec Ideal S1x256 .f32) (ix2 (0 : Fin 1) j)
      = (m ((c.tc : Thread nD τ).loc main_arg7) : Vec Ideal S256 .f32) (ix1 j) := by
  after_results
  exact row_of _ j

theorem host_v3 (c : Dev nD) (j : Fin 256) :
    (StableHlo.after (hostOps0 (F := Ideal)) (fun b => m (c, b)) (Proc.devRef .tc main_v3) : Vec Ideal S1x256 .f32) (ix2 (0 : Fin 1) j)
      = (m ((c.tc : Thread nD τ).loc main_arg9) : Vec Ideal S256 .f32) (ix1 j) := by
  after_results
  exact row_of _ j

theorem host_v4 (c : Dev nD) (j : Fin 256) :
    (StableHlo.after (hostOps0 (F := Ideal)) (fun b => m (c, b)) (Proc.devRef .tc main_v4) : Vec Ideal S1x256 .f32) (ix2 (0 : Fin 1) j)
      = (m ((c.tc : Thread nD τ).loc main_arg11) : Vec Ideal S256 .f32) (ix1 j) := by
  after_results
  exact row_of _ j

theorem host_v5 (c : Dev nD) (j : Fin 256) :
    (StableHlo.after (hostOps0 (F := Ideal)) (fun b => m (c, b)) (Proc.devRef .tc main_v5) : Vec Ideal S1x256 .f32) (ix2 (0 : Fin 1) j)
      = (m ((c.tc : Thread nD τ).loc main_arg13) : Vec Ideal S256 .f32) (ix1 j) := by
  after_results
  exact row_of _ j

theorem host_v6 (c : Dev nD) (j : Fin 256) :
    (StableHlo.after (hostOps0 (F := Ideal)) (fun b => m (c, b)) (Proc.devRef .tc main_v6) : Vec Ideal S1x256 .f32) (ix2 (0 : Fin 1) j)
      = (m ((c.tc : Thread nD τ).loc main_arg15) : Vec Ideal S256 .f32) (ix1 j) := by
  after_results
  exact row_of _ j

theorem host_v7 (c : Dev nD) (j : Fin 256) :
    (StableHlo.after (hostOps0 (F := Ideal)) (fun b => m (c, b)) (Proc.devRef .tc main_v7) : Vec Ideal S1x256 .f32) (ix2 (0 : Fin 1) j)
      = (m ((c.tc : Thread nD τ).loc main_arg17) : Vec Ideal S256 .f32) (ix1 j) := by
  after_results
  exact row_of _ j

theorem host_v10 (c : Dev nD) (k j : Fin 256) :
    (StableHlo.after (hostOps0 (F := Ideal)) (fun b => m (c, b)) (Proc.devRef .tc main_v10) : Vec Ideal S256x256 .bf16) (ix2 k j)
      = (m ((c.tc : Thread nD τ).loc main_arg14) : Vec Ideal S256x512 .f32) (ix2 j (Spec.lo512 k)) := by
  after_results
  exact half_lo _ k j

theorem host_v13 (c : Dev nD) (k j : Fin 256) :
    (StableHlo.after (hostOps0 (F := Ideal)) (fun b => m (c, b)) (Proc.devRef .tc main_v13) : Vec Ideal S256x256 .bf16) (ix2 k j)
      = (m ((c.tc : Thread nD τ).loc main_arg14) : Vec Ideal S256x512 .f32) (ix2 j (Spec.hi512 k)) := by
  after_results
  exact half_hi _ k j

theorem host_v16 (c : Dev nD) (k j : Fin 256) :
    (StableHlo.after (hostOps0 (F := Ideal)) (fun b => m (c, b)) (Proc.devRef .tc main_v16) : Vec Ideal S256x256 .bf16) (ix2 k j)
      = (m ((c.tc : Thread nD τ).loc main_arg16) : Vec Ideal S256x512 .f32) (ix2 j (Spec.lo512 k)) := by
  after_results
  exact half_lo _ k j

theorem host_v19 (c : Dev nD) (k j : Fin 256) :
    (StableHlo.after (hostOps0 (F := Ideal)) (fun b => m (c, b)) (Proc.devRef .tc main_v19) : Vec Ideal S256x256 .bf16) (ix2 k j)
      = (m ((c.tc : Thread nD τ).loc main_arg16) : Vec Ideal S256x512 .f32) (ix2 j (Spec.hi512 k)) := by
  after_results
  exact half_hi _ k j

end Cert.KernelIdeal.HandValue

end
-- ==== Proof.KernelIdeal.Value.lean ====
/-
  The kernel program's result on the extended reals, as a function of the launch memory. The program is a stretch of
  host operations, then two regions. The second region's result is the two heads of its sixteen input arrays; of those,
  two are the first region's results (each path's first layer, of the first region's inputs), the features and four
  weights are arguments or the host stretch's copies of arguments, and the remaining ones are host results read at an
  index: a bias as a row, or half of a 256x512 weight transposed. Rewriting each input array by what it holds turns
  each head into the specification's linear layer on the two stacked layers — the transposed first half of the weight
  at (k, j) is the weight at (j, k), the second half at (j, 256 + k), which is exactly the specification's grouping
  of the 512 columns — and the result into the specification.
-/
import proofs.«176739_g8323646620422_cont_9to1_m_1182_25_alg».proof.Proof.KernelIdeal.Fold
import proofs.«176739_g8323646620422_cont_9to1_m_1182_25_alg».proof.Proof.KernelIdeal.Value0
import proofs.«176739_g8323646620422_cont_9to1_m_1182_25_alg».proof.Proof.KernelIdeal.Value1
import proofs.«176739_g8323646620422_cont_9to1_m_1182_25_alg».proof.Proof.KernelIdeal.HostReads
import proofs.«176739_g8323646620422_cont_9to1_m_1182_25_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe Idealize.SL.Sem Idealize.ShloMosaic.StableHlo
open Idealize.ShloMosaic.Pipeline (Dat Cfg Window)

variable (m : (ℓ : Loc nD τ sig) → Buf (Elt Ideal) ℓ)

open scoped BigOperators

/-! ## The second region's entry contents, array by array, in terms of the launch memory -/

/-! An argument no host operation and no window of the first region writes. -/

theorem entry_arg2 (c : Dev nD) : E2 m c main_arg2 = m ((c.tc : Thread nD τ).loc main_arg2) :=
  (W2_of_ne m c main_arg2 (by decide)).trans (V1_of m c main_arg2 (by decide))

theorem entry_arg4 (c : Dev nD) : E2 m c main_arg4 = m ((c.tc : Thread nD τ).loc main_arg4) :=
  (W2_of_ne m c main_arg4 (by decide)).trans (V1_of m c main_arg4 (by decide))

theorem entry_arg10 (c : Dev nD) : E2 m c main_arg10 = m ((c.tc : Thread nD τ).loc main_arg10) :=
  (W2_of_ne m c main_arg10 (by decide)).trans (V1_of m c main_arg10 (by decide))

theorem entry_arg12 (c : Dev nD) : E2 m c main_arg12 = m ((c.tc : Thread nD τ).loc main_arg12) :=
  (W2_of_ne m c main_arg12 (by decide)).trans (V1_of m c main_arg12 (by decide))

/-! An argument the first region reads through a window (and does not write). -/

theorem entry1_arg3 (c : Dev nD) : E1 m c main_arg3 = m ((c.tc : Thread nD τ).loc main_arg3) := V1_of m c main_arg3 (by decide)

theorem entry1_arg5 (c : Dev nD) : E1 m c main_arg5 = m ((c.tc : Thread nD τ).loc main_arg5) := V1_of m c main_arg5 (by decide)

theorem entry1_arg6 (c : Dev nD) : E1 m c main_arg6 = m ((c.tc : Thread nD τ).loc main_arg6) := V1_of m c main_arg6 (by decide)

theorem entry1_arg8 (c : Dev nD) : E1 m c main_arg8 = m ((c.tc : Thread nD τ).loc main_arg8) := V1_of m c main_arg8 (by decide)

/-! The features in the narrower format: the first region reads them through a window; the host stretch left the
    features themselves. -/

theorem entry1_v0 (c : Dev nD) : E1 m c main_v0 = (m ((c.tc : Thread nD τ).loc main_arg0) : Vec Ideal S4096x256 .f32) := host_v0 m c
theorem entry_v0 (c : Dev nD) : E2 m c main_v0 = (m ((c.tc : Thread nD τ).loc main_arg0) : Vec Ideal S4096x256 .f32) :=
  ((W2_arr m c 2).trans (((dat0 (E1 m) c).arrAt_in 2 rfl _).trans (A_eq0 (E1 m) c 2))).trans (host_v0 m c)

theorem entry1_v1 (c : Dev nD) : E1 m c main_v1 = (m ((c.tc : Thread nD τ).loc main_arg1) : Vec Ideal S4096x256 .f32) := host_v1 m c
theorem entry_v1 (c : Dev nD) : E2 m c main_v1 = (m ((c.tc : Thread nD τ).loc main_arg1) : Vec Ideal S4096x256 .f32) :=
  ((W2_arr m c 3).trans (((dat0 (E1 m) c).arrAt_in 3 rfl _).trans (A_eq0 (E1 m) c 3))).trans (host_v1 m c)

/-! The biases as rows and the transposed halves of the two linear layers' weights: host results no window of the
    first region touches. -/

theorem entry_v4 (c : Dev nD) (j : Fin 256) :
    (E2 m c main_v4 : Vec Ideal S1x256 .f32) (ix2 (0 : Fin 1) j) = (m ((c.tc : Thread nD τ).loc main_arg11) : Vec Ideal S256 .f32) (ix1 j) :=
  (congrFun (W2_of_ne m c main_v4 (by decide)) (ix2 (0 : Fin 1) j)).trans (host_v4 m c j)

theorem entry_v5 (c : Dev nD) (j : Fin 256) :
    (E2 m c main_v5 : Vec Ideal S1x256 .f32) (ix2 (0 : Fin 1) j) = (m ((c.tc : Thread nD τ).loc main_arg13) : Vec Ideal S256 .f32) (ix1 j) :=
  (congrFun (W2_of_ne m c main_v5 (by decide)) (ix2 (0 : Fin 1) j)).trans (host_v5 m c j)

theorem entry_v6 (c : Dev nD) (j : Fin 256) :
    (E2 m c main_v6 : Vec Ideal S1x256 .f32) (ix2 (0 : Fin 1) j) = (m ((c.tc : Thread nD τ).loc main_arg15) : Vec Ideal S256 .f32) (ix1 j) :=
  (congrFun (W2_of_ne m c main_v6 (by decide)) (ix2 (0 : Fin 1) j)).trans (host_v6 m c j)

theorem entry_v7 (c : Dev nD) (j : Fin 256) :
    (E2 m c main_v7 : Vec Ideal S1x256 .f32) (ix2 (0 : Fin 1) j) = (m ((c.tc : Thread nD τ).loc main_arg17) : Vec Ideal S256 .f32) (ix1 j) :=
  (congrFun (W2_of_ne m c main_v7 (by decide)) (ix2 (0 : Fin 1) j)).trans (host_v7 m c j)

theorem entry_v10 (c : Dev nD) (k j : Fin 256) :
    (E2 m c main_v10 : Vec Ideal S256x256 .bf16) (ix2 k j) = (m ((c.tc : Thread nD τ).loc main_arg14) : Vec Ideal S256x512 .f32) (ix2 j (Spec.lo512 k)) :=
  (congrFun (W2_of_ne m c main_v10 (by decide)) (ix2 k j)).trans (host_v10 m c k j)

theorem entry_v13 (c : Dev nD) (k j : Fin 256) :
    (E2 m c main_v13 : Vec Ideal S256x256 .bf16) (ix2 k j) = (m ((c.tc : Thread nD τ).loc main_arg14) : Vec Ideal S256x512 .f32) (ix2 j (Spec.hi512 k)) :=
  (congrFun (W2_of_ne m c main_v13 (by decide)) (ix2 k j)).trans (host_v13 m c k j)

theorem entry_v16 (c : Dev nD) (k j : Fin 256) :
    (E2 m c main_v16 : Vec Ideal S256x256 .bf16) (ix2 k j) = (m ((c.tc : Thread nD τ).loc main_arg16) : Vec Ideal S256x512 .f32) (ix2 j (Spec.lo512 k)) :=
  (congrFun (W2_of_ne m c main_v16 (by decide)) (ix2 k j)).trans (host_v16 m c k j)

theorem entry_v19 (c : Dev nD) (k j : Fin 256) :
    (E2 m c main_v19 : Vec Ideal S256x256 .bf16) (ix2 k j) = (m ((c.tc : Thread nD τ).loc main_arg16) : Vec Ideal S256x512 .f32) (ix2 j (Spec.hi512 k)) :=
  (congrFun (W2_of_ne m c main_v19 (by decide)) (ix2 k j)).trans (host_v19 m c k j)

/-! The first region's two results: the first layer of each path, of the launch memory. -/

theorem entry_v20_0 (c : Dev nD) :
    E2 m c main_v20_0 = Spec.gcn (m ((c.tc : Thread nD τ).loc main_arg0)) (m ((c.tc : Thread nD τ).loc main_arg3)) (m ((c.tc : Thread nD τ).loc main_arg6)) (m ((c.tc : Thread nD τ).loc main_arg7)) := by
  have h : E2 m c main_v20_0 = (dat0 (E1 m) c).arrAt 8 cfg0.N := W2_arr m c 8
  have hb : (fun i : Spec.S256.Idx => (E1 m c main_v2 : Vec Ideal S1x256 .f32) (ix2 (0 : Fin 1) (i 0))) = (m ((c.tc : Thread nD τ).loc main_arg7) : Vec Ideal S256 .f32) :=
    funext fun i => (host_v2 m c (i 0)).trans (congrArg _ (eq_ix1 i).symm)
  rw [h, arr0_8 (E1 m) c, entry1_v0, entry1_arg3, entry1_arg6, hb]

theorem entry_v20_1 (c : Dev nD) :
    E2 m c main_v20_1 = Spec.gcn (m ((c.tc : Thread nD τ).loc main_arg1)) (m ((c.tc : Thread nD τ).loc main_arg5)) (m ((c.tc : Thread nD τ).loc main_arg8)) (m ((c.tc : Thread nD τ).loc main_arg9)) := by
  have h : E2 m c main_v20_1 = (dat0 (E1 m) c).arrAt 9 cfg0.N := W2_arr m c 9
  have hb : (fun i : Spec.S256.Idx => (E1 m c main_v3 : Vec Ideal S1x256 .f32) (ix2 (0 : Fin 1) (i 0))) = (m ((c.tc : Thread nD τ).loc main_arg9) : Vec Ideal S256 .f32) :=
    funext fun i => (host_v3 m c (i 0)).trans (congrArg _ (eq_ix1 i).symm)
  rw [h, arr0_9 (E1 m) c, entry1_v1, entry1_arg5, entry1_arg8, hb]

/-! ## Each path of the second region, of the launch memory -/

/-- The s path at the second region's entry: its second layer and linear layer, of the launch memory. -/
theorem head2_s (c : Dev nD) (r : Fin 4096) (j : Fin 256) :
    head2 (E2 m c main_arg2) (E2 m c main_v20_0) (E2 m c main_v0) (E2 m c main_arg10) (E2 m c main_v4) (E2 m c main_v10) (E2 m c main_v13) (E2 m c main_v6) r j
      = Spec.lin (Spec.gcn (Spec.gcn (m ((c.tc : Thread nD τ).loc main_arg0)) (m ((c.tc : Thread nD τ).loc main_arg3)) (m ((c.tc : Thread nD τ).loc main_arg6)) (m ((c.tc : Thread nD τ).loc main_arg7))) (m ((c.tc : Thread nD τ).loc main_arg2)) (m ((c.tc : Thread nD τ).loc main_arg10)) (m ((c.tc : Thread nD τ).loc main_arg11)))
          (m ((c.tc : Thread nD τ).loc main_arg0)) (m ((c.tc : Thread nD τ).loc main_arg14)) (m ((c.tc : Thread nD τ).loc main_arg15)) (ix2 r j) := by
  have hb : (fun a : Spec.S256.Idx => (E2 m c main_v4 : Vec Ideal S1x256 .f32) (ix2 (0 : Fin 1) (a 0))) = (m ((c.tc : Thread nD τ).loc main_arg11) : Vec Ideal S256 .f32) :=
    funext fun a => (entry_v4 m c (a 0)).trans (congrArg _ (eq_ix1 a).symm)
  unfold head2
  rw [entry_arg2 m c, entry_v20_0 m c, entry_v0 m c, entry_arg10 m c, hb]
  simp only [entry_v10 m c, entry_v13 m c, entry_v6 m c]
  rfl

/-- The t path at the second region's entry: its second layer and linear layer, of the launch memory. -/
theorem head2_t (c : Dev nD) (r : Fin 4096) (j : Fin 256) :
    head2 (E2 m c main_arg4) (E2 m c main_v20_1) (E2 m c main_v1) (E2 m c main_arg12) (E2 m c main_v5) (E2 m c main_v16) (E2 m c main_v19) (E2 m c main_v7) r j
      = Spec.lin (Spec.gcn (Spec.gcn (m ((c.tc : Thread nD τ).loc main_arg1)) (m ((c.tc : Thread nD τ).loc main_arg5)) (m ((c.tc : Thread nD τ).loc main_arg8)) (m ((c.tc : Thread nD τ).loc main_arg9))) (m ((c.tc : Thread nD τ).loc main_arg4)) (m ((c.tc : Thread nD τ).loc main_arg12)) (m ((c.tc : Thread nD τ).loc main_arg13)))
          (m ((c.tc : Thread nD τ).loc main_arg1)) (m ((c.tc : Thread nD τ).loc main_arg16)) (m ((c.tc : Thread nD τ).loc main_arg17)) (ix2 r j) := by
  have hb : (fun a : Spec.S256.Idx => (E2 m c main_v5 : Vec Ideal S1x256 .f32) (ix2 (0 : Fin 1) (a 0))) = (m ((c.tc : Thread nD τ).loc main_arg13) : Vec Ideal S256 .f32) :=
    funext fun a => (entry_v5 m c (a 0)).trans (congrArg _ (eq_ix1 a).symm)
  unfold head2
  rw [entry_arg4 m c, entry_v20_1 m c, entry_v1 m c, entry_arg12 m c, hb]
  simp only [entry_v16 m c, entry_v19 m c, entry_v7 m c]
  rfl

/-! ## The kernel's result, of the launch memory -/

/-- The program's result array after both regions is the specification of the eighteen argument arrays as launched. -/
theorem kernel_value (c : Dev nD) :
    W3 m c (Proc.devRef .tc main_v21)
      = Spec.out (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) (m ((c.tc : Thread nD τ).loc main_arg15))
          (m ((c.tc : Thread nD τ).loc main_arg16)) (m ((c.tc : Thread nD τ).loc main_arg17)) := by
  rw [W3_result, arr1_16 (E2 m) c]
  refine funext fun (i : S4096x256.Idx) => ?_
  obtain ⟨r, j, rfl⟩ : ∃ (r : Fin 4096) (j : Fin 256), i = ix2 r j := ⟨i 0, i 1, eq_ix2 i⟩
  rw [layer2_ix2, head2_s m c r j, head2_t m c r j]
  rfl

end Cert.KernelIdeal.HandValue

end
-- ==== Proof.RefValue.lean ====
/-
  The reference program's result, as a function of its eighteen argument arrays, is the specification `Cert.Spec.out`.
  The reference is read stage by stage at an index (r, j). A graph-convolution layer is two exact products (the inner
  one x · W first), the bias broadcast along the rows, and the select between z and slope · z on z > 0; its four
  occurrences are one composition of stages at different operands, so one lemma (`gcn_eq`) serves them all. The
  linear layer is ONE product over the 512 columns of the concatenation [h, x] against the transposed weight; the sum
  over 512 columns splits into the first 256 (where [h, x] is h) and the last 256 (where it is x, 256 columns to the
  left), which is the specification's grouping (`lin_eq`). The two paths are again one composition of stages at
  different operands (`path_eq`), and the result is their sum (`result_eq`). No law beyond the splitting of a finite
  sum is used, so nothing here needs the entries to be finite.
-/
import proofs.«176739_g8323646620422_cont_9to1_m_1182_25_alg».proof.Proof.Gen.ReferenceIdeal.Run
import proofs.«176739_g8323646620422_cont_9to1_m_1182_25_alg».proof.Proof.Gen.ReferenceIdeal.Read
import proofs.«176739_g8323646620422_cont_9to1_m_1182_25_alg».proof.Proof.Spec

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem

/-! ## Index equations: the composed index maps of the stages, at coordinates -/

theorem lidx_v0 (k : Fin 4096) (j : Fin 256) (l : Fin 256) : Read.lidx_main_v0 (ix2 k j) l = ix2 k l :=
  funext fun a => Fin.ext (by match a with | ⟨0, _⟩ => rfl | ⟨1, _⟩ => rfl)
theorem ridx_v0 (k : Fin 4096) (j : Fin 256) (l : Fin 256) : Read.ridx_main_v0 (ix2 k j) l = ix2 l j :=
  funext fun a => Fin.ext (by match a with | ⟨0, _⟩ => rfl | ⟨1, _⟩ => rfl)
theorem lidx_v1 (r : Fin 4096) (j : Fin 256) (k : Fin 4096) : Read.lidx_main_v1 (ix2 r j) k = ix2 r k :=
  funext fun a => Fin.ext (by match a with | ⟨0, _⟩ => rfl | ⟨1, _⟩ => rfl)
theorem ridx_v1 (r : Fin 4096) (j : Fin 256) (k : Fin 4096) : Read.ridx_main_v1 (ix2 r j) k = ix2 k j :=
  funext fun a => Fin.ext (by match a with | ⟨0, _⟩ => rfl | ⟨1, _⟩ => rfl)
theorem idx_v3v2 (r : Fin 4096) (j : Fin 256) : Read.idx_main_v2 (Read.idx_main_v3 (ix2 r j)) = ix1 j :=
  funext fun a => Fin.ext (by match a with | ⟨0, _⟩ => rfl)

/-! ## One graph-convolution layer -/

/-- The first layer's stages (two products, the bias broadcast, the comparison with zero, the product with the
    slope, the select) are the specification's layer, for any operands. -/
theorem gcn_eq (x : (⟨S4096x256, .f32⟩ : BufTy).Contents (Elt Ideal)) (adj : (⟨S4096x4096, .f32⟩ : BufTy).Contents (Elt Ideal)) (W : (⟨S256x256, .f32⟩ : BufTy).Contents (Elt Ideal)) (b : (⟨S256, .f32⟩ : BufTy).Contents (Elt Ideal)) :
    Read.val_main_v9 (F := Ideal) x adj W b = Spec.gcn x adj W b := by
  funext i
  obtain ⟨r, j, rfl⟩ : ∃ (r : Fin 4096) (j : Fin 256), i = ix2 r j := ⟨i 0, i 1, eq_ix2 i⟩
  rw [Read.val_main_v9_apply, Read.val_main_v6_apply, Read.val_main_v8_apply, Read.val_main_v7_apply,
    Read.val_main_cst_0_apply, Read.val_main_v5_apply, Read.val_main_cst_apply, Read.val_main_v4_apply,
    Read.val_main_v3_apply, Read.val_main_v2_apply, Read.val_main_v1_apply]
  simp only [Read.val_main_v0_apply, lidx_v0, ridx_v0, lidx_v1, ridx_v1, idx_v3v2, Ideal.addf_def, Ideal.mulf_def,
    Ideal.ofBits_def, Ideal.cmpf_def]
  rfl

/-- The second layer of a path is the first layer's stages again, on the first layer's output. -/
theorem gcn2_eq (x : (⟨S4096x256, .f32⟩ : BufTy).Contents (Elt Ideal)) (UV VU : (⟨S4096x4096, .f32⟩ : BufTy).Contents (Elt Ideal)) (W1 : (⟨S256x256, .f32⟩ : BufTy).Contents (Elt Ideal)) (b1 : (⟨S256, .f32⟩ : BufTy).Contents (Elt Ideal))
    (W3 : (⟨S256x256, .f32⟩ : BufTy).Contents (Elt Ideal)) (b3 : (⟨S256, .f32⟩ : BufTy).Contents (Elt Ideal)) :
    Read.val_main_v19 (F := Ideal) x UV VU W1 b1 W3 b3 = Spec.gcn (Spec.gcn x VU W1 b1) UV W3 b3 := by
  have e : Read.val_main_v19 (F := Ideal) x UV VU W1 b1 W3 b3
      = Read.val_main_v9 (F := Ideal) (Read.val_main_v9 (F := Ideal) x VU W1 b1) UV W3 b3 := rfl
  rw [e, gcn_eq, gcn_eq]

/-! ## The linear layer on the concatenation -/

/-- A column of the first half of the concatenation `[h, x]` is `h`'s. -/
theorem concat_lo (h x : (⟨S4096x256, .f32⟩ : BufTy).Contents (Elt Ideal)) (r : Fin 4096) (j : Fin 256) (k : Fin 256) :
    concatenate S4096x512 1 [⟨S4096x256, h⟩, ⟨S4096x256, x⟩] concatenates_S4096x256_S4096x256_S4096x512_d1
      (Read.lidx_main_v42 (ix2 r j) (Spec.lo512 k)) = h (ix2 r k) :=
  concatenate_pair_apply_left (1 : Fin S4096x512.rank) h x concatenates_S4096x256_S4096x256_S4096x512_d1 _ rfl (ix2 r k)
    (fun b => by match b with | ⟨0, _⟩ => rfl | ⟨1, _⟩ => rfl)

/-- A column of the second half of the concatenation `[h, x]` is `x`'s, 256 columns to the left. -/
theorem concat_hi (h x : (⟨S4096x256, .f32⟩ : BufTy).Contents (Elt Ideal)) (r : Fin 4096) (j : Fin 256) (k : Fin 256) :
    concatenate S4096x512 1 [⟨S4096x256, h⟩, ⟨S4096x256, x⟩] concatenates_S4096x256_S4096x256_S4096x512_d1
      (Read.lidx_main_v42 (ix2 r j) (Spec.hi512 k)) = x (ix2 r k) :=
  concatenate_pair_apply_right (1 : Fin S4096x512.rank) h x concatenates_S4096x256_S4096x256_S4096x512_d1 _ rfl rfl (ix2 r k)
    (fun b hb => by match b, hb with | ⟨0, _⟩, _ => rfl | ⟨1, _⟩, hb => exact absurd rfl hb)
    (by show k.val + 256 = 256 + k.val; omega)

theorem idx_v41 (r : Fin 4096) (j : Fin 256) (k : Fin 512) :
    Read.idx_main_v41 (Read.ridx_main_v42 (ix2 r j) k) = ix2 j k :=
  funext fun a => Fin.ext (by match a with | ⟨0, _⟩ => rfl | ⟨1, _⟩ => rfl)
theorem idx_v44v43 (r : Fin 4096) (j : Fin 256) : Read.idx_main_v43 (Read.idx_main_v44 (ix2 r j)) = ix1 j :=
  funext fun a => Fin.ext (by match a with | ⟨0, _⟩ => rfl)

/-- The reference's linear layer — one product over the 512 columns of `[h, x]` against the transposed weight,
    then the bias — is the specification's sum of the two 256-column halves: the sum over 512 columns splits, a
    column of the first half of `[h, x]` is `h`'s and one of the second half is `x`'s. -/
theorem lin_eq (x : (⟨S4096x256, .f32⟩ : BufTy).Contents (Elt Ideal)) (UV VU : (⟨S4096x4096, .f32⟩ : BufTy).Contents (Elt Ideal)) (W1 : (⟨S256x256, .f32⟩ : BufTy).Contents (Elt Ideal)) (b1 : (⟨S256, .f32⟩ : BufTy).Contents (Elt Ideal))
    (W3 : (⟨S256x256, .f32⟩ : BufTy).Contents (Elt Ideal)) (b3 : (⟨S256, .f32⟩ : BufTy).Contents (Elt Ideal)) (Wl : (⟨S256x512, .f32⟩ : BufTy).Contents (Elt Ideal)) (bl : (⟨S256, .f32⟩ : BufTy).Contents (Elt Ideal)) :
    Read.val_main_v45 (F := Ideal) x UV VU W1 b1 W3 b3 Wl bl
      = Spec.lin (Read.val_main_v19 (F := Ideal) x UV VU W1 b1 W3 b3) x Wl bl := by
  funext i
  obtain ⟨r, j, rfl⟩ : ∃ (r : Fin 4096) (j : Fin 256), i = ix2 r j := ⟨i 0, i 1, eq_ix2 i⟩
  rw [Read.val_main_v45_apply, Read.val_main_v44_apply, Read.val_main_v43_apply, Read.val_main_v42_apply,
    Spec.sum_split512]
  have hlo : ∀ k : Fin 256, Read.val_main_v40 (F := Ideal) x UV VU W1 b1 W3 b3 (Read.lidx_main_v42 (ix2 r j) (Spec.lo512 k))
      = Read.val_main_v19 (F := Ideal) x UV VU W1 b1 W3 b3 (ix2 r k) := fun k => concat_lo _ _ r j k
  have hhi : ∀ k : Fin 256, Read.val_main_v40 (F := Ideal) x UV VU W1 b1 W3 b3 (Read.lidx_main_v42 (ix2 r j) (Spec.hi512 k))
      = x (ix2 r k) := fun k => concat_hi _ _ r j k
  simp only [hlo, hhi, Read.val_main_v41_apply, idx_v41, idx_v44v43, Ideal.addf_def, Spec.lin_ix2, Spec.linAt]

/-! ## One path, and the result -/

/-- One path's weighted relu: half the maximum with zero of the linear layer on the two stacked layers. -/
theorem path_eq (x : (⟨S4096x256, .f32⟩ : BufTy).Contents (Elt Ideal)) (UV VU : (⟨S4096x4096, .f32⟩ : BufTy).Contents (Elt Ideal)) (W1 : (⟨S256x256, .f32⟩ : BufTy).Contents (Elt Ideal)) (b1 : (⟨S256, .f32⟩ : BufTy).Contents (Elt Ideal))
    (W3 : (⟨S256x256, .f32⟩ : BufTy).Contents (Elt Ideal)) (b3 : (⟨S256, .f32⟩ : BufTy).Contents (Elt Ideal)) (Wl : (⟨S256x512, .f32⟩ : BufTy).Contents (Elt Ideal)) (bl : (⟨S256, .f32⟩ : BufTy).Contents (Elt Ideal)) (i : S4096x256.Idx) :
    Read.val_main_v54 (F := Ideal) x UV VU W1 b1 W3 b3 Wl bl i
      = Spec.halfW * Spec.relu0 (Spec.lin (Spec.gcn (Spec.gcn x VU W1 b1) UV W3 b3) x Wl bl i) := by
  rw [Read.val_main_v54_apply, Read.val_main_v53_apply, Read.val_main_cst_7_apply, Read.val_main_v52_apply,
    Read.val_main_call4_v0_apply, Read.val_main_call4_cst_apply, lin_eq, gcn2_eq]
  simp only [Ideal.mulf_def, Ideal.maximumf_def, Ideal.ofBits_def]
  rfl

/-- The reference's result, as a function of its eighteen argument arrays, is the specification. -/
theorem result_eq (a0 a1 : (⟨S4096x256, .f32⟩ : BufTy).Contents (Elt Ideal)) (a2 a3 a4 a5 : (⟨S4096x4096, .f32⟩ : BufTy).Contents (Elt Ideal))
    (a6 : (⟨S256x256, .f32⟩ : BufTy).Contents (Elt Ideal)) (a7 : (⟨S256, .f32⟩ : BufTy).Contents (Elt Ideal)) (a8 : (⟨S256x256, .f32⟩ : BufTy).Contents (Elt Ideal)) (a9 : (⟨S256, .f32⟩ : BufTy).Contents (Elt Ideal))
    (a10 : (⟨S256x256, .f32⟩ : BufTy).Contents (Elt Ideal)) (a11 : (⟨S256, .f32⟩ : BufTy).Contents (Elt Ideal)) (a12 : (⟨S256x256, .f32⟩ : BufTy).Contents (Elt Ideal)) (a13 : (⟨S256, .f32⟩ : BufTy).Contents (Elt Ideal))
    (a14 : (⟨S256x512, .f32⟩ : BufTy).Contents (Elt Ideal)) (a15 : (⟨S256, .f32⟩ : BufTy).Contents (Elt Ideal)) (a16 : (⟨S256x512, .f32⟩ : BufTy).Contents (Elt Ideal)) (a17 : (⟨S256, .f32⟩ : BufTy).Contents (Elt Ideal)) :
    Read.val_main_v58 (F := Ideal) a0 a1 a2 a3 a4 a5 a6 a7 a8 a9 a10 a11 a12 a13 a14 a15 a16 a17
      = Spec.out a0 a1 a2 a3 a4 a5 a6 a7 a8 a9 a10 a11 a12 a13 a14 a15 a16 a17 := by
  funext i
  have e : Read.val_main_v57 (F := Ideal) a1 a4 a5 a8 a9 a12 a13 a16 a17
      = Read.val_main_v54 (F := Ideal) a1 a4 a5 a8 a9 a12 a13 a16 a17 := rfl
  rw [Read.val_main_v58_apply, e, path_eq, path_eq]
  simp only [Ideal.addf_def]
  rfl

end Cert.ReferenceIdeal.RefValue

end
-- ==== Proof.lean ====
/-
  The certificate of a two-layer dense graph convolution on two paths (source, target), fused with a concat-linear
  layer and a half-and-half relu combine, against its plain reference.

  THE KERNEL is two pallas_calls over sixteen blocks of 256 adjacency rows. The first computes, per path, the first
  layer `h1 = leakyrelu (VU · (x · W) + b)`: at its first grid point it fills a scratch buffer with the support
  `x · W` (whole), which every point then multiplies by its block of adjacency rows. The second does the same with
  `h1` and the UV adjacency for the second layer `o2`, and in the same body applies the linear layer to `[o2, x]` as
  the sum of two products — `o2` against the transposed first half of the 256×512 weight, `x` against the transposed
  second half —, adds the bias, and combines the two paths as `½ · relu (·) + ½ · relu (·)`.

  THE REFERENCE computes the same layers on whole arrays; its linear layer is one product of the concatenation
  `[o2, x]` (512 columns) with the transposed weight.

  At the ideal instance a change of float format is the identity and every product is an exact sum over the extended
  reals, so both programs compute ONE function of the eighteen arguments (`Cert.Spec.out`): the kernel's blocks tile
  the rows; the reference's sum over 512 columns is the sum over the first 256 plus the sum over the last 256, which
  holds in any commutative additive monoid, so the inputs' finiteness is never used. The two halves of the weight are
  read through the host's slice and transpose. The leaky relu's slope and the weight ½ are the same binary32 words in
  both programs and are never evaluated.

  The three frames: each kernel program runs its host stretch and its two regions to the end with every argument
  array unchanged (the run of @main over the regions' proof data, stated once for any float instance and read at the
  word-level instance for the program as printed); the reference's frame is its run with the result dropped.
-/
import proofs.«176739_g8323646620422_cont_9to1_m_1182_25_alg».proof.Defs
import proofs.«176739_g8323646620422_cont_9to1_m_1182_25_alg».proof.Proof.Gen.Kernel
import proofs.«176739_g8323646620422_cont_9to1_m_1182_25_alg».proof.Proof.Gen.KernelIdeal
import proofs.«176739_g8323646620422_cont_9to1_m_1182_25_alg».proof.Proof.Gen.ReferenceIdeal
import proofs.«176739_g8323646620422_cont_9to1_m_1182_25_alg».proof.Proof.Gen.ReferenceIdeal.Run
import proofs.«176739_g8323646620422_cont_9to1_m_1182_25_alg».proof.Proof.Gen.ReferenceIdeal.Read
import proofs.«176739_g8323646620422_cont_9to1_m_1182_25_alg».proof.Proof.Gen.Pre_finite_inputs
import proofs.«176739_g8323646620422_cont_9to1_m_1182_25_alg».proof.Proof.Kernel.Run
import proofs.«176739_g8323646620422_cont_9to1_m_1182_25_alg».proof.Proof.KernelIdeal.Run
import proofs.«176739_g8323646620422_cont_9to1_m_1182_25_alg».proof.Proof.KernelIdeal.Value
import proofs.«176739_g8323646620422_cont_9to1_m_1182_25_alg».proof.Proof.RefValue
import Idealize.ShloMosaic.Adequacy
import Idealize.ShloMosaic.Init

noncomputable section

namespace Cert.Proof

open Idealize.ShloMosaic Idealize.ShloMosaic.TcCoe Idealize.SL.Sem

/-- The program as printed, at the word-level instance: it runs, and its arguments end unchanged. -/
theorem frame_k : Cert.frame_Kernel := fun m ρ _ => Cert.Kernel.Hand.frame (F := Bits) m ρ

/-- The idealized program: the same run at the ideal instance. -/
theorem frame_ki : Cert.frame_KernelIdeal := fun m ρ _ => Cert.KernelIdeal.Hand.frame (F := Ideal) m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end with the result array at `Cert.Spec.out` of the arguments: the kernel's by the fold through its two
    regions read block by block, the reference's by its operations read at an index; the arguments agree. -/
theorem algebraic : Cert.algebraic_KernelIdeal_ReferenceIdeal := by
  intro m ρ m' ρ' _ hagree
  refine ⟨fun c => Cert.KernelIdeal.Hand.W3 m c (Proc.devRef .tc Cert.KernelIdeal.main_v21),
    fun c => Cert.KernelIdeal.Hand.W3 m c (Proc.devRef .tc Cert.KernelIdeal.main_v21), ?_, ?_⟩
  · exact (θ_run (Cert.KernelIdeal.defs (F := Ideal)) _ _).mono (fun r h c => ⟨(h c).1, (h c).1, (h c).2⟩)
      (Cert.KernelIdeal.Hand.run_value (F := Ideal) m ρ)
  · have hval : ∀ c, Cert.ReferenceIdeal.Value.res_main_v58 m' c
        = Cert.KernelIdeal.Hand.W3 m c (Proc.devRef .tc Cert.KernelIdeal.main_v21) := fun c => by
      rw [Cert.ReferenceIdeal.Read.val_main_v58_eq, Cert.ReferenceIdeal.RefValue.result_eq,
        Cert.KernelIdeal.HandValue.kernel_value m c,
        (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
    exact (θ_run (Cert.ReferenceIdeal.defs (F := Ideal)) _ _).mono
      (fun _ h c => ⟨(h c).1.trans (hval c), (h c).2.1.trans (hval c), (h c).2.2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
